-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S512x256 : Shape := ⟨2, ![512, 256]⟩
abbrev S1x256 : Shape := ⟨2, ![1, 256]⟩
abbrev S32x256 : Shape := ⟨2, ![32, 256]⟩
abbrev S32 : Shape := ⟨1, ![32]⟩
abbrev S_ : Shape := ⟨0, ![]⟩
abbrev S256 : Shape := ⟨1, ![256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S32x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_128 : BitVec 32 := 1#32
  let v134 : BitVec 32 := Scalar.addi v2 c1_i32_128
  let c32_i32_129 : BitVec 32 := 32#32
  let v135 : BitVec 32 := Scalar.remsi v134 c32_i32_129
  let c1_i32_134 : BitVec 32 := 1#32
  let v136 : BitVec 32 := Scalar.muli v135 c1_i32_134
  let v137 : BitVec 32 := Scalar.addi c0_i32_135 v136
  v137.toNat
def k0_dev33 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_138 : BitVec 32 := 2#32
  let v146 : BitVec 32 := Scalar.addi v2 c2_i32_138
  let c32_i32_139 : BitVec 32 := 32#32
  let v147 : BitVec 32 := Scalar.remsi v146 c32_i32_139
  let c1_i32_144 : BitVec 32 := 1#32
  let v148 : BitVec 32 := Scalar.muli v147 c1_i32_144
  let v149 : BitVec 32 := Scalar.addi c0_i32_145 v148
  v149.toNat
def k0_dev34 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_148 : BitVec 32 := 3#32
  let v158 : BitVec 32 := Scalar.addi v2 c3_i32_148
  let c32_i32_149 : BitVec 32 := 32#32
  let v159 : BitVec 32 := Scalar.remsi v158 c32_i32_149
  let c1_i32_154 : BitVec 32 := 1#32
  let v160 : BitVec 32 := Scalar.muli v159 c1_i32_154
  let v161 : BitVec 32 := Scalar.addi c0_i32_155 v160
  v161.toNat
def k0_dev35 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_158 : BitVec 32 := 4#32
  let v170 : BitVec 32 := Scalar.addi v2 c4_i32_158
  let c32_i32_159 : BitVec 32 := 32#32
  let v171 : BitVec 32 := Scalar.remsi v170 c32_i32_159
  let c1_i32_164 : BitVec 32 := 1#32
  let v172 : BitVec 32 := Scalar.muli v171 c1_i32_164
  let v173 : BitVec 32 := Scalar.addi c0_i32_165 v172
  v173.toNat
def k0_dev36 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_168 : BitVec 32 := 5#32
  let v182 : BitVec 32 := Scalar.addi v2 c5_i32_168
  let c32_i32_169 : BitVec 32 := 32#32
  let v183 : BitVec 32 := Scalar.remsi v182 c32_i32_169
  let c1_i32_174 : BitVec 32 := 1#32
  let v184 : BitVec 32 := Scalar.muli v183 c1_i32_174
  let v185 : BitVec 32 := Scalar.addi c0_i32_175 v184
  v185.toNat
def k0_dev37 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_178 : BitVec 32 := 6#32
  let v194 : BitVec 32 := Scalar.addi v2 c6_i32_178
  let c32_i32_179 : BitVec 32 := 32#32
  let v195 : BitVec 32 := Scalar.remsi v194 c32_i32_179
  let c1_i32_184 : BitVec 32 := 1#32
  let v196 : BitVec 32 := Scalar.muli v195 c1_i32_184
  let v197 : BitVec 32 := Scalar.addi c0_i32_185 v196
  v197.toNat
def k0_dev38 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_188 : BitVec 32 := 7#32
  let v206 : BitVec 32 := Scalar.addi v2 c7_i32_188
  let c32_i32_189 : BitVec 32 := 32#32
  let v207 : BitVec 32 := Scalar.remsi v206 c32_i32_189
  let c1_i32_194 : BitVec 32 := 1#32
  let v208 : BitVec 32 := Scalar.muli v207 c1_i32_194
  let v209 : BitVec 32 := Scalar.addi c0_i32_195 v208
  v209.toNat
def k0_dev39 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_198 : BitVec 32 := 8#32
  let v218 : BitVec 32 := Scalar.addi v2 c8_i32_198
  let c32_i32_199 : BitVec 32 := 32#32
  let v219 : BitVec 32 := Scalar.remsi v218 c32_i32_199
  let c1_i32_204 : BitVec 32 := 1#32
  let v220 : BitVec 32 := Scalar.muli v219 c1_i32_204
  let v221 : BitVec 32 := Scalar.addi c0_i32_205 v220
  v221.toNat
def k0_dev40 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_208 : BitVec 32 := 9#32
  let v230 : BitVec 32 := Scalar.addi v2 c9_i32_208
  let c32_i32_209 : BitVec 32 := 32#32
  let v231 : BitVec 32 := Scalar.remsi v230 c32_i32_209
  let c1_i32_214 : BitVec 32 := 1#32
  let v232 : BitVec 32 := Scalar.muli v231 c1_i32_214
  let v233 : BitVec 32 := Scalar.addi c0_i32_215 v232
  v233.toNat
def k0_dev41 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_218 : BitVec 32 := 10#32
  let v242 : BitVec 32 := Scalar.addi v2 c10_i32_218
  let c32_i32_219 : BitVec 32 := 32#32
  let v243 : BitVec 32 := Scalar.remsi v242 c32_i32_219
  let c1_i32_224 : BitVec 32 := 1#32
  let v244 : BitVec 32 := Scalar.muli v243 c1_i32_224
  let v245 : BitVec 32 := Scalar.addi c0_i32_225 v244
  v245.toNat
def k0_dev42 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_228 : BitVec 32 := 11#32
  let v254 : BitVec 32 := Scalar.addi v2 c11_i32_228
  let c32_i32_229 : BitVec 32 := 32#32
  let v255 : BitVec 32 := Scalar.remsi v254 c32_i32_229
  let c1_i32_234 : BitVec 32 := 1#32
  let v256 : BitVec 32 := Scalar.muli v255 c1_i32_234
  let v257 : BitVec 32 := Scalar.addi c0_i32_235 v256
  v257.toNat
def k0_dev43 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_238 : BitVec 32 := 12#32
  let v266 : BitVec 32 := Scalar.addi v2 c12_i32_238
  let c32_i32_239 : BitVec 32 := 32#32
  let v267 : BitVec 32 := Scalar.remsi v266 c32_i32_239
  let c1_i32_244 : BitVec 32 := 1#32
  let v268 : BitVec 32 := Scalar.muli v267 c1_i32_244
  let v269 : BitVec 32 := Scalar.addi c0_i32_245 v268
  v269.toNat
def k0_dev44 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_248 : BitVec 32 := 13#32
  let v278 : BitVec 32 := Scalar.addi v2 c13_i32_248
  let c32_i32_249 : BitVec 32 := 32#32
  let v279 : BitVec 32 := Scalar.remsi v278 c32_i32_249
  let c1_i32_254 : BitVec 32 := 1#32
  let v280 : BitVec 32 := Scalar.muli v279 c1_i32_254
  let v281 : BitVec 32 := Scalar.addi c0_i32_255 v280
  v281.toNat
def k0_dev45 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_258 : BitVec 32 := 14#32
  let v290 : BitVec 32 := Scalar.addi v2 c14_i32_258
  let c32_i32_259 : BitVec 32 := 32#32
  let v291 : BitVec 32 := Scalar.remsi v290 c32_i32_259
  let c1_i32_264 : BitVec 32 := 1#32
  let v292 : BitVec 32 := Scalar.muli v291 c1_i32_264
  let v293 : BitVec 32 := Scalar.addi c0_i32_265 v292
  v293.toNat
def k0_dev46 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_268 : BitVec 32 := 15#32
  let v302 : BitVec 32 := Scalar.addi v2 c15_i32_268
  let c32_i32_269 : BitVec 32 := 32#32
  let v303 : BitVec 32 := Scalar.remsi v302 c32_i32_269
  let c1_i32_274 : BitVec 32 := 1#32
  let v304 : BitVec 32 := Scalar.muli v303 c1_i32_274
  let v305 : BitVec 32 := Scalar.addi c0_i32_275 v304
  v305.toNat
def k0_dev47 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_278 : BitVec 32 := 16#32
  let v314 : BitVec 32 := Scalar.addi v2 c16_i32_278
  let c32_i32_279 : BitVec 32 := 32#32
  let v315 : BitVec 32 := Scalar.remsi v314 c32_i32_279
  let c1_i32_284 : BitVec 32 := 1#32
  let v316 : BitVec 32 := Scalar.muli v315 c1_i32_284
  let v317 : BitVec 32 := Scalar.addi c0_i32_285 v316
  v317.toNat
def k0_dev48 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_288 : BitVec 32 := 17#32
  let v326 : BitVec 32 := Scalar.addi v2 c17_i32_288
  let c32_i32_289 : BitVec 32 := 32#32
  let v327 : BitVec 32 := Scalar.remsi v326 c32_i32_289
  let c1_i32_294 : BitVec 32 := 1#32
  let v328 : BitVec 32 := Scalar.muli v327 c1_i32_294
  let v329 : BitVec 32 := Scalar.addi c0_i32_295 v328
  v329.toNat
def k0_dev49 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_298 : BitVec 32 := 18#32
  let v338 : BitVec 32 := Scalar.addi v2 c18_i32_298
  let c32_i32_299 : BitVec 32 := 32#32
  let v339 : BitVec 32 := Scalar.remsi v338 c32_i32_299
  let c1_i32_304 : BitVec 32 := 1#32
  let v340 : BitVec 32 := Scalar.muli v339 c1_i32_304
  let v341 : BitVec 32 := Scalar.addi c0_i32_305 v340
  v341.toNat
def k0_dev50 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_308 : BitVec 32 := 19#32
  let v350 : BitVec 32 := Scalar.addi v2 c19_i32_308
  let c32_i32_309 : BitVec 32 := 32#32
  let v351 : BitVec 32 := Scalar.remsi v350 c32_i32_309
  let c1_i32_314 : BitVec 32 := 1#32
  let v352 : BitVec 32 := Scalar.muli v351 c1_i32_314
  let v353 : BitVec 32 := Scalar.addi c0_i32_315 v352
  v353.toNat
def k0_dev51 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_318 : BitVec 32 := 20#32
  let v362 : BitVec 32 := Scalar.addi v2 c20_i32_318
  let c32_i32_319 : BitVec 32 := 32#32
  let v363 : BitVec 32 := Scalar.remsi v362 c32_i32_319
  let c1_i32_324 : BitVec 32 := 1#32
  let v364 : BitVec 32 := Scalar.muli v363 c1_i32_324
  let v365 : BitVec 32 := Scalar.addi c0_i32_325 v364
  v365.toNat
def k0_dev52 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_328 : BitVec 32 := 21#32
  let v374 : BitVec 32 := Scalar.addi v2 c21_i32_328
  let c32_i32_329 : BitVec 32 := 32#32
  let v375 : BitVec 32 := Scalar.remsi v374 c32_i32_329
  let c1_i32_334 : BitVec 32 := 1#32
  let v376 : BitVec 32 := Scalar.muli v375 c1_i32_334
  let v377 : BitVec 32 := Scalar.addi c0_i32_335 v376
  v377.toNat
def k0_dev53 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_338 : BitVec 32 := 22#32
  let v386 : BitVec 32 := Scalar.addi v2 c22_i32_338
  let c32_i32_339 : BitVec 32 := 32#32
  let v387 : BitVec 32 := Scalar.remsi v386 c32_i32_339
  let c1_i32_344 : BitVec 32 := 1#32
  let v388 : BitVec 32 := Scalar.muli v387 c1_i32_344
  let v389 : BitVec 32 := Scalar.addi c0_i32_345 v388
  v389.toNat
def k0_dev54 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_348 : BitVec 32 := 23#32
  let v398 : BitVec 32 := Scalar.addi v2 c23_i32_348
  let c32_i32_349 : BitVec 32 := 32#32
  let v399 : BitVec 32 := Scalar.remsi v398 c32_i32_349
  let c1_i32_354 : BitVec 32 := 1#32
  let v400 : BitVec 32 := Scalar.muli v399 c1_i32_354
  let v401 : BitVec 32 := Scalar.addi c0_i32_355 v400
  v401.toNat
def k0_dev55 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_358 : BitVec 32 := 24#32
  let v410 : BitVec 32 := Scalar.addi v2 c24_i32_358
  let c32_i32_359 : BitVec 32 := 32#32
  let v411 : BitVec 32 := Scalar.remsi v410 c32_i32_359
  let c1_i32_364 : BitVec 32 := 1#32
  let v412 : BitVec 32 := Scalar.muli v411 c1_i32_364
  let v413 : BitVec 32 := Scalar.addi c0_i32_365 v412
  v413.toNat
def k0_dev56 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_368 : BitVec 32 := 25#32
  let v422 : BitVec 32 := Scalar.addi v2 c25_i32_368
  let c32_i32_369 : BitVec 32 := 32#32
  let v423 : BitVec 32 := Scalar.remsi v422 c32_i32_369
  let c1_i32_374 : BitVec 32 := 1#32
  let v424 : BitVec 32 := Scalar.muli v423 c1_i32_374
  let v425 : BitVec 32 := Scalar.addi c0_i32_375 v424
  v425.toNat
def k0_dev57 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_378 : BitVec 32 := 26#32
  let v434 : BitVec 32 := Scalar.addi v2 c26_i32_378
  let c32_i32_379 : BitVec 32 := 32#32
  let v435 : BitVec 32 := Scalar.remsi v434 c32_i32_379
  let c1_i32_384 : BitVec 32 := 1#32
  let v436 : BitVec 32 := Scalar.muli v435 c1_i32_384
  let v437 : BitVec 32 := Scalar.addi c0_i32_385 v436
  v437.toNat
def k0_dev58 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_388 : BitVec 32 := 27#32
  let v446 : BitVec 32 := Scalar.addi v2 c27_i32_388
  let c32_i32_389 : BitVec 32 := 32#32
  let v447 : BitVec 32 := Scalar.remsi v446 c32_i32_389
  let c1_i32_394 : BitVec 32 := 1#32
  let v448 : BitVec 32 := Scalar.muli v447 c1_i32_394
  let v449 : BitVec 32 := Scalar.addi c0_i32_395 v448
  v449.toNat
def k0_dev59 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_398 : BitVec 32 := 28#32
  let v458 : BitVec 32 := Scalar.addi v2 c28_i32_398
  let c32_i32_399 : BitVec 32 := 32#32
  let v459 : BitVec 32 := Scalar.remsi v458 c32_i32_399
  let c1_i32_404 : BitVec 32 := 1#32
  let v460 : BitVec 32 := Scalar.muli v459 c1_i32_404
  let v461 : BitVec 32 := Scalar.addi c0_i32_405 v460
  v461.toNat
def k0_dev60 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_408 : BitVec 32 := 29#32
  let v470 : BitVec 32 := Scalar.addi v2 c29_i32_408
  let c32_i32_409 : BitVec 32 := 32#32
  let v471 : BitVec 32 := Scalar.remsi v470 c32_i32_409
  let c1_i32_414 : BitVec 32 := 1#32
  let v472 : BitVec 32 := Scalar.muli v471 c1_i32_414
  let v473 : BitVec 32 := Scalar.addi c0_i32_415 v472
  v473.toNat
def k0_dev61 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_418 : BitVec 32 := 30#32
  let v482 : BitVec 32 := Scalar.addi v2 c30_i32_418
  let c32_i32_419 : BitVec 32 := 32#32
  let v483 : BitVec 32 := Scalar.remsi v482 c32_i32_419
  let c1_i32_424 : BitVec 32 := 1#32
  let v484 : BitVec 32 := Scalar.muli v483 c1_i32_424
  let v485 : BitVec 32 := Scalar.addi c0_i32_425 v484
  v485.toNat
def k0_dev62 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_428 : BitVec 32 := 31#32
  let v494 : BitVec 32 := Scalar.addi v2 c31_i32_428
  let c32_i32_429 : BitVec 32 := 32#32
  let v495 : BitVec 32 := Scalar.remsi v494 c32_i32_429
  let c1_i32_434 : BitVec 32 := 1#32
  let v496 : BitVec 32 := Scalar.muli v495 c1_i32_434
  let v497 : BitVec 32 := Scalar.addi c0_i32_435 v496
  v497.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  inb_S32x256_S1x256_0_0 : ∀ a, (![0, 0] : Fin 2 → Nat) a + S1x256.size a ≤ S32x256.size a
  h_S1x256 : 0 < S1x256.numel
  shapeCasts_S1x256_S256 : S1x256.ShapeCasts S256
  shapeCasts_S256_S1x256 : S256.ShapeCasts S1x256
  hamt_31 : (31#32 : BitVec 32).msb = false
  inb_S32_S1_1 : ∀ a, (![1] : Fin 1 → Nat) a + S1.size a ≤ S32.size a
  squeezes_S1_S_ : S1.Squeezes S_
  inb_S32x256_S1x256_1_0 : ∀ a, (![1, 0] : Fin 2 → Nat) a + S1x256.size a ≤ S32x256.size a
  squeezes_S1x256_S256 : S1x256.Squeezes S256
  inb_S32_S1_2 : ∀ a, (![2] : Fin 1 → Nat) a + S1.size a ≤ S32.size a
  inb_S32x256_S1x256_2_0 : ∀ a, (![2, 0] : Fin 2 → Nat) a + S1x256.size a ≤ S32x256.size a
  inb_S32_S1_3 : ∀ a, (![3] : Fin 1 → Nat) a + S1.size a ≤ S32.size a
  inb_S32x256_S1x256_3_0 : ∀ a, (![3, 0] : Fin 2 → Nat) a + S1x256.size a ≤ S32x256.size a
  inb_S32_S1_4 : ∀ a, (![4] : Fin 1 → Nat) a + S1.size a ≤ S32.size a
  inb_S32x256_S1x256_4_0 : ∀ a, (![4, 0] : Fin 2 → Nat) a + S1x256.size a ≤ S32x256.size a
  inb_S32_S1_5 : ∀ a, (![5] : Fin 1 → Nat) a + S1.size a ≤ S32.size a
  inb_S32x256_S1x256_5_0 : ∀ a, (![5, 0] : Fin 2 → Nat) a + S1x256.size a ≤ S32x256.size a
  inb_S32_S1_6 : ∀ a, (![6] : Fin 1 → Nat) a + S1.size a ≤ S32.size a
  inb_S32x256_S1x256_6_0 : ∀ a, (![6, 0] : Fin 2 → Nat) a + S1x256.size a ≤ S32x256.size a
  inb_S32_S1_7 : ∀ a, (![7] : Fin 1 → Nat) a + S1.size a ≤ S32.size a
  inb_S32x256_S1x256_7_0 : ∀ a, (![7, 0] : Fin 2 → Nat) a + S1x256.size a ≤ S32x256.size a
  inb_S32_S1_8 : ∀ a, (![8] : Fin 1 → Nat) a + S1.size a ≤ S32.size a
  inb_S32x256_S1x256_8_0 : ∀ a, (![8, 0] : Fin 2 → Nat) a + S1x256.size a ≤ S32x256.size a
  inb_S32_S1_9 : ∀ a, (![9] : Fin 1 → Nat) a + S1.size a ≤ S32.size a
  inb_S32x256_S1x256_9_0 : ∀ a, (![9, 0] : Fin 2 → Nat) a + S1x256.size a ≤ S32x256.size a
  inb_S32_S1_10 : ∀ a, (![10] : Fin 1 → Nat) a + S1.size a ≤ S32.size a
  inb_S32x256_S1x256_10_0 : ∀ a, (![10, 0] : Fin 2 → Nat) a + S1x256.size a ≤ S32x256.size a
  inb_S32_S1_11 : ∀ a, (![11] : Fin 1 → Nat) a + S1.size a ≤ S32.size a
  inb_S32x256_S1x256_11_0 : ∀ a, (![11, 0] : Fin 2 → Nat) a + S1x256.size a ≤ S32x256.size a
  inb_S32_S1_12 : ∀ a, (![12] : Fin 1 → Nat) a + S1.size a ≤ S32.size a
  inb_S32x256_S1x256_12_0 : ∀ a, (![12, 0] : Fin 2 → Nat) a + S1x256.size a ≤ S32x256.size a
  inb_S32_S1_13 : ∀ a, (![13] : Fin 1 → Nat) a + S1.size a ≤ S32.size a
  inb_S32x256_S1x256_13_0 : ∀ a, (![13, 0] : Fin 2 → Nat) a + S1x256.size a ≤ S32x256.size a
  inb_S32_S1_14 : ∀ a, (![14] : Fin 1 → Nat) a + S1.size a ≤ S32.size a
  inb_S32x256_S1x256_14_0 : ∀ a, (![14, 0] : Fin 2 → Nat) a + S1x256.size a ≤ S32x256.size a
  inb_S32_S1_15 : ∀ a, (![15] : Fin 1 → Nat) a + S1.size a ≤ S32.size a
  inb_S32x256_S1x256_15_0 : ∀ a, (![15, 0] : Fin 2 → Nat) a + S1x256.size a ≤ S32x256.size a
  inb_S32_S1_16 : ∀ a, (![16] : Fin 1 → Nat) a + S1.size a ≤ S32.size a
  inb_S32x256_S1x256_16_0 : ∀ a, (![16, 0] : Fin 2 → Nat) a + S1x256.size a ≤ S32x256.size a
  inb_S32_S1_17 : ∀ a, (![17] : Fin 1 → Nat) a + S1.size a ≤ S32.size a
  inb_S32x256_S1x256_17_0 : ∀ a, (![17, 0] : Fin 2 → Nat) a + S1x256.size a ≤ S32x256.size a
  inb_S32_S1_18 : ∀ a, (![18] : Fin 1 → Nat) a + S1.size a ≤ S32.size a
  inb_S32x256_S1x256_18_0 : ∀ a, (![18, 0] : Fin 2 → Nat) a + S1x256.size a ≤ S32x256.size a
  inb_S32_S1_19 : ∀ a, (![19] : Fin 1 → Nat) a + S1.size a ≤ S32.size a
  inb_S32x256_S1x256_19_0 : ∀ a, (![19, 0] : Fin 2 → Nat) a + S1x256.size a ≤ S32x256.size a
  inb_S32_S1_20 : ∀ a, (![20] : Fin 1 → Nat) a + S1.size a ≤ S32.size a
  inb_S32x256_S1x256_20_0 : ∀ a, (![20, 0] : Fin 2 → Nat) a + S1x256.size a ≤ S32x256.size a
  inb_S32_S1_21 : ∀ a, (![21] : Fin 1 → Nat) a + S1.size a ≤ S32.size a
  inb_S32x256_S1x256_21_0 : ∀ a, (![21, 0] : Fin 2 → Nat) a + S1x256.size a ≤ S32x256.size a
  inb_S32_S1_22 : ∀ a, (![22] : Fin 1 → Nat) a + S1.size a ≤ S32.size a
  inb_S32x256_S1x256_22_0 : ∀ a, (![22, 0] : Fin 2 → Nat) a + S1x256.size a ≤ S32x256.size a
  inb_S32_S1_23 : ∀ a, (![23] : Fin 1 → Nat) a + S1.size a ≤ S32.size a
  inb_S32x256_S1x256_23_0 : ∀ a, (![23, 0] : Fin 2 → Nat) a + S1x256.size a ≤ S32x256.size a
  inb_S32_S1_24 : ∀ a, (![24] : Fin 1 → Nat) a + S1.size a ≤ S32.size a
  inb_S32x256_S1x256_24_0 : ∀ a, (![24, 0] : Fin 2 → Nat) a + S1x256.size a ≤ S32x256.size a
  inb_S32_S1_25 : ∀ a, (![25] : Fin 1 → Nat) a + S1.size a ≤ S32.size a
  inb_S32x256_S1x256_25_0 : ∀ a, (![25, 0] : Fin 2 → Nat) a + S1x256.size a ≤ S32x256.size a
  inb_S32_S1_26 : ∀ a, (![26] : Fin 1 → Nat) a + S1.size a ≤ S32.size a
  inb_S32x256_S1x256_26_0 : ∀ a, (![26, 0] : Fin 2 → Nat) a + S1x256.size a ≤ S32x256.size a
  inb_S32_S1_27 : ∀ a, (![27] : Fin 1 → Nat) a + S1.size a ≤ S32.size a
  inb_S32x256_S1x256_27_0 : ∀ a, (![27, 0] : Fin 2 → Nat) a + S1x256.size a ≤ S32x256.size a
  inb_S32_S1_28 : ∀ a, (![28] : Fin 1 → Nat) a + S1.size a ≤ S32.size a
  inb_S32x256_S1x256_28_0 : ∀ a, (![28, 0] : Fin 2 → Nat) a + S1x256.size a ≤ S32x256.size a
  inb_S32_S1_29 : ∀ a, (![29] : Fin 1 → Nat) a + S1.size a ≤ S32.size a
  inb_S32x256_S1x256_29_0 : ∀ a, (![29, 0] : Fin 2 → Nat) a + S1x256.size a ≤ S32x256.size a
  inb_S32_S1_30 : ∀ a, (![30] : Fin 1 → Nat) a + S1.size a ≤ S32.size a
  inb_S32x256_S1x256_30_0 : ∀ a, (![30, 0] : Fin 2 → Nat) a + S1x256.size a ≤ S32x256.size a
  inb_S32_S1_31 : ∀ a, (![31] : Fin 1 → Nat) a + S1.size a ≤ S32.size a
  inb_S32x256_S1x256_31_0 : ∀ a, (![31, 0] : Fin 2 → Nat) a + S1x256.size a ≤ S32x256.size a
  inb_S32x256_S32x256_0_0 : ∀ a, (![0, 0] : Fin 2 → Nat) a + S32x256.size a ≤ S32x256.size a
  h_S32x256 : 0 < S32x256.numel
  reduces_S32x256_S256 : S32x256.Reduces [0] S256
  inb_S1x256_S1x256_0_0 : ∀ a, (![0, 0] : Fin 2 → Nat) a + S1x256.size a ≤ S1x256.size a
  hcc0_scratch1 : 2 + S32.numel ≤ 66
  hcc0_scratch2 : 34 + S32.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole
  hstage0_1 : ∀ j, (stage0_1 j).IsWhole

variable [Facts₀]

abbrev cc0_scratch1 : DmaSems sig S32 := SemArray.consecutive 2 S32 hcc0_scratch1
abbrev cc0_scratch2 : DmaSems sig S32 := SemArray.consecutive 34 S32 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x256 : Shape := ⟨2, ![16384, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S_, .f32⟩
  | .hbm, ⟨2, _⟩ => ⟨S256, .f32⟩
  | .hbm, ⟨3, _⟩ => ⟨S1x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16384x256_S256_d0 : S16384x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Comm.lean ====
import proofs.«900924_g7700000000000925_dist_max_ax0_shard0_i_m512_n256_v7x_i32_bf16_1_alg».proof.KernelIdeal

noncomputable section

namespace Cert.KernelIdeal.Exch

open Idealize.ShloMosaic Cert.KernelIdeal

variable {F : FTy → Type}

/-- The column of a row vector: index `(0, j)` of a one-row array. -/
abbrev rowIx (j : Fin 256) : S1x256.Idx := fun a => match a with
  | ⟨0, _⟩ => (⟨0, Nat.one_pos⟩ : Fin 1)
  | ⟨1, _⟩ => j

/-- What the exchange buffer of device `c` holds once every row has landed: row `o` is the row
    `loc (c - o)` that the device `o` places before `c` on the ring computed from its own block
    (row `0` is the device's own). -/
def commOf (loc : Fin 32 → Vec F S1x256 .f32) (c : Fin 32) : Vec F S32x256 .f32 :=
  fun i => loc (c - (⟨(i 0).val, (i 0).isLt⟩ : Fin 32)) (rowIx ⟨(i 1).val, (i 1).isLt⟩)

end Cert.KernelIdeal.Exch

end
-- ==== Proof.RingArith.lean ====
import proofs.«900924_g7700000000000925_dist_max_ax0_shard0_i_m512_n256_v7x_i32_bf16_1_alg».proof.KernelIdeal

namespace Cert.KernelIdealProof

open Cert.KernelIdeal Idealize.ShloMosaic

/-! ## The ring: device `c` sends to `c + o` and receives from `c - o`, for every offset `o ≠ 0` -/

/-- The device `o` places after `c`. -/
def peer (c : Dev nD) (o : Fin 32) : Dev nD := c + o

theorem peer_zero (c : Dev nD) : peer c 0 = c := by revert c; decide
theorem peer_neg (c : Dev nD) (o : Fin 32) : peer (peer c o) (-o) = c := by revert c o; decide
theorem peer_neg' (c : Dev nD) (o : Fin 32) : peer (peer c (-o)) o = c := by revert c o; decide
theorem peer_sub (c : Dev nD) (o : Fin 32) : peer c o - o = c := by revert c o; decide
theorem sub_peer (c : Dev nD) (o : Fin 32) : peer (c - o) o = c := by revert c o; decide
theorem peer_inj_left (o : Fin 32) {c d : Dev nD} (h : peer c o = peer d o) : c = d := by revert c d o; decide
theorem peer_inj_right (c : Dev nD) {o o' : Fin 32} (h : peer c o = peer c o') : o = o' := by revert c o o'; decide
theorem peer_ne_self (c : Dev nD) {o : Fin 32} (h : o ≠ 0) : peer c o ≠ c := by revert c o; decide
theorem neg_ne_zero' {o : Fin 32} (h : o ≠ 0) : -o ≠ 0 := by revert o; decide
theorem neg_neg' (o : Fin 32) : - -o = o := by revert o; decide

/-! ## Offsets still to come, offsets done -/

/-- The offsets from `k` on. -/
def poolFrom (k : ℕ) : Finset (Fin 32) := Finset.univ.filter fun o => k ≤ o.val
/-- The offsets `1 … k - 1`. -/
def poolTo (k : ℕ) : Finset (Fin 32) := Finset.univ.filter fun o => 1 ≤ o.val ∧ o.val < k

theorem mem_poolFrom {k : ℕ} {o : Fin 32} : o ∈ poolFrom k ↔ k ≤ o.val := by unfold poolFrom; simp
theorem mem_poolTo {k : ℕ} {o : Fin 32} : o ∈ poolTo k ↔ 1 ≤ o.val ∧ o.val < k := by unfold poolTo; simp

theorem poolFrom_succ (k : ℕ) (hk : k < 32) : poolFrom k = insert ⟨k, hk⟩ (poolFrom (k + 1)) := by
  ext o; rw [Finset.mem_insert, mem_poolFrom, mem_poolFrom, Fin.ext_iff]; show _ ↔ o.val = k ∨ _; omega
theorem not_mem_poolFrom_succ (k : ℕ) (hk : k < 32) : (⟨k, hk⟩ : Fin 32) ∉ poolFrom (k + 1) := by
  rw [mem_poolFrom]; show ¬ (k + 1 ≤ k); omega
theorem poolTo_succ (k : ℕ) (hk : k < 32) (h0 : 0 < k) : poolTo (k + 1) = insert ⟨k, hk⟩ (poolTo k) := by
  ext o; rw [Finset.mem_insert, mem_poolTo, mem_poolTo, Fin.ext_iff]; show _ ↔ o.val = k ∨ _; omega
theorem not_mem_poolTo (k : ℕ) (hk : k < 32) : (⟨k, hk⟩ : Fin 32) ∉ poolTo k := by
  rw [mem_poolTo]; show ¬ (1 ≤ k ∧ k < k); omega
theorem poolFrom_one : poolFrom 1 = Finset.univ.erase 0 := by decide
theorem poolTo_last : poolTo 32 = Finset.univ.erase 0 := by decide
theorem poolFrom_last : poolFrom 32 = ∅ := by decide
theorem poolTo_one : poolTo 1 = ∅ := by decide

/-- The offset reached when `j` offsets are still to come: `32 - j`. -/
def offOf (j : ℕ) : Fin 32 := ⟨(32 - j) % 32, Nat.mod_lt _ (by decide)⟩
theorem offOf_rem (k : ℕ) (hk : k < 32) (h0 : 0 < k) : offOf (32 - k) = ⟨k, hk⟩ := by
  unfold offOf; apply Fin.ext; show (32 - (32 - k)) % 32 = k; omega

end Cert.KernelIdealProof
-- ==== Proof.Proto.lean ====
import proofs.«900924_g7700000000000925_dist_max_ax0_shard0_i_m512_n256_v7x_i32_bf16_1_alg».proof.Proof.Comm
import proofs.«900924_g7700000000000925_dist_max_ax0_shard0_i_m512_n256_v7x_i32_bf16_1_alg».proof.Proof.RingArith
import proofs.«900924_g7700000000000925_dist_max_ax0_shard0_i_m512_n256_v7x_i32_bf16_1_alg».proof.Proof.Gen.KernelIdeal
import proofs.«900924_g7700000000000925_dist_max_ax0_shard0_i_m512_n256_v7x_i32_bf16_1_alg».proof.Proof.Gen.KernelIdeal.Skeleton
import proofs.«900924_g7700000000000925_dist_max_ax0_shard0_i_m512_n256_v7x_i32_bf16_1_alg».proof.Proof.Gen.KernelIdeal.Launch
import proofs.«900924_g7700000000000925_dist_max_ax0_shard0_i_m512_n256_v7x_i32_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties: a ring offset) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs and the cells -/

abbrev xM : Memref sig .tc .vmem S512x256 .f32 := Memref.whole cc0_stg0_0
abbrev oM : Memref sig .tc .vmem S1x256 .f32 := Memref.whole cc0_stg1_0
abbrev scr : Memref sig .tc .vmem S32x256 .f32 := Memref.whole cc0_scratch0

theorem slot_inb (o : Fin 32) : ∀ a, (![o.val, 0] : Fin 2 → Nat) a + S1x256.size a ≤ S32x256.size a := by
  intro a; fin_cases a
  · show o.val + 1 ≤ 32; omega
  · show 0 + 256 ≤ 256; omega

/-- Row `o` of the exchange buffer, as the 256-element memref the kernel's transfers name. -/
abbrev slotM (o : Fin 32) : Memref sig .tc .vmem S256 .f32 :=
  (scr.slice (Rect.unit (s := S32x256) ![o.val, 0] S1x256.size (slot_inb o)) (fun _ => rfl)).squeeze S256 squeezes_S1x256_S256

/-- The runtime's barrier semaphore of collective id 0 (unscoped); the send and the receive semaphore of offset `o`. -/
abbrev barS : Sem sig := (SemArray.scalar (sig.barrier 0 rfl) : Sems sig S_).sem
def sendS (o : Fin 32) : DmaSem sig := ⟨2 + o.val, by have := o.isLt; show 2 + o.val < 66; omega⟩
def recvS (o : Fin 32) : DmaSem sig := ⟨34 + o.val, by have := o.isLt; show 34 + o.val < 66; omega⟩

abbrev barCell (c : Dev nD) : GSem nD τ sig := ((c : Thread nD τ), .reg barS)
abbrev sendCell (c : Dev nD) (o : Fin 32) : GSem nD τ sig := ((c : Thread nD τ), .dma (sendS o))
abbrev recvCell (c : Dev nD) (o : Fin 32) : GSem nD τ sig := ((c : Thread nD τ), .dma (recvS o))

/-- The exchange's cells of one device: its barrier cell, a send and a receive cell per offset (offset 0's are never used). -/
abbrev CK : Type := Option (Bool × Fin 32)
abbrev csem : CK → SemLoc sig
  | none => .reg barS
  | some (false, o) => .dma (sendS o)
  | some (true, o) => .dma (recvS o)
abbrev kcell (ck : Dev nD × CK) : GSem nD τ sig := ((ck.1 : Thread nD τ), csem ck.2)
/-- The kernel's own (scoped) semaphores, as the launch indexes them. -/
abbrev osem : Bool × Fin 32 → SemLoc sig := fun k => csem (some k)

/-- One transfer's units: the 256 words of a row. -/
abbrev N : ℕ := (slotM 0).view.dmaCredit
theorem N_pos : 0 < N := View.dmaCredit_pos _ (by decide)
theorem slot_amount (o : Fin 32) (s : DmaSem sig) : (slotM o).view.amount (.dma s) = N := rfl

/-! ## Contents -/

/-- Device `c`'s block of the argument, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The row of column maxima device `c` computes from its own block. -/
def locRow (c : Dev nD) : Vec F S1x256 .f32 := k0_pay2 (xstg m ρ c)

/-- The exchange buffer of device `c` once every row has landed. -/
def comm (c : Dev nD) : Buf (Elt F) ((c : Thread nD τ).loc cc0_scratch0) := Exch.commOf (locRow m ρ) c

/-- The kernel's result on device `c`. -/
def outAt (c : Dev nD) : (cc0_stg1_0 : Ref sig .tc).ty.Contents (Elt F) := k0_pay1 (comm m ρ c)

/-! ## Shares of the row a device sends: one piece a transfer, the rest kept -/

def restSh : ℕ → PosShare TreeShare
  | 0 => fullShare
  | k + 1 => (restSh k).right
def pieceSh (k : ℕ) : PosShare TreeShare := (restSh (k - 1)).left

/-- Row `o` of device `c`'s exchange buffer held at share `q` with the contents `f` (of the whole buffer; only row `o` of `f` is said). -/
def rowPts (c : Dev nD) (o : Fin 32) (q : PosShare TreeShare) (f : Buf (Elt F) ((c : Thread nD τ).loc cc0_scratch0)) : sProp 𝕄 :=
  (slotM o).view.loc (c : Thread nD τ) ↦[(slotM o).view.set]{q} f

omit [FloatOps F] in
instance rowPts_storable (c : Dev nD) (o : Fin 32) (q) (f) : BI.Storable (upEmb : UEmb _ 𝕄) (rowPts (F := F) c o q f) := by unfold rowPts; infer_instance

/-! ## The schedule: one round -/

/-- What the signal of device `c + o` (duty `o` of `c`'s barrier cell) hands `c`: row `o` of that device's exchange buffer,
    and that the device has reached round 0 of the receive cell of that row — what `c`'s transfer at offset `o` needs. -/
def barPay (c : Dev nD) (o : Fin 32) : sProp 𝕄 :=
  iprop((∃ f, rowPts (peer c o) o fullShare f) ∗ reached ER (recvCell (peer c o) o) 0)
/-- A landing hands the receiver the row, holding the sender's maxima; -/
def recvPay (c : Dev nD) (o : Fin 32) : sProp 𝕄 := rowPts c o fullShare (comm m ρ c)
/-- the end of a departure hands the sender its share of its own row back. -/
def sendPay (c : Dev nD) (o : Fin 32) : sProp 𝕄 := rowPts c 0 (pieceSh o.val) (comm m ρ c)

/-- Which semaphore a cell is on: the barrier, a send semaphore of offset `o ≠ 0`, a receive semaphore of offset `o ≠ 0`, or another
    (a staging semaphore, or the unused semaphore 0 of either array). -/
inductive Kind where
  | bar | send (o : Fin 32) | recv (o : Fin 32) | other
  deriving DecidableEq

def kindOf : SemLoc sig → Kind
  | .reg _ => .bar
  | .dma q => if h : 3 ≤ q.val ∧ q.val < 34 then .send ⟨q.val - 2, by omega⟩
              else if h' : 35 ≤ q.val ∧ q.val < 66 then .recv ⟨q.val - 34, by omega⟩ else .other

def Rd : Rounds.Schedule (GSem nD τ sig) (Fin 32) 𝕄 where
  duties g r := if r = 0 ∧ g.1.2 = .tc then
      (match kindOf g.2 with | .bar => Finset.univ.erase 0 | .send _ => {0} | .recv _ => {0} | .other => ∅) else ∅
  unitless _ := False
  amount g _ _ := match kindOf g.2 with | .bar => 1 | _ => N
  payload g _ d := match kindOf g.2 with
    | .bar => barPay g.1.1 d
    | .send o => sendPay m ρ g.1.1 o
    | .recv o => recvPay m ρ g.1.1 o
    | .other => iprop(emp)
  amount_pos g _ _ _ := by
    cases kindOf g.2 <;> first | exact Nat.one_pos | exact N_pos

instance Rd_payload_storable (g : GSem nD τ sig) (r : ℕ) (d : Fin 32) :
    BI.Storable (upEmb : UEmb _ 𝕄) ((Rd (F := F) m ρ).payload g r d) := by
  show BI.Storable upEmb (match kindOf g.2 with
    | .bar => barPay g.1.1 d | .send o => sendPay m ρ g.1.1 o | .recv o => recvPay m ρ g.1.1 o | .other => iprop(emp))
  unfold barPay sendPay recvPay
  split <;> infer_instance

/-! ### The schedule's tables -/

section Tables
variable (c : Dev nD) (o : Fin 32)

theorem kind_bar : kindOf (.reg barS) = Kind.bar := rfl
theorem kind_send (h : o ≠ 0) : kindOf (.dma (sendS o)) = .send o := by
  have h1 : 1 ≤ o.val := Nat.pos_of_ne_zero (fun h' => h (Fin.ext h'))
  have h2 := o.isLt
  unfold kindOf sendS
  dsimp only
  split
  · congr 1; apply Fin.ext; show 2 + o.val - 2 = o.val; omega
  · rename_i hn; exact absurd ⟨by omega, by omega⟩ hn
theorem kind_recv (h : o ≠ 0) : kindOf (.dma (recvS o)) = .recv o := by
  have h1 : 1 ≤ o.val := Nat.pos_of_ne_zero (fun h' => h (Fin.ext h'))
  have h2 := o.isLt
  unfold kindOf recvS
  dsimp only
  rw [dif_neg (fun hn => by have := hn.2; omega)]
  split
  · congr 1; apply Fin.ext; show 34 + o.val - 34 = o.val; omega
  · rename_i hn; exact absurd ⟨by omega, by omega⟩ hn
theorem kind_send0 : kindOf (.dma (sendS 0)) = .other := by decide
theorem kind_recv0 : kindOf (.dma (recvS 0)) = .other := by decide

theorem duties_bar : (Rd (F := F) m ρ).duties (barCell c) 0 = Finset.univ.erase 0 := by
  dsimp only [Rd]; rw [if_pos ⟨rfl, rfl⟩]; rfl
theorem duties_send (h : o ≠ 0) : (Rd (F := F) m ρ).duties (sendCell c o) 0 = {0} := by
  dsimp only [Rd]; rw [if_pos ⟨rfl, rfl⟩, kind_send o h]
theorem duties_recv (h : o ≠ 0) : (Rd (F := F) m ρ).duties (recvCell c o) 0 = {0} := by
  dsimp only [Rd]; rw [if_pos ⟨rfl, rfl⟩, kind_recv o h]
theorem duties_send0 (r : ℕ) : (Rd (F := F) m ρ).duties (sendCell c 0) r = ∅ := by
  dsimp only [Rd]; rw [kind_send0]; split <;> rfl
theorem duties_recv0 (r : ℕ) : (Rd (F := F) m ρ).duties (recvCell c 0) r = ∅ := by
  dsimp only [Rd]; rw [kind_recv0]; split <;> rfl
theorem duties_later (g : GSem nD τ sig) : ∀ r, 1 ≤ r → (Rd (F := F) m ρ).duties g r = ∅ := by
  intro r hr; dsimp only [Rd]; rw [if_neg (fun h => by have := h.1; omega)]

theorem amount_bar (d : Fin 32) : (Rd (F := F) m ρ).amount (barCell c) 0 d = 1 := by
  dsimp only [Rd]; rfl
theorem amount_send (h : o ≠ 0) (d : Fin 32) : (Rd (F := F) m ρ).amount (sendCell c o) 0 d = N := by
  dsimp only [Rd]; rw [kind_send o h]
theorem amount_recv (h : o ≠ 0) (d : Fin 32) : (Rd (F := F) m ρ).amount (recvCell c o) 0 d = N := by
  dsimp only [Rd]; rw [kind_recv o h]

theorem expect_bar : (Rd (F := F) m ρ).expect (barCell c) 0 = 31 := by
  unfold Schedule.expect Schedule.amountOf
  rw [duties_bar, Finset.sum_congr rfl fun d _ => amount_bar m ρ c d, Finset.sum_const,
    Finset.card_erase_of_mem (Finset.mem_univ _), Finset.card_univ, Fintype.card_fin, smul_eq_mul]
theorem expect_send (h : o ≠ 0) : (Rd (F := F) m ρ).expect (sendCell c o) 0 = N := by
  unfold Schedule.expect Schedule.amountOf; rw [duties_send m ρ c o h, Finset.sum_singleton, amount_send m ρ c o h]
theorem expect_recv (h : o ≠ 0) : (Rd (F := F) m ρ).expect (recvCell c o) 0 = N := by
  unfold Schedule.expect Schedule.amountOf; rw [duties_recv m ρ c o h, Finset.sum_singleton, amount_recv m ρ c o h]

theorem payload_bar (d : Fin 32) : (Rd (F := F) m ρ).payload (barCell c) 0 d = barPay c d := by
  dsimp only [Rd]; rfl
theorem payload_send (h : o ≠ 0) (d : Fin 32) : (Rd (F := F) m ρ).payload (sendCell c o) 0 d = sendPay m ρ c o := by
  dsimp only [Rd]; rw [kind_send o h]
theorem payload_recv (h : o ≠ 0) (d : Fin 32) : (Rd (F := F) m ρ).payload (recvCell c o) 0 d = recvPay m ρ c o := by
  dsimp only [Rd]; rw [kind_recv o h]

/-- The rest of the barrier cell's round, no duty taken: every other device's row for `c`. -/
theorem rest_bar : bigSep ((Rd (F := F) m ρ).duties (barCell c) 0 \ ∅) (fun d => (Rd (F := F) m ρ).payload (barCell c) 0 d)
    = bigSep (poolFrom 1) (barPay (F := F) c) := by
  rw [Finset.sdiff_empty, duties_bar, poolFrom_one]
  exact congrArg (bigSep _) (funext fun d => payload_bar m ρ c d)
theorem rest_send (h : o ≠ 0) : bigSep ((Rd (F := F) m ρ).duties (sendCell c o) 0 \ ∅) (fun d => (Rd (F := F) m ρ).payload (sendCell c o) 0 d)
    = sendPay m ρ c o := by
  rw [Finset.sdiff_empty, duties_send m ρ c o h, bigSep_singleton, payload_send m ρ c o h]
theorem rest_recv (h : o ≠ 0) : bigSep ((Rd (F := F) m ρ).duties (recvCell c o) 0 \ ∅) (fun d => (Rd (F := F) m ρ).payload (recvCell c o) 0 d)
    = recvPay m ρ c o := by
  rw [Finset.sdiff_empty, duties_recv m ρ c o h, bigSep_singleton, payload_recv m ρ c o h]

end Tables

/-! ## What each device owes at launch; the levels -/

/-- The receive credits device `c` still owes when `j` transfers are to come (offsets `32 - j … 31`): summed so that the
    next transfer's is the last summand. -/
def recvOwe (c : Dev nD) : ℕ → CellTallies nD τ sig Unit
  | 0 => 0
  | j + 1 => recvOwe c j + tallyAt (recvCell (peer c (offOf (j + 1))) (offOf (j + 1))) () N
/-- The barrier units it still owes when `j` signals are to come. -/
def sigOwe (c : Dev nD) : ℕ → CellTallies nD τ sig Unit
  | 0 => 0
  | j + 1 => sigOwe c j + tallyAt (barCell (peer c (offOf (j + 1)))) () 1
def O₀ (c : Dev nD) : CellTallies nD τ sig Unit := recvOwe c 31 + sigOwe c 31

theorem recvOwe_step (c : Dev nD) (k : ℕ) (hk : k < 32) (h0 : 0 < k) :
    recvOwe c (32 - k) = recvOwe c (32 - (k + 1)) + tallyAt (recvCell (peer c ⟨k, hk⟩) ⟨k, hk⟩) () N := by
  obtain ⟨j, hj⟩ : ∃ j, 32 - k = j + 1 := ⟨31 - k, by omega⟩
  have hj' : 32 - (k + 1) = j := by omega
  have ho : offOf (j + 1) = ⟨k, hk⟩ := by rw [← hj]; exact offOf_rem k hk h0
  rw [hj, hj', recvOwe, ho]
theorem sigOwe_step (c : Dev nD) (k : ℕ) (hk : k < 32) (h0 : 0 < k) :
    sigOwe c (32 - k) = sigOwe c (32 - (k + 1)) + tallyAt (barCell (peer c ⟨k, hk⟩)) () 1 := by
  obtain ⟨j, hj⟩ : ∃ j, 32 - k = j + 1 := ⟨31 - k, by omega⟩
  have hj' : 32 - (k + 1) = j := by omega
  have ho : offOf (j + 1) = ⟨k, hk⟩ := by rw [← hj]; exact offOf_rem k hk h0
  rw [hj, hj', sigOwe, ho]

def L (g : GSem nD τ sig) : Finset Unit := if g.1.2 = .tc then {()} else ∅
/-- barrier cells at 1, receive cells at 2, everything else (staging, send) at 0. -/
def lv (g : GSem nD τ sig) (_ : Unit) : ℕ := match kindOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- While at most 31 offsets are to come, the next offset is not 0. -/
private theorem offOf_ne_zero {j : ℕ} (h1 : 1 ≤ j) (h2 : j ≤ 31) : offOf j ≠ 0 := fun h => by
  have h' : (32 - j) % 32 = 0 := congrArg Fin.val h
  omega

/-- What a device owes is owed to receive cells and barrier cells only. -/
theorem recvOwe_pos {c : Dev nD} {j : ℕ} {g : GSem nD τ sig} {u : Unit} (hj : j ≤ 31) (h : 0 < recvOwe c j g u) :
    ∃ d o, o ≠ 0 ∧ g = recvCell d o := by
  induction j with
  | zero => exact absurd h (Nat.lt_irrefl 0)
  | succ j ih =>
    rw [recvOwe] at h
    rcases Pipeline.add_pos_cases h with h1 | h1
    · exact ih (by omega) h1
    · exact ⟨_, _, offOf_ne_zero (by omega) hj, (Pipeline.tallyAt_pos h1).1⟩
theorem sigOwe_pos {c : Dev nD} {j : ℕ} {g : GSem nD τ sig} {u : Unit} (h : 0 < sigOwe c j g u) :
    ∃ d, g = barCell d := by
  induction j with
  | zero => exact absurd h (Nat.lt_irrefl 0)
  | succ j ih =>
    rw [sigOwe] at h
    rcases Pipeline.add_pos_cases h with h1 | h1
    · exact ih h1
    · exact ⟨_, (Pipeline.tallyAt_pos h1).1⟩

/-- The levels of the three kinds of cell a wait or a debt names. -/
private theorem kind_stage (q : DmaSem sig) (hq : q.val < 2) : kindOf (.dma q) = .other := by
  unfold kindOf; dsimp only
  rw [dif_neg (fun h => by have := h.1; omega), dif_neg (fun h => by have := h.1; omega)]
private theorem lv_stage (c : Dev nD) (q : DmaSem sig) (hq : q.val < 2) (u : Unit) : lv ((c : Thread nD τ), .dma q) u = 0 := by
  dsimp only [lv]; rw [kind_stage q hq]
private theorem lv_recv (d : Dev nD) (o : Fin 32) (h : o ≠ 0) (u : Unit) : lv (recvCell d o) u = 2 := by
  dsimp only [lv]; rw [kind_recv o h]
private theorem lv_bar (d : Dev nD) (u : Unit) : lv (barCell d) u = 1 := rfl

/-- A staging wait (level 0) is below everything a device may owe. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_stage c q hq]
    rcases Pipeline.add_pos_cases hg with h1 | h1
    · obtain ⟨d, o, ho, rfl⟩ := recvOwe_pos (le_refl 31) h1
      rw [L_tc, lv_recv d o ho]; exact ⟨Finset.mem_singleton_self _, by decide⟩
    · obtain ⟨d, rfl⟩ := sigOwe_pos h1
      rw [L_tc, lv_bar]; exact ⟨Finset.mem_singleton_self _, by decide⟩
  · rw [MayWait_zero]; iintro -; iempintro

/-- At its barrier wait a device owes receive credits only: above its barrier cell. -/
theorem mayWait_bar (c : Dev nD) :
    (levAts L lv : sProp 𝕄) ⊢ MayWait (c : Thread nD τ) (.reg barS) () (recvOwe c 31) := by
  refine Pipeline.mayWait_of_levAts (by rw [L_tc]; exact Finset.mem_singleton_self _) fun g u hg => ?_
  obtain ⟨d, o, ho, rfl⟩ := recvOwe_pos (le_refl 31) hg
  rw [L_tc, lv_recv d o ho, lv_bar]; exact ⟨Finset.mem_singleton_self _, by decide⟩

/-- What is still owed, as a sum over the offsets still to come. -/
private theorem recvOwe_eq_sum (c : Dev nD) (j : ℕ) (hj : j ≤ 31) :
    recvOwe c j = ∑ o ∈ poolFrom (32 - j), tallyAt (recvCell (peer c o) o) () N := by
  induction j with
  | zero => rw [recvOwe, Nat.sub_zero, poolFrom_last, Finset.sum_empty]
  | succ j ih =>
    have hk : 31 - j < 32 := by omega
    have ho : offOf (j + 1) = ⟨31 - j, hk⟩ := by
      have h := offOf_rem (31 - j) hk (by omega)
      rwa [show 32 - (31 - j) = j + 1 by omega] at h
    rw [recvOwe, ih (by omega), ho, show 32 - (j + 1) = 31 - j by omega, show 32 - j = 31 - j + 1 by omega,
      poolFrom_succ (31 - j) hk, Finset.sum_insert (not_mem_poolFrom_succ (31 - j) hk), add_comm]
private theorem sigOwe_eq_sum (c : Dev nD) (j : ℕ) (hj : j ≤ 31) :
    sigOwe c j = ∑ o ∈ poolFrom (32 - j), tallyAt (barCell (peer c o)) () 1 := by
  induction j with
  | zero => rw [sigOwe, Nat.sub_zero, poolFrom_last, Finset.sum_empty]
  | succ j ih =>
    have hk : 31 - j < 32 := by omega
    have ho : offOf (j + 1) = ⟨31 - j, hk⟩ := by
      have h := offOf_rem (31 - j) hk (by omega)
      rwa [show 32 - (31 - j) = j + 1 by omega] at h
    rw [sigOwe, ih (by omega), ho, show 32 - (j + 1) = 31 - j by omega, show 32 - j = 31 - j + 1 by omega,
      poolFrom_succ (31 - j) hk, Finset.sum_insert (not_mem_poolFrom_succ (31 - j) hk), add_comm]

/-- A sum of one-cell tallies over offsets, read at a cell that at most the offset `o₀` names. -/
private theorem sum_tallyAt_at (s : Finset (Fin 32)) (cell : Fin 32 → GSem nD τ sig) (k : ℕ) (g : GSem nD τ sig) (o₀ : Fin 32)
    (h : ∀ o ∈ s, cell o = g → o = o₀) :
    (∑ o ∈ s, (tallyAt (cell o) () k : CellTallies nD τ sig Unit)) g () = if o₀ ∈ s ∧ cell o₀ = g then k else 0 := by
  rw [Finset.sum_apply, Finsupp.finsetSum_apply]
  by_cases hc : o₀ ∈ s ∧ cell o₀ = g
  · have hz : ∀ o ∈ s, o ≠ o₀ → tallyAt (cell o) () k g () = 0 := fun o ho hne => by
      rw [tallyAt_apply, if_neg (fun hh => hne (h o ho hh.1.symm))]
    rw [if_pos hc, Finset.sum_eq_single o₀ hz (fun hn => absurd hc.1 hn), hc.2, tallyAt_self]
  · rw [if_neg hc]
    refine Finset.sum_eq_zero fun o ho => ?_
    rw [tallyAt_apply, if_neg (fun hh => hc ?_)]
    have he := h o ho hh.1.symm
    subst he
    exact ⟨ho, hh.1.symm⟩

private theorem peer_sub_self (d c : Dev nD) : peer d (c - d) = c := by revert d c; decide
private theorem peer_eq_iff (d c : Dev nD) (o : Fin 32) : peer d o = c ↔ o = c - d :=
  ⟨fun h => peer_inj_right d (h.trans (peer_sub_self d c).symm), fun h => h ▸ peer_sub_self d c⟩
private theorem one_le_sub_val (d c : Dev nD) : 1 ≤ (c - d).val ↔ d ≠ c := by revert d c; decide
private theorem recvS_inj {o o' : Fin 32} (h : recvS o = recvS o') : o = o' := by
  have h' : 34 + o.val = 34 + o'.val := congrArg Fin.val h
  exact Fin.ext (by omega)

/-- What device `d` owes device `c`'s barrier cell: one unit, unless `d = c`. -/
theorem owed_bar (d c : Dev nD) : O₀ d (barCell c) () = if d = c then 0 else 1 := by
  have h1 : recvOwe d 31 (barCell c) () = 0 := by
    by_contra hne
    obtain ⟨d', o, _, he⟩ := recvOwe_pos (le_refl 31) (Nat.pos_of_ne_zero hne)
    exact absurd (congrArg Prod.snd he) (fun h => by cases h)
  unfold O₀
  rw [Pi.add_apply, Finsupp.add_apply, h1, Nat.zero_add, sigOwe_eq_sum d 31 (le_refl 31), show 32 - 31 = 1 from rfl,
    sum_tallyAt_at (poolFrom 1) (fun o => barCell (peer d o)) 1 (barCell c) (c - d)
      (fun o _ he => (peer_eq_iff d c o).mp (congrArg (fun g : GSem nD τ sig => g.1.1) he))]
  by_cases hdc : d = c
  · rw [if_pos hdc, if_neg (fun hh => (one_le_sub_val d c).mp (mem_poolFrom.mp hh.1) hdc)]
  · rw [if_neg hdc, if_pos ⟨mem_poolFrom.mpr ((one_le_sub_val d c).mpr hdc), by rw [(peer_eq_iff d c (c - d)).mpr rfl]⟩]
/-- What device `d` owes the receive cell of offset `o` of device `c`: a row's units if `d + o = c`. -/
theorem owed_recv (d c : Dev nD) (o : Fin 32) (h : o ≠ 0) : O₀ d (recvCell c o) () = if peer d o = c then N else 0 := by
  have h1 : sigOwe d 31 (recvCell c o) () = 0 := by
    by_contra hne
    obtain ⟨d', he⟩ := sigOwe_pos (Nat.pos_of_ne_zero hne)
    exact absurd (congrArg Prod.snd he) (fun h => by cases h)
  have ho : 1 ≤ o.val := Nat.pos_of_ne_zero (fun h' => h (Fin.ext h'))
  unfold O₀
  rw [Pi.add_apply, Finsupp.add_apply, h1, Nat.add_zero, recvOwe_eq_sum d 31 (le_refl 31), show 32 - 31 = 1 from rfl,
    sum_tallyAt_at (poolFrom 1) (fun o' => recvCell (peer d o') o') N (recvCell c o) o
      (fun o' _ he => recvS_inj (SemLoc.dma.inj (congrArg Prod.snd he)))]
  by_cases hp : peer d o = c
  · rw [if_pos hp, if_pos ⟨mem_poolFrom.mpr ho, by rw [hp]⟩]
  · rw [if_neg hp, if_neg (fun hh => hp (congrArg (fun g : GSem nD τ sig => g.1.1) hh.2))]

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, under the names `K` the launch allocated them at, and that every cell has reached round 0. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

/-- The tokens of the duties device `c` pays: at each offset its signal's, its transfer's arrival and departure. -/
def payToks (c : Dev nD) : sProp 𝕄 :=
  iprop((bigSep (Finset.univ.erase 0) fun o : Fin 32 => dutyTok ER (barCell (peer c o)) 0 (-o))
    ∗ (bigSep (Finset.univ.erase 0) fun o : Fin 32 => dutyTok ER (recvCell (peer c o) o) 0 (0 : Fin 32))
    ∗ (bigSep (Finset.univ.erase 0) fun o : Fin 32 => dutyTok ER (sendCell c o) 0 (0 : Fin 32)))
/-- Its positions at round 0 of its own cells. -/
def positions (c : Dev nD) : sProp 𝕄 :=
  iprop(atPos ER (barCell c) 0 ∅ 0 ∗ (bigSep Finset.univ fun o : Fin 32 => atPos ER (sendCell c o) 0 ∅ 0)
    ∗ (bigSep Finset.univ fun o : Fin 32 => atPos ER (recvCell c o) 0 ∅ 0))

def ghost (K : Dev nD × CK → ℕ) (c : Dev nD) : sProp 𝕄 := iprop(records m ρ K ∗ positions c ∗ payToks c)

/-- What device `c`'s body starts from: that at some names, its credit (the barrier's 31 units, a row's units on each receive
    cell) and the level facts. -/
def start (c : Dev nD) : sProp 𝕄 :=
  iprop((∃ K, ghost m ρ K c) ∗ cred (tallyAt (barCell c) () 31)
    ∗ (bigSep (Finset.univ.erase 0) fun o : Fin 32 => cred (tallyAt (recvCell c o) () N)) ∗ levAts L lv)

def Φ₀ (c : Dev nD) : sProp 𝕄 := iprop(start m ρ c ∗ ∃ f, (((c : Thread nD τ).loc cc0_scratch0) ↦{fullShare} f))
/-- After the point: the exchange buffer holding every device's row, the own cells at zero, closed. -/
def Φ₁ (c : Dev nD) : sProp 𝕄 :=
  iprop((((c : Thread nD τ).loc cc0_scratch0) ↦{fullShare} comm m ρ c) ∗ bigSep Finset.univ fun k : Bool × Fin 32 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m ρ K c ∗ cred (tallyAt (barCell c) () 31)
      ∗ (bigSep (Finset.univ.erase 0) fun o : Fin 32 => cred (tallyAt (recvCell c o) () N)) ∗ levAts L lv
      ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

end Cert.KernelIdealProof

end
-- ==== Proof.Launch.lean ====
import proofs.«900924_g7700000000000925_dist_max_ax0_shard0_i_m512_n256_v7x_i32_bf16_1_alg».proof.Proof.Proto
import proofs.«900924_g7700000000000925_dist_max_ax0_shard0_i_m512_n256_v7x_i32_bf16_1_alg».proof.Proof.Gen.KernelIdeal.Frame

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-! ### The cells and the tokens -/

theorem share_eq (c : Dev nD) (w : Fin cfg0.W) : (dats m ρ 0 c).share w = fullShare := by unfold Dat.share; split <;> rfl

theorem sendS_inj {o o' : Fin 32} (h : sendS o = sendS o') : o = o' := by
  have h' : 2 + o.val = 2 + o'.val := congrArg Fin.val h
  exact Fin.ext (by omega)
theorem recvS_inj {o o' : Fin 32} (h : recvS o = recvS o') : o = o' := by
  have h' : 34 + o.val = 34 + o'.val := congrArg Fin.val h
  exact Fin.ext (by omega)
theorem send_ne_recv (o o' : Fin 32) : sendS o ≠ recvS o' := fun h => by
  have h' : 2 + o.val = 34 + o'.val := congrArg Fin.val h
  have := o.isLt; omega
theorem reg_ne_dma (s : Sem sig) (q : DmaSem sig) : (SemLoc.reg s : SemLoc sig) ≠ .dma q := fun h => by cases h

theorem csem_injective : Function.Injective csem := by
  rintro (_ | ⟨b, o⟩) (_ | ⟨b', o'⟩) h
  · rfl
  · cases b' <;> exact absurd h (reg_ne_dma _ _)
  · cases b <;> exact absurd h.symm (reg_ne_dma _ _)
  · cases b <;> cases b'
    · rw [sendS_inj (SemLoc.dma.inj h)]
    · exact absurd (SemLoc.dma.inj h) (send_ne_recv _ _)
    · exact absurd (SemLoc.dma.inj h).symm (send_ne_recv _ _)
    · rw [recvS_inj (SemLoc.dma.inj h)]

theorem ownSemFacts : Pipeline.OwnSemFacts cfg0.spec osem :=
  ⟨by decide, fun k k' h => Option.some.inj (csem_injective h), by decide⟩

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def ringCells : Finset (GSem nD τ sig) := Finset.univ.map ⟨kcell, kcell_injective⟩

/-- The offsets other than 0. -/
abbrev NZ : Type := {o : Fin 32 // o ≠ 0}

/-- The duty tokens minted at launch: (device, which cell, offset) — the barrier cell's duty `o`, the send cell's and the
    receive cell's duty 0 at offset `o`. -/
abbrev tokOf (x : Dev nD × Fin 3 × NZ) : GSem nD τ sig × ℕ × Fin 32 := match x.2.1 with
  | 0 => (barCell x.1, 0, x.2.2.1) | 1 => (sendCell x.1 x.2.2.1, 0, 0) | 2 => (recvCell x.1 x.2.2.1, 0, 0)
theorem tokOf_injective : Function.Injective (tokOf : Dev nD × Fin 3 × NZ → GSem nD τ sig × ℕ × Fin 32) := by
  rintro ⟨c, j, o⟩ ⟨c', j', o'⟩ h
  have h1 : c = c' := by
    have := congrArg (fun x : GSem nD τ sig × ℕ × Fin 32 => x.1.1.1) h
    fin_cases j <;> fin_cases j' <;> exact this
  subst h1
  have hs := congrArg (fun x : GSem nD τ sig × ℕ × Fin 32 => x.1.2) h
  have hd := congrArg (fun x : GSem nD τ sig × ℕ × Fin 32 => x.2.2) h
  fin_cases j <;> fin_cases j'
  · rw [show o = o' from Subtype.ext hd]
  · exact absurd hs (reg_ne_dma _ _)
  · exact absurd hs (reg_ne_dma _ _)
  · exact absurd hs.symm (reg_ne_dma _ _)
  · rw [show o = o' from Subtype.ext (sendS_inj (SemLoc.dma.inj hs))]
  · exact absurd (SemLoc.dma.inj hs) (send_ne_recv _ _)
  · exact absurd hs.symm (reg_ne_dma _ _)
  · exact absurd (SemLoc.dma.inj hs).symm (send_ne_recv _ _)
  · rw [show o = o' from Subtype.ext (recvS_inj (SemLoc.dma.inj hs))]
def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.univ.erase 0) fun o : Fin 32 => dutyTok ER (barCell c) 0 o)
    ∗ (bigSep (Finset.univ.erase 0) fun o : Fin 32 => dutyTok ER (sendCell c o) 0 (0 : Fin 32))
    ∗ (bigSep (Finset.univ.erase 0) fun o : Fin 32 => dutyTok ER (recvCell c o) 0 (0 : Fin 32)))

/-- What the launch element deals device `c` (the theorem's `G`). -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What the global step makes of it (`G'`). -/
def G' (c : Dev nD) : sProp 𝕄 := iprop(∃ K, ghost m ρ K c)

theorem bigSep_three (Φ : Fin 3 → sProp 𝕄) : bigSep Finset.univ Φ = iprop(Φ 0 ∗ Φ 1 ∗ Φ 2) := bigSep_univ_eq_bigSepL [0, 1, 2] (by decide) (by decide) Φ
theorem bigSep_two (Φ : Bool → sProp 𝕄) : bigSep Finset.univ Φ = iprop(Φ false ∗ Φ true) := bigSep_univ_eq_bigSepL [false, true] (by decide) (by decide) Φ

/-- A family over `Option α`: the member at `none`, then the members at `some a`. -/
theorem bigSep_option {α : Type} [Fintype α] [DecidableEq α] (Φ : Option α → sProp 𝕄) :
    bigSep Finset.univ Φ = iprop(Φ none ∗ bigSep Finset.univ fun a => Φ (some a)) := by
  rw [bigSep_univ_at Φ none,
    show (Finset.univ.erase (none : Option α)) = Finset.univ.map Function.Embedding.some from by
      ext x; cases x <;> simp, bigSep_map]
  rfl

/-- A family over a device's cells: the barrier cell's member, the send cells', the receive cells'. -/
theorem bigSep_CK (Φ : CK → sProp 𝕄) :
    bigSep Finset.univ Φ = iprop(Φ none ∗ (bigSep Finset.univ fun o : Fin 32 => Φ (some (false, o))) ∗ (bigSep Finset.univ fun o : Fin 32 => Φ (some (true, o)))) := by
  rw [bigSep_option, bigSep_univ_prod, bigSep_two]

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_prod, bigSep_three,
        ← bigSep_subtype_ne (0 : Fin 32) (fun o => (dutyTok ER (barCell c) 0 o : sProp 𝕄)),
        ← bigSep_subtype_ne (0 : Fin 32) (fun o => (dutyTok ER (sendCell c o) 0 (0 : Fin 32) : sProp 𝕄)),
        ← bigSep_subtype_ne (0 : Fin 32) (fun o => (dutyTok ER (recvCell c o) 0 (0 : Fin 32) : sProp 𝕄))]
      rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The counters at zero, and the cells' invariants allocated -/

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun k : Bool × Fin 32 => semVal ((c : Thread nD τ), osem k) 0 := rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_option]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt around the ring -/

theorem bigSep_erase0 (Φ : Fin 32 → sProp 𝕄) :
    bigSep (Finset.univ.erase 0) Φ = bigSep Finset.univ fun o : Fin 32 => if o ≠ 0 then Φ o else iprop(emp) := by
  rw [← Finset.filter_ne' Finset.univ (0 : Fin 32), bigSep_filter]; rfl

/-- A family over (device, offset ≠ 0) re-indexed along a bijection of the pairs that keeps the offsets ≠ 0. -/
theorem reindex (e : Dev nD × Fin 32 ≃ Dev nD × Fin 32) (he : ∀ p, (e p).2 = 0 ↔ p.2 = 0) (Ψ : Dev nD → Fin 32 → sProp 𝕄) :
    (bigSep Finset.univ fun c : Dev nD => bigSep (Finset.univ.erase 0) fun o : Fin 32 => Ψ c o)
      = bigSep Finset.univ fun c : Dev nD => bigSep (Finset.univ.erase 0) fun o : Fin 32 => Ψ (e (c, o)).1 (e (c, o)).2 := by
  simp only [bigSep_erase0]
  have h1 := bigSep_univ_prod (M := 𝕄) (fun p : Dev nD × Fin 32 => if p.2 ≠ 0 then Ψ p.1 p.2 else iprop(emp))
  have h2 := bigSep_univ_prod (M := 𝕄) (fun p : Dev nD × Fin 32 => if p.2 ≠ 0 then Ψ (e p).1 (e p).2 else iprop(emp))
  refine h1.symm.trans ((bigSep_univ_equiv e _).trans (Eq.trans (bigSep_congr fun p _ => ?_) h2))
  by_cases h : p.2 = 0
  · rw [if_neg (not_not.mpr ((he p).mpr h)), if_neg (not_not.mpr h)]
  · rw [if_pos (fun h' => h ((he p).mp h')), if_pos h]

/-- (device, offset) ↦ (the device that offset on, the offset back). -/
def eBack : Dev nD × Fin 32 ≃ Dev nD × Fin 32 where
  toFun p := (peer p.1 p.2, -p.2)
  invFun p := (peer p.1 p.2, -p.2)
  left_inv p := by show (peer (peer p.1 p.2) (-p.2), - -p.2) = p; rw [peer_neg, neg_neg']
  right_inv p := by show (peer (peer p.1 p.2) (-p.2), - -p.2) = p; rw [peer_neg, neg_neg']
/-- (device, offset) ↦ (the device that offset on, the same offset). -/
def eOn : Dev nD × Fin 32 ≃ Dev nD × Fin 32 where
  toFun p := (peer p.1 p.2, p.2)
  invFun p := (p.1 - p.2, p.2)
  left_inv p := by show (peer p.1 p.2 - p.2, p.2) = p; rw [peer_sub]
  right_inv p := by show (peer (p.1 - p.2) p.2, p.2) = p; rw [sub_peer]

/-- A barrier cell's duty `o` goes to the device `o` places on (whose signal at offset `-o` pays it), a receive cell's duty to the
    device that many places back (whose transfer lands there), a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    reindex eBack (fun p => ⟨fun h => by have := neg_ne_zero' (o := p.2); exact by_contra fun h' => this h' h, fun h => by show -p.2 = 0; rw [h]; rfl⟩)
      (fun c o => (dutyTok ER (barCell c) 0 o : sProp 𝕄)),
    reindex eOn (fun p => Iff.rfl) (fun c o => (dutyTok ER (recvCell c o) 0 (0 : Fin 32) : sProp 𝕄))]
  iintro ⟨H1, H2, H3⟩
  isplitl [H1]; · iexact H1
  isplitl [H3]; · iexact H3
  iexact H2

/-! ### The global step -/

theorem ghost_intro (K : Dev nD × CK → ℕ) (c : Dev nD) : iprop(records m ρ K ∗ positions c ∗ payToks c) ⊢ G' m ρ c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem positions_eq (c : Dev nD) : (bigSep Finset.univ fun k : CK => (atPos ER (kcell (c, k)) 0 ∅ 0 : sProp 𝕄)) = positions c := by
  rw [bigSep_CK]; rfl

theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(positions c ∗ payToks c) from Entails.of_eq (by rw [positions_eq])))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Every other device owes a device's barrier cell one unit: 31 in all. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- Exactly one device, the one `o` places back, owes the receive cell of offset `o`: a row's units. -/
theorem launch_recv (c : Dev nD) (o : Fin 32) (h : o ≠ 0) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same, Finset.sum_congr rfl fun d _ => owed_recv d c o h,
    Finset.sum_eq_single (c - o) (fun d _ hd => if_neg fun hp => hd (by rw [← hp, peer_sub])) (fun hn => absurd (Finset.mem_univ _) hn),
    if_pos (sub_peer c o)]

/-- The receive semaphores among a core's semaphores. -/
def recvEmb : Fin 32 ↪ SemLoc sig := ⟨fun o => .dma (recvS o), fun o o' h => recvS_inj (SemLoc.dma.inj h)⟩

theorem creds (c : Dev nD) :
    (Pipeline.launchCred O₀ c : sProp 𝕄)
      ⊢ iprop(cred (tallyAt (barCell c) () 31) ∗ bigSep (Finset.univ.erase 0) fun o : Fin 32 => cred (tallyAt (recvCell c o) () N)) := by
  unfold Pipeline.launchCred
  rw [bigSep_univ_at _ (SemLoc.reg barS), launch_bar]
  refine sep_mono_right ?_
  have hsub : (Finset.univ.erase (0 : Fin 32)).map recvEmb ⊆ Finset.univ.erase (SemLoc.reg barS : SemLoc sig) := fun sm hsm => by
    obtain ⟨o, -, rfl⟩ := Finset.mem_map.mp hsm
    exact Finset.mem_erase.mpr ⟨(reg_ne_dma _ _).symm, Finset.mem_univ _⟩
  have heq : (bigSep ((Finset.univ.erase (0 : Fin 32)).map recvEmb) fun sm : SemLoc sig =>
        (cred (tallyOn ((c : Thread nD τ), sm) (launchCredit (Pipeline.owing O₀) 0 ((c : Thread nD τ), sm))) : sProp 𝕄))
      = bigSep (Finset.univ.erase 0) fun o : Fin 32 => cred (tallyAt (recvCell c o) () N) := by
    rw [bigSep_map]
    exact bigSep_congr fun o ho => congrArg cred (launch_recv c o (Finset.mem_erase.mp ho).1)
  rw [← heq]
  exact bigSep_subset hsub

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, Hz⟩
  isplitr; · iempintro
  isplitl [Hz]; · iexact Hz
  iexists (comm m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Each array after the run, as the proof data has it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: given the body obligation of
    every device, every weakly fair execution of @main terminates, nothing faulting, and every final state has each device's
    arrays at the proof data's final contents. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the maxima of the exchange buffer's columns. -/
theorem finalA_out (c : Dev nD) : finalA m ρ c (1 : Fin 2) = outAt m ρ c := by
  unfold finalA
  -- the one point writes the result window back: the array is its block there, overwritten by what the body left
  have h : (dats m ρ 0 c).arrAt (1 : Fin 2) cfg0.N
      = ((cfg0.win 1).blk t₀).view.write (Elt F) ((dats m ρ 0 c).arrAt 1 ↑t₀) ((dats m ρ 0 c).flushed 1 t₀) Finset.univ := by
    have h := (dats (F := F) m ρ 0 c).arrAt_succ (1 : Fin 2) t₀
    rw [Gen.flush0_1 t₀, if_pos rfl] at h
    exact h
  -- the block is the whole array: reading it is reading the array
  have hr : ∀ X, ((cfg0.win 1).blk t₀).view.read (Elt F) X = X := fun X =>
    Memref.read_access_unit_zero (Elt F) main_v1 (by funext a; exact Nat.zero_mul _) _ X
  rw [← hr ((dats m ρ 0 c).arrAt (1 : Fin 2) cfg0.N), h, View.read_write_univ]
  rfl

/-- info: 'Cert.KernelIdealProof.run_main_of' depends on axioms: [propext, Classical.choice, Quot.sound] -/
#guard_msgs in #print axioms run_main_of
/-- info: 'Cert.KernelIdealProof.finalA_x' depends on axioms: [propext, Classical.choice, Quot.sound] -/
#guard_msgs in #print axioms finalA_x
/-- info: 'Cert.KernelIdealProof.finalA_out' depends on axioms: [propext, Classical.choice, Quot.sound] -/
#guard_msgs in #print axioms finalA_out

end Cert.KernelIdealProof

end
-- ==== Proof.Rows.lean ====
import proofs.«900924_g7700000000000925_dist_max_ax0_shard0_i_m512_n256_v7x_i32_bf16_1_alg».proof.Proof.Proto
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The rectangle of row 0 of the exchange buffer, as the kernel's store and its first load name it. -/
abbrev r00 : Rect S32x256 := Rect.unit (s := S32x256) ![0, 0] S1x256.size inb_S32x256_S1x256_0_0

omit [FloatOps F] in
/-- The elements of row o: the indices whose row coordinate is o. -/
theorem slot_set (o : Fin 32) :
    (slotM o).view.set = (Rect.unit (s := S32x256) ![o.val, 0] S1x256.size (slot_inb o)).set := by
  exact (View.set_reshape _ _).trans (View.set_slice_whole cc0_scratch0 _)

omit [FloatOps F] in
theorem mem_slot_set (o : Fin 32) (i : S32x256.Idx) : i ∈ (slotM o).view.set ↔ (i 0).val = o.val := by
  rw [slot_set, Rect.mem_set_unit]
  constructor
  · intro h; have := h 0; simp at this; omega
  · intro h a; fin_cases a
    · simp; omega
    · simp; exact (i 1).isLt

omit [FloatOps F] in
/-- The exchange buffer held whole is its 32 rows held one by one. -/
theorem rows_split (c : Dev nD) (q : PosShare TreeShare) (f : Buf (Elt F) ((c : Thread nD τ).loc cc0_scratch0)) :
    ((((c : Thread nD τ).loc cc0_scratch0) ↦{q} f : sProp 𝕄)) ⊣⊢ bigSep Finset.univ (fun o : Fin 32 => rowPts c o q f) := by
  have hu : (Finset.univ : Finset (Idx ((c : Thread nD τ).loc cc0_scratch0)))
      = Finset.univ.biUnion (fun o : Fin 32 => (slotM o).view.set) := by
    ext i
    simp only [Finset.mem_univ, Finset.mem_biUnion, true_and, true_iff]
    exact ⟨⟨(i 0).val, (i 0).isLt⟩, (mem_slot_set _ i).2 rfl⟩
  have hd : ∀ o ∈ (Finset.univ : Finset (Fin 32)), ∀ o' ∈ (Finset.univ : Finset (Fin 32)), o ≠ o' →
      Disjoint ((slotM o).view.set) ((slotM o').view.set) := fun o _ o' _ hne =>
    Finset.disjoint_left.2 fun i hi hi' =>
      hne (Fin.ext (((mem_slot_set o i).1 hi).symm.trans ((mem_slot_set o' i).1 hi')))
  have hb := pointsTo_biUnion (Ix := Unit) (Val := Elt F) (Name := ℕ) (U := UU) (Lvl := ℕ)
    (ℓ := (c : Thread nD τ).loc cc0_scratch0) (q := q) (f := f) Finset.univ (fun o : Fin 32 => (slotM o).view.set) hd
  rw [← hu] at hb
  exact BiEntails.of_eq hb

omit [FloatOps F] in
/-- A row is said by its own entries only. -/
theorem rowPts_congr (c : Dev nD) (o : Fin 32) (q : PosShare TreeShare) (f g : Buf (Elt F) ((c : Thread nD τ).loc cc0_scratch0))
    (h : ∀ j : Fin 256, f (fun a => match a with | ⟨0, _⟩ => (o : Fin 32) | ⟨1, _⟩ => j) = g (fun a => match a with | ⟨0, _⟩ => (o : Fin 32) | ⟨1, _⟩ => j)) :
    rowPts (F := F) c o q f = rowPts c o q g := by
  unfold rowPts
  refine pointsTo_congr (fun i hi => ?_)
  have ho := (mem_slot_set o i).1 hi
  refine (congrArg f ?_).trans ((h (i 1)).trans (congrArg g ?_))
  · funext a
    match a with
    | ⟨0, _⟩ => exact Fin.ext ho
    | ⟨1, _⟩ => rfl
  · funext a
    match a with
    | ⟨0, _⟩ => exact Fin.ext ho.symm
    | ⟨1, _⟩ => rfl

omit [FloatOps F] in
/-- The row coordinate of row o's entries is o; -/
theorem slot_emb_row (o : Fin 32) (y : S256.Idx) : ((slotM o).view.emb y 0).val = o.val :=
  (mem_slot_set o _).1 ((slotM o).view.emb_mem_set y)

omit [FloatOps F] in
/-- their column coordinate does not depend on the row. -/
theorem slot_emb_col (o : Fin 32) (y : S256.Idx) : ((slotM o).view.emb y 1).val = ((slotM 0).view.emb y 1).val := rfl

/-- The exchange's final contents at two entries agree when the devices the rows came from and the columns do. -/
theorem comm_eq_of (c c' : Dev nD) (i i' : S32x256.Idx)
    (h0 : c - (⟨(i 0).val, (i 0).isLt⟩ : Fin 32) = c' - (⟨(i' 0).val, (i' 0).isLt⟩ : Fin 32)) (h1 : (i 1).val = (i' 1).val) :
    comm m ρ c i = comm m ρ c' i' := by
  have e : (⟨(i 1).val, (i 1).isLt⟩ : Fin 256) = ⟨(i' 1).val, (i' 1).isLt⟩ := Fin.ext h1
  show locRow m ρ (c - (⟨(i 0).val, (i 0).isLt⟩ : Fin 32)) (Exch.rowIx ⟨(i 1).val, (i 1).isLt⟩)
    = locRow m ρ (c' - (⟨(i' 0).val, (i' 0).isLt⟩ : Fin 32)) (Exch.rowIx ⟨(i' 1).val, (i' 1).isLt⟩)
  rw [h0, e]

theorem sub_zero' (c : Dev nD) : c - (0 : Fin 32) = c := by revert c; decide

/-- A landing: row 0 of device `c` written over row `o` of device `c + o` leaves that row as the exchange's final contents have it. -/
theorem landed_eq (c : Dev nD) (o : Fin 32) (fd : Buf (Elt F) ((peer c o : Thread nD τ).loc cc0_scratch0)) :
    rowPts (peer c o) o fullShare ((slotM o).view.write (Elt F) fd ((slotM 0).view.read (Elt F) (comm m ρ c)) Finset.univ)
      = rowPts (peer c o) o fullShare (comm m ρ (peer c o)) := by
  unfold rowPts
  refine pointsTo_congr (fun i hi => ?_)
  obtain ⟨y, rfl⟩ := View.exists_emb_of_mem_set _ hi
  rw [View.write_emb_of_mem _ _ (Finset.mem_univ y), View.read_apply, cast_cast, cast_eq]
  refine comm_eq_of m ρ c (peer c o) _ _ ?_ (slot_emb_col o y).symm
  have e0 : (⟨((slotM 0).view.emb y 0).val, ((slotM 0).view.emb y 0).isLt⟩ : Fin 32) = 0 := Fin.ext (slot_emb_row 0 y)
  have eo : (⟨((slotM o).view.emb y 0).val, ((slotM o).view.emb y 0).isLt⟩ : Fin 32) = o := Fin.ext (slot_emb_row o y)
  rw [e0, eo, peer_sub, sub_zero']

omit [FloatOps F] in
/-- The store into row 0 goes through exactly row 0's entries. -/
theorem store_set : ((scr : Memref sig .tc .vmem S32x256 .f32).access r00 : View sig .tc _ _ _).set = (slotM 0).view.set :=
  (View.set_slice_whole cc0_scratch0 _).trans (slot_set 0).symm

/-- The exchange's final contents at an entry: the row of the device the entry's row came from, at the entry's column. -/
theorem comm_apply (c : Dev nD) (i : S32x256.Idx) :
    comm m ρ c i = locRow m ρ (c - (⟨(i 0).val, (i 0).isLt⟩ : Fin 32)) (Exch.rowIx ⟨(i 1).val, (i 1).isLt⟩) := rfl

/-- At an entry of row 0 the exchange's final contents are the device's own maxima. -/
theorem comm_row0 (c : Dev nD) (i : S32x256.Idx) (y : S1x256.Idx) (h0 : (i 0).val = 0) (h1 : (i 1).val = (y 1).val) :
    comm m ρ c i = k0_pay2 (xstg m ρ c) y := by
  rw [comm_apply]
  have e0 : (⟨(i 0).val, (i 0).isLt⟩ : Fin 32) = 0 := Fin.ext h0
  have e1 : Exch.rowIx ⟨(i 1).val, (i 1).isLt⟩ = y := by
    funext a
    match a with
    | ⟨0, _⟩ =>
      apply Fin.ext
      have hy : (y 0).val < 1 := (y 0).isLt
      show 0 = (y 0).val
      omega
    | ⟨1, _⟩ => exact Fin.ext h1
  rw [e0, e1, sub_zero']
  rfl

omit [FloatOps F] in
/-- Where the store into row 0 puts the entry (0, j) of its payload: at (0, j). -/
theorem store_emb_row (y : S1x256.Idx) : (((scr : Memref sig .tc .vmem S32x256 .f32).access r00 : View sig .tc _ _ _).emb y 0).val = 0 := by
  have h : (y 0).val < 1 := (y 0).isLt
  show 0 + 1 * (y 0).val = 0
  omega
omit [FloatOps F] in
theorem store_emb_col (y : S1x256.Idx) : (((scr : Memref sig .tc .vmem S32x256 .f32).access r00 : View sig .tc _ _ _).emb y 1).val = (y 1).val := by
  show 0 + 1 * (y 1).val = (y 1).val
  omega

/-- The store of a device's own maxima into row 0 leaves that row as the exchange's final contents have it. -/
theorem stored_eq (c : Dev nD) (f0 : Buf (Elt F) ((c : Thread nD τ).loc cc0_scratch0)) :
    rowPts c 0 fullShare (((scr : Memref sig .tc .vmem S32x256 .f32).access r00 : View sig .tc _ _ _).write (Elt F) f0 (k0_pay2 (xstg m ρ c)) Finset.univ)
      = rowPts c 0 fullShare (comm m ρ c) := by
  unfold rowPts
  refine pointsTo_congr (fun i hi => ?_)
  rw [← store_set] at hi
  obtain ⟨y, rfl⟩ := View.exists_emb_of_mem_set _ hi
  rw [View.write_emb_of_mem _ _ (Finset.mem_univ y), cast_eq]
  exact (comm_row0 m ρ c _ y (store_emb_row y) (store_emb_col y)).symm

omit [FloatOps F] in
/-- What the store into row 0 and the load of row 0 touch is row 0. -/
theorem store_sub : ((scr : Memref sig .tc .vmem S32x256 .f32).access r00 : View sig .tc _ _ _).setOn Finset.univ ⊆ (slotM 0).view.set := by
  rw [View.setOn_univ, store_set]
omit [FloatOps F] in
theorem load_sub : (scr : Memref sig .tc .vmem S32x256 .f32).view.setOn r00.toLoadRect.set ⊆ (slotM 0).view.set := by
  intro i hi
  rw [slot_set]
  obtain ⟨x, hx, rfl⟩ := Finset.mem_map.mp hi
  exact hx

omit [FloatOps F] in
theorem row_shares_from (c : Dev nD) (o : Fin 32) (f : Buf (Elt F) ((c : Thread nD τ).loc cc0_scratch0)) :
    ∀ (d j : ℕ), j + d = 31 →
      (rowPts c o (restSh j) f : sProp 𝕄)
        = iprop(rowPts c o (restSh 31) f ∗ bigSep (poolFrom (j + 1)) (fun k : Fin 32 => rowPts c o (pieceSh k.val) f)) := by
  intro d
  induction d with
  | zero =>
    intro j hj
    obtain rfl : j = 31 := by omega
    rw [poolFrom_last, bigSep_empty]
    exact (BI.equiv_iff.mp ⟨sep_emp.1, sep_emp.2⟩).symm
  | succ d ih =>
    intro j hj
    have hk : j + 1 < 32 := by omega
    have hs : (rowPts c o (restSh j) f : sProp 𝕄) = iprop(rowPts c o (pieceSh (j + 1)) f ∗ rowPts c o (restSh (j + 1)) f) := by
      have h := pointsTo_share (Ix := Unit) (Val := Elt F) (Name := ℕ) (U := UU) (Lvl := ℕ)
        (ℓ := (slotM o).view.loc (c : Thread nD τ)) (I := (slotM o).view.set) (f := f) (PosShare.mem_left_op_right (restSh j))
      exact BI.equiv_iff.mp ⟨h.1, h.2⟩
    rw [hs, ih (j + 1) (by omega), poolFrom_succ (j + 1) hk, bigSep_insert (not_mem_poolFrom_succ _ hk)]
    have h := sep_left_comm (PROP := sProp 𝕄) (P := rowPts c o (pieceSh (j + 1)) f) (Q := rowPts c o (restSh 31) f)
      (R := bigSep (poolFrom (j + 1 + 1)) (fun k : Fin 32 => rowPts c o (pieceSh k.val) f))
    exact BI.equiv_iff.mp ⟨h.1, h.2⟩

omit [FloatOps F] in
/-- The full share of a row is the pieces the 31 transfers borrow and the rest. -/
theorem row_shares (c : Dev nD) (o : Fin 32) (f : Buf (Elt F) ((c : Thread nD τ).loc cc0_scratch0)) :
    (rowPts c o fullShare f : sProp 𝕄) ⊣⊢ iprop(rowPts c o (restSh 31) f ∗ bigSep (poolFrom 1) (fun k : Fin 32 => rowPts c o (pieceSh k.val) f)) :=
  BiEntails.of_eq (row_shares_from c o f 31 0 rfl)

end Cert.KernelIdealProof

end
-- ==== Proof.Steps.lean ====
import proofs.«900924_g7700000000000925_dist_max_ax0_shard0_i_m512_n256_v7x_i32_bf16_1_alg».proof.Proof.Proto
import proofs.«900924_g7700000000000925_dist_max_ax0_shard0_i_m512_n256_v7x_i32_bf16_1_alg».proof.Proof.Rows

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One step of the body per ring offset

Every step is stated over the offsets still to come (`poolFrom k`) and the offsets done (`poolTo k`): the step at offset `k`
takes its own resources out of the first and leaves what it makes in the second. -/

variable (K : Dev nD × CK → ℕ) (c : Dev nD)

theorem inv_at (ck : Dev nD × CK) : records m ρ K ⊢ cellInv ER (Rd m ρ) (K ck) (kcell ck) := by
  unfold records
  iintro ⟨HI, -⟩
  iapply (show (bigSep Finset.univ fun ck : Dev nD × CK => (cellInv ER (Rd m ρ) (K ck) (kcell ck) : sProp 𝕄)) ⊢ cellInv ER (Rd m ρ) (K ck) (kcell ck) from
    bigSep_elim (Finset.mem_univ ck))
  iexact HI

theorem reached_at (ck : Dev nD × CK) : records m ρ K ⊢ reached ER (kcell ck) 0 := by
  unfold records
  iintro ⟨-, HR⟩
  iapply (show (bigSep Finset.univ fun ck : Dev nD × CK => (reached ER (kcell ck) 0 : sProp 𝕄)) ⊢ reached ER (kcell ck) 0 from
    bigSep_elim (Finset.mem_univ ck))
  iexact HR

/-- What the signal at offset `o` pays with: the token of duty `-o` of the barrier cell of `c + o`, and row `-o` of the device's own
    exchange buffer (the row that device will write). -/
def sigB (o : Fin 32) : sProp 𝕄 :=
  iprop(dutyTok ER (barCell (peer c o)) 0 (-o) ∗ ∃ f, rowPts c (-o) fullShare f)

theorem ne_zero_of_pos (k : ℕ) (hk : k < 32) (h0 : 0 < k) : (⟨k, hk⟩ : Fin 32) ≠ 0 := by
  intro h; have := congrArg Fin.val h; simp at this; omega

/-- The signal at offset `k`: one unit to the barrier cell of `c + k`, handing it row `-k`. -/
theorem sig_step (k : ℕ) (hk : k < 32) (h0 : 0 < k) {α : Type} {Q : α → sProp 𝕄}
    {cont : PUnit → Prog (TpuEff nD τ sig (Elt F) Λ₀ .tc) α} {k' : ℕ} (hk' : k' = 1) :
    iprop(records m ρ K ∗ (∃ W, owes (c : Thread nD τ) (recvOwe c 31 + sigOwe c (32 - k)) W) ∗ bigSep (poolFrom k) (sigB (F := F) c))
      ⊢ iprop((((∃ W, owes (c : Thread nD τ) (recvOwe c 31 + sigOwe c (32 - (k + 1))) W) ∗ bigSep (poolFrom (k + 1)) (sigB (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal (peer c ⟨k, hk⟩ : Thread nD τ) barS k') cont) Q) := by
  subst hk'
  have hne := ne_zero_of_pos k hk h0
  iintro ⟨#HR, ⟨%W, HO⟩, HP⟩ Hk
  ihave HP' := (Entails.of_eq (show bigSep (poolFrom k) (sigB (F := F) c) = iprop(sigB c ⟨k, hk⟩ ∗ bigSep (poolFrom (k + 1)) (sigB (F := F) c)) from by
    rw [poolFrom_succ k hk, bigSep_insert (not_mem_poolFrom_succ k hk)]; rfl)) $$ HP
  unfold sigB
  icases HP' with ⟨⟨Htok, ⟨%f, Hrow⟩⟩, HP⟩
  ihave #HI := (inv_at m ρ K (peer c ⟨k, hk⟩, none)) $$ HR
  ihave #Hr1 := (reached_at m ρ K (peer c ⟨k, hk⟩, none)) $$ HR
  ihave #Hr2 := (reached_at m ρ K (c, some (true, -⟨k, hk⟩))) $$ HR
  iapply (Rounds.wp_signal 𝒱₀ ER (Rd m ρ) (c : Thread nD τ) none (dst := (peer c ⟨k, hk⟩ : Thread nD τ)) (κ := K (peer c ⟨k, hk⟩, none))
      (d := -⟨k, hk⟩) (by rw [duties_bar]; exact Finset.mem_erase.mpr ⟨neg_ne_zero' hne, Finset.mem_univ _⟩) (amount_bar m ρ _ _) ()
      (O₀ := recvOwe c 31 + sigOwe c (32 - k)) (recvOwe c 31 + sigOwe c (32 - (k + 1))) (by rw [sigOwe_step c k hk h0, add_assoc])) $$ [HO Htok Hrow]
  · isplitr; · iexact HI
    isplitl [HO]; · iexact HO
    isplitl [Htok]; · iexact Htok
    isplitl [Hrow]
    · rw [payload_bar]; unfold barPay; rw [peer_neg]
      isplitl [Hrow]; · iexists f; iexact Hrow
      iexact Hr2
    · iexact Hr1
  iintro HO
  iapply Hk
  isplitl [HO]; · iexists W; iexact HO
  iexact HP

/-- Taking the step's offset out of the offsets still to come; putting it among the offsets done. -/
theorem peelFrom (k : ℕ) (hk : k < 32) (Φ : Fin 32 → sProp 𝕄) :
    bigSep (poolFrom k) Φ = iprop(Φ ⟨k, hk⟩ ∗ bigSep (poolFrom (k + 1)) Φ) := by
  rw [poolFrom_succ k hk, bigSep_insert (not_mem_poolFrom_succ k hk)]; rfl
theorem pushTo (k : ℕ) (hk : k < 32) (h0 : 0 < k) (Φ : Fin 32 → sProp 𝕄) :
    bigSep (poolTo (k + 1)) Φ = iprop(Φ ⟨k, hk⟩ ∗ bigSep (poolTo k) Φ) := by
  rw [poolTo_succ k hk h0, bigSep_insert (not_mem_poolTo k hk)]; rfl

/-- The wait on the barrier cell for its 31 units, owing the receive credits only: every other device's row comes with it. -/
theorem bar_wait {α : Type} {Q : α → sProp 𝕄} {cont : PUnit → Prog (TpuEff nD τ sig (Elt F) Λ₀ .tc) α} {k' : ℕ} (hk' : k' = 31) :
    iprop(records m ρ K ∗ (∃ W, owes (c : Thread nD τ) (recvOwe c 31 + sigOwe c 0) W) ∗ cred (tallyAt (barCell c) () 31) ∗ levAts L lv
        ∗ atPos ER (barCell c) 0 ∅ 0)
      ⊢ iprop((((∃ W, owes (c : Thread nD τ) (recvOwe c 31) W) ∗ bigSep (poolFrom 1) (barPay (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS k') cont) Q) := by
  subst hk'
  iintro ⟨#HR, ⟨%W, HO⟩, Hc, #Hlev, Hat⟩ Hk
  ihave #HI := (inv_at m ρ K (c, none)) $$ HR
  ihave HO := (Entails.of_eq (congrArg (fun O => (owes (c : Thread nD τ) O W : sProp 𝕄)) (show recvOwe c 31 + sigOwe c 0 = recvOwe c 31 from add_zero _))) $$ HO
  iapply (Rounds.wp_wait_rest_token 𝒱₀ ER (Rd m ρ) (c : Thread nD τ) none (κ := K (c, none))
      (wpE_semWait_eq 𝒱₀ (c : Thread nD τ) none Set.univ) (Set.mem_univ _) () (O := recvOwe c 31) (W := W) (R := 0) (m := 0) (T := ∅)
      (by rw [expect_bar, Nat.zero_add])) $$ [Hc HO Hat]
  · isplitr; · iexact HI
    isplitl [Hc]; · iexact Hc
    isplitl [HO]; · iexact HO
    isplitr; · iapply (mayWait_bar c); iexact Hlev
    iexact Hat
  iintro ⟨HO, -, -, Hpay⟩
  ihave Hp := (Entails.of_eq (rest_bar m ρ c)) $$ Hpay
  iapply Hk
  isplitl [HO]; · iexists _; iexact HO
  iexact Hp

/-- What the transfer at offset `o` pays with: the tokens of its departure and of its arrival, and its share of the device's own row. -/
def sndB (o : Fin 32) : sProp 𝕄 :=
  iprop(dutyTok ER (sendCell c o) 0 (0 : Fin 32) ∗ dutyTok ER (recvCell (peer c o) o) 0 (0 : Fin 32) ∗ rowPts c 0 (pieceSh o.val) (comm m ρ c))
/-- What it leaves the device: the departure's credit. -/
def sndCred (o : Fin 32) : sProp 𝕄 := cred (tallyAt (sendCell c o) () N)

/-- The transfer at offset `k`: the device's own row into row `k` of device `c + k`. -/
theorem send_step (k : ℕ) (hk : k < 32) (h0 : 0 < k) {α : Type} {Q : α → sProp 𝕄}
    {cont : PUnit → Prog (TpuEff nD τ sig (Elt F) Λ₀ .tc) α}
    {n : Dev nD} (hn : n = peer c ⟨k, hk⟩)
    {src dst : Memref sig .tc .vmem S256 .f32} (hsrcM : src = slotM 0) (hdstM : dst = slotM ⟨k, hk⟩)
    {sS sR : DmaSem sig} (hsS : sS = sendS ⟨k, hk⟩) (hsR : sR = recvS ⟨k, hk⟩)
    {hsc : (dst : Memref sig (Dev.tc n : Thread nD τ).2.kind .vmem S256 .f32).view.ref.isScScratch = false}
    {hsrc : src.view.WordExact} {hdst : dst.view.WordExact}
    {hsem : DmaTarget.Typed .vmem (.dma sR) (.remote (Dev.tc n : Thread nD τ) dst (.dma sS) hsc)} :
    iprop(records m ρ K ∗ (∃ W, owes (c : Thread nD τ) (recvOwe c (32 - k)) W) ∗ bigSep (poolFrom k) (barPay (F := F) c)
        ∗ bigSep (poolFrom k) (sndB m ρ c) ∗ bigSep (poolTo k) (sndCred (F := F) c))
      ⊢ iprop((((∃ W, owes (c : Thread nD τ) (recvOwe c (32 - (k + 1))) W) ∗ bigSep (poolFrom (k + 1)) (barPay (F := F) c)
              ∗ bigSep (poolFrom (k + 1)) (sndB m ρ c) ∗ bigSep (poolTo (k + 1)) (sndCred (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) cont) Q) := by
  subst hn hsrcM hdstM hsS hsR
  have hne := ne_zero_of_pos k hk h0
  iintro ⟨#HR, ⟨%W, HO⟩, HB, HS, HC⟩ Hk
  ihave HB' := (Entails.of_eq (peelFrom k hk (barPay (F := F) c))) $$ HB
  ihave HS' := (Entails.of_eq (peelFrom k hk (sndB m ρ c))) $$ HS
  icases HB' with ⟨HB0, HB⟩
  icases HS' with ⟨HS0, HS⟩
  ihave HB0 := (Entails.of_eq (show barPay (F := F) c ⟨k, hk⟩ = iprop((∃ f, rowPts (peer c ⟨k, hk⟩) ⟨k, hk⟩ fullShare f) ∗ reached ER (recvCell (peer c ⟨k, hk⟩) ⟨k, hk⟩) 0) from rfl)) $$ HB0
  ihave HS0 := (Entails.of_eq (show sndB m ρ c ⟨k, hk⟩ = iprop(dutyTok ER (sendCell c ⟨k, hk⟩) 0 (0 : Fin 32) ∗ dutyTok ER (recvCell (peer c ⟨k, hk⟩) ⟨k, hk⟩) 0 (0 : Fin 32)
      ∗ rowPts c 0 (pieceSh k) (comm m ρ c)) from rfl)) $$ HS0
  icases HB0 with ⟨⟨%fd, Hdst⟩, #Hrv⟩
  icases HS0 with ⟨Hts, Htr, Hsrc⟩
  ihave #HIs := (inv_at m ρ K (c, some (false, ⟨k, hk⟩))) $$ HR
  ihave #HIr := (inv_at m ρ K (peer c ⟨k, hk⟩, some (true, ⟨k, hk⟩))) $$ HR
  ihave #Hrs := (reached_at m ρ K (c, some (false, ⟨k, hk⟩))) $$ HR
  unfold rowPts
  iapply (Rounds.wp_send_pointsTo 𝒱₀ ER (Rd m ρ) (c : Thread nD τ) none (c' := (peer c ⟨k, hk⟩ : Thread nD τ))
      (src := slotM 0) (dst := slotM ⟨k, hk⟩) (κ₁ := K (c, some (false, ⟨k, hk⟩))) (κ₂ := K (peer c ⟨k, hk⟩, some (true, ⟨k, hk⟩)))
      (r₁ := 0) (r₂ := 0) (d₁ := 0) (d₂ := 0) (fd := fd) (q := pieceSh k) (fs := comm m ρ c)
      (by rw [duties_send m ρ c ⟨k, hk⟩ hne]; exact Finset.mem_singleton_self _)
      (by rw [duties_recv m ρ (peer c ⟨k, hk⟩) ⟨k, hk⟩ hne]; exact Finset.mem_singleton_self _)
      () () N rfl (amount_send m ρ c ⟨k, hk⟩ hne 0) (amount_recv m ρ (peer c ⟨k, hk⟩) ⟨k, hk⟩ hne 0)
      (O₀ := recvOwe c (32 - k)) (recvOwe c (32 - (k + 1))) (recvOwe_step c k hk h0) (W := W)
      (by rw [payload_send m ρ c ⟨k, hk⟩ hne]; exact BI.Entails.refl _)
      (by rw [payload_recv m ρ (peer c ⟨k, hk⟩) ⟨k, hk⟩ hne]; exact Entails.of_eq (landed_eq m ρ c ⟨k, hk⟩ fd))) $$ [HO Hdst Hts Htr Hsrc]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrv
  iintro ⟨Hcr, HO⟩
  iapply Hk
  isplitl [HO]; · iexists W; iexact HO
  isplitl [HB]; · iexact HB
  isplitl [HS]; · iexact HS
  iapply (Entails.of_eq (pushTo k hk h0 (sndCred (F := F) c)).symm)
  isplitl [Hcr]; · unfold sndCred; iexact Hcr
  iexact HC

/-- A device's positions and credit at offset `o` before its two waits, between them, and after them. -/
def wt0 (o : Fin 32) : sProp 𝕄 :=
  iprop(sndCred (F := F) c o ∗ atPos ER (sendCell c o) 0 ∅ 0 ∗ cred (tallyAt (recvCell c o) () N) ∗ atPos ER (recvCell c o) 0 ∅ 0)
def wt1 (o : Fin 32) : sProp 𝕄 :=
  iprop(atPos ER (sendCell c o) 1 ∅ 0 ∗ sendPay m ρ c o ∗ cred (tallyAt (recvCell c o) () N) ∗ atPos ER (recvCell c o) 0 ∅ 0)
def wt2 (o : Fin 32) : sProp 𝕄 :=
  iprop(atPos ER (sendCell c o) 1 ∅ 0 ∗ sendPay m ρ c o ∗ atPos ER (recvCell c o) 1 ∅ 0 ∗ recvPay m ρ c o)

/-- The wait for the departure at offset `k`: the share of the device's own row comes back. -/
theorem swait_step (k : ℕ) (hk : k < 32) (h0 : 0 < k) {α : Type} {Q : α → sProp 𝕄}
    {cont : PUnit → Prog (TpuEff nD τ sig (Elt F) Λ₀ .tc) α}
    {sS : DmaSem sig} (hsS : sS = sendS ⟨k, hk⟩) {src dst : Memref sig .tc .vmem S256 .f32} (hdM : dst = slotM 0)
    {hsrc : src.view.WordExact} {hdst : dst.view.WordExact} :
    iprop(records m ρ K ∗ (∃ W, owes (c : Thread nD τ) 0 W) ∗ bigSep (poolFrom k) (wt0 (F := F) c))
      ⊢ iprop((((∃ W, owes (c : Thread nD τ) 0 W) ∗ wt1 m ρ c ⟨k, hk⟩ ∗ bigSep (poolFrom (k + 1)) (wt0 (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 sS src dst hsrc hdst) cont) Q) := by
  subst hsS hdM
  have hne := ne_zero_of_pos k hk h0
  iintro ⟨#HR, ⟨%W, HO⟩, HP⟩ Hk
  ihave HP' := (Entails.of_eq (peelFrom k hk (wt0 (F := F) c))) $$ HP
  icases HP' with ⟨H0, HP⟩
  ihave H0 := (Entails.of_eq (show wt0 (F := F) c ⟨k, hk⟩ = iprop(cred (tallyAt (sendCell c ⟨k, hk⟩) () N) ∗ atPos ER (sendCell c ⟨k, hk⟩) 0 ∅ 0
      ∗ cred (tallyAt (recvCell c ⟨k, hk⟩) () N) ∗ atPos ER (recvCell c ⟨k, hk⟩) 0 ∅ 0) from rfl)) $$ H0
  icases H0 with ⟨Hcs, Has, Hcr, Har⟩
  ihave #HIs := (inv_at m ρ K (c, some (false, ⟨k, hk⟩))) $$ HR
  iapply (Rounds.wp_wait_rest_token 𝒱₀ ER (Rd m ρ) (c : Thread nD τ) none (κ := K (c, some (false, ⟨k, hk⟩)))
      (wpE_waitDma2_eq 𝒱₀ (c : Thread nD τ) none Set.univ) (Set.mem_univ _) () (O := 0) (W := W) (R := 0) (m := 0) (T := ∅)
      (by rw [Nat.zero_add, expect_send m ρ c ⟨k, hk⟩ hne])) $$ [Hcs HO Has]
  · isplitr; · iexact HIs
    isplitl [Hcs]; · iexact Hcs
    isplitl [HO]; · iexact HO
    isplitr; · rw [MayWait_zero]; iempintro
    iexact Has
  iintro ⟨HO, Has, -, Hpay⟩
  ihave Hp := (Entails.of_eq (rest_send m ρ c ⟨k, hk⟩ hne)) $$ Hpay
  iapply Hk
  isplitl [HO]; · iexists _; iexact HO
  isplitr [HP]
  · unfold wt1
    isplitl [Has]; · iexact Has
    isplitl [Hp]; · iexact Hp
    isplitl [Hcr]; · iexact Hcr
    iexact Har
  iexact HP

/-- The wait for the arrival at offset `k`: row `k` comes, holding the maxima of the device `k` places before. -/
theorem rwait_step (k : ℕ) (hk : k < 32) (h0 : 0 < k) {α : Type} {Q : α → sProp 𝕄}
    {cont : PUnit → Prog (TpuEff nD τ sig (Elt F) Λ₀ .tc) α}
    {sR : DmaSem sig} (hsR : sR = recvS ⟨k, hk⟩) {src dst : Memref sig .tc .vmem S256 .f32} (hdM : dst = slotM ⟨k, hk⟩)
    {hsrc : src.view.WordExact} {hdst : dst.view.WordExact} :
    iprop(records m ρ K ∗ (∃ W, owes (c : Thread nD τ) 0 W) ∗ wt1 m ρ c ⟨k, hk⟩ ∗ bigSep (poolTo k) (wt2 m ρ c))
      ⊢ iprop((((∃ W, owes (c : Thread nD τ) 0 W) ∗ bigSep (poolTo (k + 1)) (wt2 m ρ c))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 sR src dst hsrc hdst) cont) Q) := by
  subst hsR hdM
  have hne := ne_zero_of_pos k hk h0
  iintro ⟨#HR, ⟨%W, HO⟩, H1, HD⟩ Hk
  unfold wt1
  icases H1 with ⟨Has, Hsp, Hcr, Har⟩
  ihave Hcr := (Entails.of_eq (show (cred (tallyAt (recvCell c ⟨k, hk⟩) () N) : sProp 𝕄)
      = cred (tallyAt (recvCell c ⟨k, hk⟩) () (slotM ⟨k, hk⟩).view.dmaCredit) from rfl)) $$ Hcr
  ihave #HIr := (inv_at m ρ K (c, some (true, ⟨k, hk⟩))) $$ HR
  iapply (Rounds.wp_wait_rest_token 𝒱₀ ER (Rd m ρ) (c : Thread nD τ) none (κ := K (c, some (true, ⟨k, hk⟩)))
      (wpE_waitDma2_eq 𝒱₀ (c : Thread nD τ) none Set.univ) (Set.mem_univ _) () (O := 0) (W := W) (R := 0) (m := 0) (T := ∅)
      (by rw [Nat.zero_add, expect_recv m ρ c ⟨k, hk⟩ hne])) $$ [Hcr HO Har]
  · isplitr; · iexact HIr
    isplitl [Hcr]; · iexact Hcr
    isplitl [HO]; · iexact HO
    isplitr; · rw [MayWait_zero]; iempintro
    iexact Har
  iintro ⟨HO, Har, -, Hpay⟩
  ihave Hp := (Entails.of_eq (rest_recv m ρ c ⟨k, hk⟩ hne)) $$ Hpay
  iapply Hk
  isplitl [HO]; · iexists _; iexact HO
  iapply (Entails.of_eq (pushTo k hk h0 (wt2 m ρ c)).symm)
  isplitr [HD]
  · unfold wt2
    isplitl [Has]; · iexact Has
    isplitl [Hsp]; · iexact Hsp
    isplitl [Har]; · iexact Har
    iexact Hp
  iexact HD

/-- A cell with no duty left, its owner at the start of the first round that has none: the counter is the core's again, at zero. -/
theorem close_cell (ck : CK) (R : ℕ) (hR : ∀ r, R ≤ r → (Rd (F := F) m ρ).duties (kcell (c, ck)) r = ∅) :
    iprop(records m ρ K ∗ atPos ER (kcell (c, ck)) R ∅ 0) ⊢ |={Set.univ}=> (semVal (kcell (c, ck)) 0 : sProp 𝕄) := by
  iintro ⟨#HR, Hat⟩
  ihave #HI := (inv_at m ρ K (c, ck)) $$ HR
  iapply (Rounds.cell_close ER (Rd m ρ) (Set.mem_univ (K (c, ck))) (fun h => h) (R := R) hR)
  isplitr; · iexact HI
  iexact Hat

end Cert.KernelIdealProof

end
-- ==== Proof.DevTable.lean ====
import proofs.«900924_g7700000000000925_dist_max_ax0_shard0_i_m512_n256_v7x_i32_bf16_1_alg».proof.Proof.RingArith
import proofs.«900924_g7700000000000925_dist_max_ax0_shard0_i_m512_n256_v7x_i32_bf16_1_alg».proof.Proof.Gen.KernelIdeal

namespace Cert.KernelIdealProof

open Cert.KernelIdeal Cert.KernelIdeal.Gen Idealize.ShloMosaic

/-! The device each signal (chains 1 to 31) and each transfer (chains 32 to 62) addresses: offset `k` from the device's own place. -/

theorem dev1_eq (c : Dev nD) : (⟨k0_dev1 c, k0_dev1_lt c⟩ : Dev nD) = peer c ⟨1, by decide⟩ := Fin.ext ((k0_dev1_eq c).trans rfl)
theorem dev2_eq (c : Dev nD) : (⟨k0_dev2 c, k0_dev2_lt c⟩ : Dev nD) = peer c ⟨2, by decide⟩ := Fin.ext ((k0_dev2_eq c).trans rfl)
theorem dev3_eq (c : Dev nD) : (⟨k0_dev3 c, k0_dev3_lt c⟩ : Dev nD) = peer c ⟨3, by decide⟩ := Fin.ext ((k0_dev3_eq c).trans rfl)
theorem dev4_eq (c : Dev nD) : (⟨k0_dev4 c, k0_dev4_lt c⟩ : Dev nD) = peer c ⟨4, by decide⟩ := Fin.ext ((k0_dev4_eq c).trans rfl)
theorem dev5_eq (c : Dev nD) : (⟨k0_dev5 c, k0_dev5_lt c⟩ : Dev nD) = peer c ⟨5, by decide⟩ := Fin.ext ((k0_dev5_eq c).trans rfl)
theorem dev6_eq (c : Dev nD) : (⟨k0_dev6 c, k0_dev6_lt c⟩ : Dev nD) = peer c ⟨6, by decide⟩ := Fin.ext ((k0_dev6_eq c).trans rfl)
theorem dev7_eq (c : Dev nD) : (⟨k0_dev7 c, k0_dev7_lt c⟩ : Dev nD) = peer c ⟨7, by decide⟩ := Fin.ext ((k0_dev7_eq c).trans rfl)
theorem dev8_eq (c : Dev nD) : (⟨k0_dev8 c, k0_dev8_lt c⟩ : Dev nD) = peer c ⟨8, by decide⟩ := Fin.ext ((k0_dev8_eq c).trans rfl)
theorem dev9_eq (c : Dev nD) : (⟨k0_dev9 c, k0_dev9_lt c⟩ : Dev nD) = peer c ⟨9, by decide⟩ := Fin.ext ((k0_dev9_eq c).trans rfl)
theorem dev10_eq (c : Dev nD) : (⟨k0_dev10 c, k0_dev10_lt c⟩ : Dev nD) = peer c ⟨10, by decide⟩ := Fin.ext ((k0_dev10_eq c).trans rfl)
theorem dev11_eq (c : Dev nD) : (⟨k0_dev11 c, k0_dev11_lt c⟩ : Dev nD) = peer c ⟨11, by decide⟩ := Fin.ext ((k0_dev11_eq c).trans rfl)
theorem dev12_eq (c : Dev nD) : (⟨k0_dev12 c, k0_dev12_lt c⟩ : Dev nD) = peer c ⟨12, by decide⟩ := Fin.ext ((k0_dev12_eq c).trans rfl)
theorem dev13_eq (c : Dev nD) : (⟨k0_dev13 c, k0_dev13_lt c⟩ : Dev nD) = peer c ⟨13, by decide⟩ := Fin.ext ((k0_dev13_eq c).trans rfl)
theorem dev14_eq (c : Dev nD) : (⟨k0_dev14 c, k0_dev14_lt c⟩ : Dev nD) = peer c ⟨14, by decide⟩ := Fin.ext ((k0_dev14_eq c).trans rfl)
theorem dev15_eq (c : Dev nD) : (⟨k0_dev15 c, k0_dev15_lt c⟩ : Dev nD) = peer c ⟨15, by decide⟩ := Fin.ext ((k0_dev15_eq c).trans rfl)
theorem dev16_eq (c : Dev nD) : (⟨k0_dev16 c, k0_dev16_lt c⟩ : Dev nD) = peer c ⟨16, by decide⟩ := Fin.ext ((k0_dev16_eq c).trans rfl)
theorem dev17_eq (c : Dev nD) : (⟨k0_dev17 c, k0_dev17_lt c⟩ : Dev nD) = peer c ⟨17, by decide⟩ := Fin.ext ((k0_dev17_eq c).trans rfl)
theorem dev18_eq (c : Dev nD) : (⟨k0_dev18 c, k0_dev18_lt c⟩ : Dev nD) = peer c ⟨18, by decide⟩ := Fin.ext ((k0_dev18_eq c).trans rfl)
theorem dev19_eq (c : Dev nD) : (⟨k0_dev19 c, k0_dev19_lt c⟩ : Dev nD) = peer c ⟨19, by decide⟩ := Fin.ext ((k0_dev19_eq c).trans rfl)
theorem dev20_eq (c : Dev nD) : (⟨k0_dev20 c, k0_dev20_lt c⟩ : Dev nD) = peer c ⟨20, by decide⟩ := Fin.ext ((k0_dev20_eq c).trans rfl)
theorem dev21_eq (c : Dev nD) : (⟨k0_dev21 c, k0_dev21_lt c⟩ : Dev nD) = peer c ⟨21, by decide⟩ := Fin.ext ((k0_dev21_eq c).trans rfl)
theorem dev22_eq (c : Dev nD) : (⟨k0_dev22 c, k0_dev22_lt c⟩ : Dev nD) = peer c ⟨22, by decide⟩ := Fin.ext ((k0_dev22_eq c).trans rfl)
theorem dev23_eq (c : Dev nD) : (⟨k0_dev23 c, k0_dev23_lt c⟩ : Dev nD) = peer c ⟨23, by decide⟩ := Fin.ext ((k0_dev23_eq c).trans rfl)
theorem dev24_eq (c : Dev nD) : (⟨k0_dev24 c, k0_dev24_lt c⟩ : Dev nD) = peer c ⟨24, by decide⟩ := Fin.ext ((k0_dev24_eq c).trans rfl)
theorem dev25_eq (c : Dev nD) : (⟨k0_dev25 c, k0_dev25_lt c⟩ : Dev nD) = peer c ⟨25, by decide⟩ := Fin.ext ((k0_dev25_eq c).trans rfl)
theorem dev26_eq (c : Dev nD) : (⟨k0_dev26 c, k0_dev26_lt c⟩ : Dev nD) = peer c ⟨26, by decide⟩ := Fin.ext ((k0_dev26_eq c).trans rfl)
theorem dev27_eq (c : Dev nD) : (⟨k0_dev27 c, k0_dev27_lt c⟩ : Dev nD) = peer c ⟨27, by decide⟩ := Fin.ext ((k0_dev27_eq c).trans rfl)
theorem dev28_eq (c : Dev nD) : (⟨k0_dev28 c, k0_dev28_lt c⟩ : Dev nD) = peer c ⟨28, by decide⟩ := Fin.ext ((k0_dev28_eq c).trans rfl)
theorem dev29_eq (c : Dev nD) : (⟨k0_dev29 c, k0_dev29_lt c⟩ : Dev nD) = peer c ⟨29, by decide⟩ := Fin.ext ((k0_dev29_eq c).trans rfl)
theorem dev30_eq (c : Dev nD) : (⟨k0_dev30 c, k0_dev30_lt c⟩ : Dev nD) = peer c ⟨30, by decide⟩ := Fin.ext ((k0_dev30_eq c).trans rfl)
theorem dev31_eq (c : Dev nD) : (⟨k0_dev31 c, k0_dev31_lt c⟩ : Dev nD) = peer c ⟨31, by decide⟩ := Fin.ext ((k0_dev31_eq c).trans rfl)
theorem dev32_eq (c : Dev nD) : (⟨k0_dev32 c, k0_dev32_lt c⟩ : Dev nD) = peer c ⟨1, by decide⟩ := Fin.ext ((k0_dev32_eq c).trans rfl)
theorem dev33_eq (c : Dev nD) : (⟨k0_dev33 c, k0_dev33_lt c⟩ : Dev nD) = peer c ⟨2, by decide⟩ := Fin.ext ((k0_dev33_eq c).trans rfl)
theorem dev34_eq (c : Dev nD) : (⟨k0_dev34 c, k0_dev34_lt c⟩ : Dev nD) = peer c ⟨3, by decide⟩ := Fin.ext ((k0_dev34_eq c).trans rfl)
theorem dev35_eq (c : Dev nD) : (⟨k0_dev35 c, k0_dev35_lt c⟩ : Dev nD) = peer c ⟨4, by decide⟩ := Fin.ext ((k0_dev35_eq c).trans rfl)
theorem dev36_eq (c : Dev nD) : (⟨k0_dev36 c, k0_dev36_lt c⟩ : Dev nD) = peer c ⟨5, by decide⟩ := Fin.ext ((k0_dev36_eq c).trans rfl)
theorem dev37_eq (c : Dev nD) : (⟨k0_dev37 c, k0_dev37_lt c⟩ : Dev nD) = peer c ⟨6, by decide⟩ := Fin.ext ((k0_dev37_eq c).trans rfl)
theorem dev38_eq (c : Dev nD) : (⟨k0_dev38 c, k0_dev38_lt c⟩ : Dev nD) = peer c ⟨7, by decide⟩ := Fin.ext ((k0_dev38_eq c).trans rfl)
theorem dev39_eq (c : Dev nD) : (⟨k0_dev39 c, k0_dev39_lt c⟩ : Dev nD) = peer c ⟨8, by decide⟩ := Fin.ext ((k0_dev39_eq c).trans rfl)
theorem dev40_eq (c : Dev nD) : (⟨k0_dev40 c, k0_dev40_lt c⟩ : Dev nD) = peer c ⟨9, by decide⟩ := Fin.ext ((k0_dev40_eq c).trans rfl)
theorem dev41_eq (c : Dev nD) : (⟨k0_dev41 c, k0_dev41_lt c⟩ : Dev nD) = peer c ⟨10, by decide⟩ := Fin.ext ((k0_dev41_eq c).trans rfl)
theorem dev42_eq (c : Dev nD) : (⟨k0_dev42 c, k0_dev42_lt c⟩ : Dev nD) = peer c ⟨11, by decide⟩ := Fin.ext ((k0_dev42_eq c).trans rfl)
theorem dev43_eq (c : Dev nD) : (⟨k0_dev43 c, k0_dev43_lt c⟩ : Dev nD) = peer c ⟨12, by decide⟩ := Fin.ext ((k0_dev43_eq c).trans rfl)
theorem dev44_eq (c : Dev nD) : (⟨k0_dev44 c, k0_dev44_lt c⟩ : Dev nD) = peer c ⟨13, by decide⟩ := Fin.ext ((k0_dev44_eq c).trans rfl)
theorem dev45_eq (c : Dev nD) : (⟨k0_dev45 c, k0_dev45_lt c⟩ : Dev nD) = peer c ⟨14, by decide⟩ := Fin.ext ((k0_dev45_eq c).trans rfl)
theorem dev46_eq (c : Dev nD) : (⟨k0_dev46 c, k0_dev46_lt c⟩ : Dev nD) = peer c ⟨15, by decide⟩ := Fin.ext ((k0_dev46_eq c).trans rfl)
theorem dev47_eq (c : Dev nD) : (⟨k0_dev47 c, k0_dev47_lt c⟩ : Dev nD) = peer c ⟨16, by decide⟩ := Fin.ext ((k0_dev47_eq c).trans rfl)
theorem dev48_eq (c : Dev nD) : (⟨k0_dev48 c, k0_dev48_lt c⟩ : Dev nD) = peer c ⟨17, by decide⟩ := Fin.ext ((k0_dev48_eq c).trans rfl)
theorem dev49_eq (c : Dev nD) : (⟨k0_dev49 c, k0_dev49_lt c⟩ : Dev nD) = peer c ⟨18, by decide⟩ := Fin.ext ((k0_dev49_eq c).trans rfl)
theorem dev50_eq (c : Dev nD) : (⟨k0_dev50 c, k0_dev50_lt c⟩ : Dev nD) = peer c ⟨19, by decide⟩ := Fin.ext ((k0_dev50_eq c).trans rfl)
theorem dev51_eq (c : Dev nD) : (⟨k0_dev51 c, k0_dev51_lt c⟩ : Dev nD) = peer c ⟨20, by decide⟩ := Fin.ext ((k0_dev51_eq c).trans rfl)
theorem dev52_eq (c : Dev nD) : (⟨k0_dev52 c, k0_dev52_lt c⟩ : Dev nD) = peer c ⟨21, by decide⟩ := Fin.ext ((k0_dev52_eq c).trans rfl)
theorem dev53_eq (c : Dev nD) : (⟨k0_dev53 c, k0_dev53_lt c⟩ : Dev nD) = peer c ⟨22, by decide⟩ := Fin.ext ((k0_dev53_eq c).trans rfl)
theorem dev54_eq (c : Dev nD) : (⟨k0_dev54 c, k0_dev54_lt c⟩ : Dev nD) = peer c ⟨23, by decide⟩ := Fin.ext ((k0_dev54_eq c).trans rfl)
theorem dev55_eq (c : Dev nD) : (⟨k0_dev55 c, k0_dev55_lt c⟩ : Dev nD) = peer c ⟨24, by decide⟩ := Fin.ext ((k0_dev55_eq c).trans rfl)
theorem dev56_eq (c : Dev nD) : (⟨k0_dev56 c, k0_dev56_lt c⟩ : Dev nD) = peer c ⟨25, by decide⟩ := Fin.ext ((k0_dev56_eq c).trans rfl)
theorem dev57_eq (c : Dev nD) : (⟨k0_dev57 c, k0_dev57_lt c⟩ : Dev nD) = peer c ⟨26, by decide⟩ := Fin.ext ((k0_dev57_eq c).trans rfl)
theorem dev58_eq (c : Dev nD) : (⟨k0_dev58 c, k0_dev58_lt c⟩ : Dev nD) = peer c ⟨27, by decide⟩ := Fin.ext ((k0_dev58_eq c).trans rfl)
theorem dev59_eq (c : Dev nD) : (⟨k0_dev59 c, k0_dev59_lt c⟩ : Dev nD) = peer c ⟨28, by decide⟩ := Fin.ext ((k0_dev59_eq c).trans rfl)
theorem dev60_eq (c : Dev nD) : (⟨k0_dev60 c, k0_dev60_lt c⟩ : Dev nD) = peer c ⟨29, by decide⟩ := Fin.ext ((k0_dev60_eq c).trans rfl)
theorem dev61_eq (c : Dev nD) : (⟨k0_dev61 c, k0_dev61_lt c⟩ : Dev nD) = peer c ⟨30, by decide⟩ := Fin.ext ((k0_dev61_eq c).trans rfl)
theorem dev62_eq (c : Dev nD) : (⟨k0_dev62 c, k0_dev62_lt c⟩ : Dev nD) = peer c ⟨31, by decide⟩ := Fin.ext ((k0_dev62_eq c).trans rfl)

end Cert.KernelIdealProof
-- ==== Proof.Offsets.lean ====
import Lean

open Lean Elab Tactic

namespace Cert.Offsets

/-- An identifier's name with the marks `KK31`, `KK1`, `KK` in its text read as the numbers `k + 31`, `k + 1`, `k`. -/
def spliceName (k : Nat) (n : Name) : Name :=
  let s := n.toString (escape := false)
  let s := s.replace "KK31" (toString (k + 31))
  let s := s.replace "KK1" (toString (k + 1))
  let s := s.replace "KK" (toString k)
  s.splitOn "." |>.foldl (fun acc part => Name.str acc part) Name.anonymous

/-- `for_offsets lo hi => tac` runs `tac` once for each `k = lo, …, hi` in turn, the identifier `kk` in it read as the
    numeral `k` and `kk1` as `k + 1`, and a name holding the mark `KK` (`KK1`, `KK31`) as the name with `k` (`k + 1`,
    `k + 31`) in its place: one step per ring offset. -/
elab "for_offsets " lo:num hi:num " => " t:tacticSeq : tactic => do
  for k in [lo.getNat : hi.getNat + 1] do
    let t' ← t.raw.replaceM fun s => do
      if s.isIdent && s.getId == `kk then return some (Syntax.mkNumLit (toString k))
      else if s.isIdent && s.getId == `kk1 then return some (Syntax.mkNumLit (toString (k + 1)))
      else if s.isIdent && ((s.getId.toString (escape := false)).splitOn "KK").length > 1 then
        return some (mkIdentFrom s (spliceName k s.getId))
      else return none
    evalTactic t'

end Cert.Offsets
-- ==== Proof.Glue.lean ====
import proofs.«900924_g7700000000000925_dist_max_ax0_shard0_i_m512_n256_v7x_i32_bf16_1_alg».proof.Proof.Steps
import proofs.«900924_g7700000000000925_dist_max_ax0_shard0_i_m512_n256_v7x_i32_bf16_1_alg».proof.Proof.DevTable
import proofs.«900924_g7700000000000925_dist_max_ax0_shard0_i_m512_n256_v7x_i32_bf16_1_alg».proof.Proof.Offsets

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Offsets

variable (K : Dev nD × CK → ℕ) (c : Dev nD)

/-! ## Gathering the per-offset resources -/

/-- Negation of offsets, as an embedding: the signal at offset `o` hands over row `-o`. -/
def negEmb : Fin 32 ↪ Fin 32 := ⟨fun o => -o, by intro a b; revert a b; decide⟩
theorem neg_map : (Finset.univ.erase (0 : Fin 32)).map negEmb = Finset.univ.erase 0 := by decide

theorem sigB_intro (o : Fin 32) (f : Buf (Elt F) ((c : Thread nD τ).loc cc0_scratch0)) :
    iprop((dutyTok ER (barCell (peer c o)) 0 (-o) : sProp 𝕄) ∗ rowPts (F := F) c (-o) fullShare f) ⊢ sigB (F := F) c o := by
  unfold sigB
  iintro ⟨H1, H2⟩
  isplitl [H1]; · iexact H1
  iexists f; iexact H2

/-- The tokens of the 31 signals and the 31 rows other devices will write, offset by offset. -/
theorem sig_pool (f : Buf (Elt F) ((c : Thread nD τ).loc cc0_scratch0)) :
    iprop((bigSep (Finset.univ.erase 0) fun o : Fin 32 => (dutyTok ER (barCell (peer c o)) 0 (-o) : sProp 𝕄))
        ∗ bigSep (Finset.univ.erase 0) (fun r : Fin 32 => rowPts (F := F) c r fullShare f))
      ⊢ bigSep (poolFrom 1) (sigB (F := F) c) := by
  rw [poolFrom_one]
  have hre : bigSep (Finset.univ.erase 0) (fun r : Fin 32 => rowPts (F := F) c r fullShare f)
      = bigSep (Finset.univ.erase 0) (fun o : Fin 32 => rowPts (F := F) c (-o) fullShare f) := by
    conv_lhs => rw [← neg_map]
    exact bigSep_map negEmb
  rw [hre, ← bigSep_sep']
  exact bigSep_mono fun o _ => sigB_intro c o f

/-- The tokens of the 31 transfers and the shares of the device's own row they borrow, offset by offset. -/
theorem snd_pool :
    iprop((bigSep (Finset.univ.erase 0) fun o : Fin 32 => (dutyTok ER (sendCell c o) 0 (0 : Fin 32) : sProp 𝕄))
        ∗ (bigSep (Finset.univ.erase 0) fun o : Fin 32 => (dutyTok ER (recvCell (peer c o) o) 0 (0 : Fin 32) : sProp 𝕄))
        ∗ bigSep (poolFrom 1) (fun k : Fin 32 => rowPts (F := F) c 0 (pieceSh k.val) (comm m ρ c)))
      ⊢ bigSep (poolFrom 1) (sndB m ρ c) := by
  rw [poolFrom_one]
  rw [show sndB m ρ c = fun o : Fin 32 => iprop((dutyTok ER (sendCell c o) 0 (0 : Fin 32) : sProp 𝕄)
      ∗ (dutyTok ER (recvCell (peer c o) o) 0 (0 : Fin 32) : sProp 𝕄) ∗ rowPts (F := F) c 0 (pieceSh o.val) (comm m ρ c)) from rfl]
  rw [bigSep_sep', bigSep_sep']

/-- Positions and credit before the waits, offset by offset. -/
theorem wt_pool :
    iprop(bigSep (poolTo 32) (sndCred (F := F) c)
        ∗ (bigSep (Finset.univ.erase 0) fun o : Fin 32 => (atPos ER (sendCell c o) 0 ∅ 0 : sProp 𝕄))
        ∗ (bigSep (Finset.univ.erase 0) fun o : Fin 32 => (cred (tallyAt (recvCell c o) () N) : sProp 𝕄))
        ∗ (bigSep (Finset.univ.erase 0) fun o : Fin 32 => (atPos ER (recvCell c o) 0 ∅ 0 : sProp 𝕄)))
      ⊢ bigSep (poolFrom 1) (wt0 (F := F) c) := by
  rw [poolFrom_one, poolTo_last]
  rw [show wt0 (F := F) c = fun o : Fin 32 => iprop(sndCred (F := F) c o ∗ (atPos ER (sendCell c o) 0 ∅ 0 : sProp 𝕄)
      ∗ (cred (tallyAt (recvCell c o) () N) : sProp 𝕄) ∗ (atPos ER (recvCell c o) 0 ∅ 0 : sProp 𝕄)) from rfl]
  rw [bigSep_sep', bigSep_sep', bigSep_sep']

/-- What the waits leave, family by family. -/
theorem wt_done :
    bigSep (poolTo 32) (wt2 m ρ c)
      ⊢ iprop((bigSep (Finset.univ.erase 0) fun o : Fin 32 => (atPos ER (sendCell c o) 1 ∅ 0 : sProp 𝕄))
        ∗ bigSep (Finset.univ.erase 0) (sendPay m ρ c)
        ∗ (bigSep (Finset.univ.erase 0) fun o : Fin 32 => (atPos ER (recvCell c o) 1 ∅ 0 : sProp 𝕄))
        ∗ bigSep (Finset.univ.erase 0) (recvPay m ρ c)) := by
  rw [poolTo_last]
  rw [show wt2 m ρ c = fun o : Fin 32 => iprop((atPos ER (sendCell c o) 1 ∅ 0 : sProp 𝕄) ∗ sendPay m ρ c o
      ∗ (atPos ER (recvCell c o) 1 ∅ 0 : sProp 𝕄) ∗ recvPay m ρ c o) from rfl]
  rw [bigSep_sep', bigSep_sep', bigSep_sep']

/-- The shares of the device's own row, back together. -/
theorem shares_merge :
    iprop(rowPts (F := F) c 0 (restSh 31) (comm m ρ c) ∗ bigSep (Finset.univ.erase 0) (sendPay m ρ c)) ⊢ rowPts (F := F) c 0 fullShare (comm m ρ c) := by
  rw [← poolFrom_one]
  exact (row_shares (F := F) c 0 (comm m ρ c)).2

/-- The 32 rows, back together as the whole buffer. -/
theorem rows_join :
    iprop(rowPts (F := F) c 0 fullShare (comm m ρ c) ∗ bigSep (Finset.univ.erase 0) (recvPay m ρ c))
      ⊢ ((((c : Thread nD τ).loc cc0_scratch0) ↦{fullShare} comm m ρ c : sProp 𝕄)) :=
  (Entails.of_eq (bigSep_univ_at (fun o : Fin 32 => rowPts (F := F) c o fullShare (comm m ρ c)) 0).symm).trans
    (rows_split (F := F) c fullShare (comm m ρ c)).2

/-! ## Closing the cells -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_pool (b : Bool) :
    iprop(records m ρ K ∗ bigSep (Finset.univ.erase 0) (fun o : Fin 32 => (atPos ER (kcell (c, some (b, o))) 1 ∅ 0 : sProp 𝕄)))
      ⊢ |={Set.univ}=> bigSep (Finset.univ.erase 0) (fun o : Fin 32 => (semVal (kcell (c, some (b, o))) 0 : sProp 𝕄)) :=
  (bigSep_with_persistent (fun o _ => close_cell m ρ K c (some (b, o)) 1 (duties_later m ρ _))).trans (bigSep_fupd _ _)

/-- Every own cell closed: the 64 counters are the core's again, at zero. -/
theorem close_all :
    iprop(records m ρ K ∗ atPos ER (sendCell c 0) 0 ∅ 0 ∗ atPos ER (recvCell c 0) 0 ∅ 0
        ∗ (bigSep (Finset.univ.erase 0) fun o : Fin 32 => (atPos ER (sendCell c o) 1 ∅ 0 : sProp 𝕄))
        ∗ (bigSep (Finset.univ.erase 0) fun o : Fin 32 => (atPos ER (recvCell c o) 1 ∅ 0 : sProp 𝕄)))
      ⊢ |={Set.univ}=> (bigSep Finset.univ fun k : Bool × Fin 32 => (semVal ((c : Thread nD τ), osem k) 0 : sProp 𝕄)) := by
  have htarget : (bigSep Finset.univ fun k : Bool × Fin 32 => (semVal ((c : Thread nD τ), osem k) 0 : sProp 𝕄))
      = iprop((semVal (sendCell c 0) 0 ∗ bigSep (Finset.univ.erase 0) fun o : Fin 32 => (semVal (sendCell c o) 0 : sProp 𝕄))
          ∗ (semVal (recvCell c 0) 0 ∗ bigSep (Finset.univ.erase 0) fun o : Fin 32 => (semVal (recvCell c o) 0 : sProp 𝕄))) := by
    rw [bigSep_univ_prod, bigSep_univ_eq_bigSepL [false, true] (by decide) (by decide), bigSepL_cons_cons, bigSepL_singleton,
      bigSep_univ_at (fun o : Fin 32 => (semVal ((c : Thread nD τ), osem (false, o)) 0 : sProp 𝕄)) 0,
      bigSep_univ_at (fun o : Fin 32 => (semVal ((c : Thread nD τ), osem (true, o)) 0 : sProp 𝕄)) 0]
    rfl
  rw [htarget]
  iintro ⟨#HR, Hs0, Hr0, Hs, Hr⟩
  imod (close_cell m ρ K c (some (false, 0)) 0 (fun r _ => duties_send0 m ρ c r)) $$ [Hs0] with Hzs0
  · isplitr; · iexact HR
    iexact Hs0
  imod (close_cell m ρ K c (some (true, 0)) 0 (fun r _ => duties_recv0 m ρ c r)) $$ [Hr0] with Hzr0
  · isplitr; · iexact HR
    iexact Hr0
  imod (close_pool m ρ K c false) $$ [Hs] with Hzs
  · isplitr; · iexact HR
    iexact Hs
  imod (close_pool m ρ K c true) $$ [Hr] with Hzr
  · isplitr; · iexact HR
    iexact Hr
  imodintro
  isplitl [Hzs0 Hzs]
  · isplitl [Hzs0]; · iexact Hzs0
    iexact Hzs
  · isplitl [Hzr0]; · iexact Hzr0
    iexact Hzr

/-! ## The local accesses to row 0 -/

omit [FloatOps F] in
theorem hz2 : (![0, 0] : Fin 2 → Nat) = fun _ => 0 := funext fun a => by fin_cases a <;> rfl

theorem row0_load {α : Type} {Q : α → sProp 𝕄} (f0 : Buf (Elt F) ((c : Thread nD τ).loc cc0_scratch0))
    {hl : (scr : Memref sig .tc .vmem S32x256 .f32).view.LoadsAt r00.toLoadRect}
    {cont : (r00.toLoadRect.shape.Idx → Elt F .f32) → Prog (TpuEff nD τ sig (Elt F) Λ₀ .tc) α} :
    rowPts (F := F) c 0 fullShare f0
      ⊢ iprop((rowPts (F := F) c 0 fullShare f0 -∗ wp frame (wpE (defs₀ (F := F)) 𝒱₀ (c : Thread nD τ) none) Set.univ
            (cont (View.readAt (Elt F) (scr : Memref sig .tc .vmem S32x256 .f32).view r00.toLoadRect f0)) Q)
          -∗ wp frame (wpE (defs₀ (F := F)) 𝒱₀ (c : Thread nD τ) none) Set.univ (.op (.load scr r00.toLoadRect hl) cont) Q) := by
  unfold rowPts
  exact wp_load 𝒱₀ (c : Thread nD τ) none Set.univ (m := scr) load_sub

theorem row0_store {α : Type} {Q : α → sProp 𝕄} (f0 : Buf (Elt F) ((c : Thread nD τ).loc cc0_scratch0))
    (w : r00.shape.Idx → Elt F .f32)
    {hx : ((scr : Memref sig .tc .vmem S32x256 .f32).access r00).Stores Finset.univ}
    {hm : (Finset.univ : Finset r00.shape.Idx) = Finset.univ ∨ ∀ a, r00.stride a = 1}
    {cont : PUnit → Prog (TpuEff nD τ sig (Elt F) Λ₀ .tc) α} :
    rowPts (F := F) c 0 fullShare f0
      ⊢ iprop((rowPts (F := F) c 0 fullShare (((scr : Memref sig .tc .vmem S32x256 .f32).access r00 : View sig .tc _ _ _).write (Elt F) f0 w Finset.univ)
            -∗ wp frame (wpE (defs₀ (F := F)) 𝒱₀ (c : Thread nD τ) none) Set.univ (cont ⟨⟩) Q)
          -∗ wp frame (wpE (defs₀ (F := F)) 𝒱₀ (c : Thread nD τ) none) Set.univ (.op (.store scr r00 w Finset.univ hx hm) cont) Q) := by
  unfold rowPts
  exact wp_store 𝒱₀ (c : Thread nD τ) none Set.univ (m := scr) (r := r00) (Mk := Finset.univ) store_sub

theorem fetch_0 (t : Fin cfg0.N) : (cfg0.win (0 : Fin 2)).fetch t = true := by rw [fin_N t]; rfl

end Cert.KernelIdealProof

end
-- ==== Proof.Body.lean ====
import proofs.«900924_g7700000000000925_dist_max_ax0_shard0_i_m512_n256_v7x_i32_bf16_1_alg».proof.Proof.Glue

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Offsets

variable (K : Dev nD × CK → ℕ) (c : Dev nD)

omit [FloatOps F] in
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 hz2 _ f
omit [FloatOps F] in
theorem read_scr (f : (cc0_scratch0 : Ref sig .tc).ty.Contents (Elt F)) :
    (scr : Memref sig .tc .vmem S32x256 .f32).view.readAt (Elt F) (Rect.unit (s := S32x256) ![0, 0] S32x256.size inb_S32x256_S32x256_0_0).toLoadRect f = f :=
  Memref.readAt_unit_zero (Elt F) cc0_scratch0 hz2 _ f
omit [FloatOps F] in
theorem write_out (f w : (cc0_stg1_0 : Ref sig .tc).ty.Contents (Elt F)) :
    ((oM : Memref sig .tc .vmem S1x256 .f32).access (Rect.unit (s := S1x256) ![0, 0] S1x256.size inb_S1x256_S1x256_0_0) : View sig .tc _ _ _).write (Elt F) f w Finset.univ = w :=
  Memref.write_access_unit_zero_univ (Elt F) cc0_stg1_0 hz2 _ f w

set_option maxHeartbeats 8000000 in
set_option maxRecDepth 65536 in
/-- The body, step by step from `bodyPre`: the 31 signals, the device's own maxima into row 0, the wait on the barrier, the 31
    transfers, their 62 waits, the cells closed, the buffer read whole and its column maxima stored. -/
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part34_eq_skeleton]; unfold k0_part34_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c]
  unfold bodyPre ghost positions payToks
  iintro ⟨⟨⟨⟨#HR, ⟨HatB, HatS, HatV⟩, ⟨HtB, HtV, HtS⟩⟩, HcB, HcV, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = recvOwe c 31 + sigOwe c (32 - 1) from rfl]
  -- the exchange buffer row by row: row 0 stays, every other row goes with a signal
  ihave Hrows := (rows_split (F := F) c fullShare f0).1 $$ Hscr
  ihave Hrows := (Entails.of_eq (bigSep_univ_at (fun o : Fin 32 => rowPts (F := F) c o fullShare f0) 0)) $$ Hrows
  icases Hrows with ⟨Hrow0, Hrows⟩
  ihave HS := (sig_pool (F := F) c f0) $$ [HtB Hrows]
  · isplitl [HtB] <;> iassumption
  ihave HO : (∃ W, owes (c : Thread nD τ) (recvOwe c 31 + sigOwe c (32 - 1)) W) $$ [HO]
  · iexists W; iexact HO
  -- the 31 signals
  for_offsets 1 31 =>
    iapply (sig_step m ρ K c kk (by decide) (by decide) rfl) $$ [HO HS]
    · isplitr; · iexact HR
      isplitl [HO]; · iexact HO
      iexact HS
    iintro ⟨HO, HS⟩
  -- the device's own block read, its column maxima stored into row 0
  iapply (wp_load 𝒱₀ (c : Thread nD τ) none Set.univ (m := xM) (Finset.subset_univ _)) $$ Hx; iintro Hx
  rw [read_x]
  iapply (row0_load c f0) $$ Hrow0; iintro Hrow0
  iapply (row0_store c f0 (k0_pay2 (xstg m ρ c))) $$ Hrow0; iintro Hrow0
  ihave Hrow0 := (Entails.of_eq (stored_eq m ρ c f0)) $$ Hrow0
  -- the wait on the barrier: every other device is in the kernel and has handed over its row for this device
  iapply (bar_wait m ρ K c rfl) $$ [HO HcB HatB]
  · isplitr; · iexact HR
    isplitl [HO]; · iexact HO
    isplitl [HcB]; · iexact HcB
    isplitr; · iexact Hlev
    iexact HatB
  iintro ⟨HO, HB⟩
  -- the 31 transfers, each borrowing a share of row 0
  ihave Hsh := (row_shares (F := F) c 0 (comm m ρ c)).1 $$ Hrow0
  icases Hsh with ⟨Hrest, Hpieces⟩
  ihave HSB := (snd_pool m ρ c) $$ [HtS HtV Hpieces]
  · isplitl [HtS]; · iexact HtS
    isplitl [HtV]; · iexact HtV
    iexact Hpieces
  ihave HC : (bigSep (poolTo 1) (sndCred (F := F) c)) $$ []
  · rw [poolTo_one, bigSep_empty]; iempintro
  for_offsets 1 31 =>
    iapply (send_step m ρ K c kk (by decide) (by decide) (devKK31_eq c) rfl rfl rfl rfl) $$ [HO HB HSB HC]
    · isplitr; · iexact HR
      isplitl [HO]; · iexact HO
      isplitl [HB]; · iexact HB
      isplitl [HSB]; · iexact HSB
      iexact HC
    iintro ⟨HO, HB, HSB, HC⟩
  -- the 62 waits
  ihave HatS := (Entails.of_eq (bigSep_univ_at (fun o : Fin 32 => (atPos ER (sendCell c o) 0 ∅ 0 : sProp 𝕄)) 0)) $$ HatS
  ihave HatV := (Entails.of_eq (bigSep_univ_at (fun o : Fin 32 => (atPos ER (recvCell c o) 0 ∅ 0 : sProp 𝕄)) 0)) $$ HatV
  icases HatS with ⟨HatS0, HatS⟩
  icases HatV with ⟨HatV0, HatV⟩
  ihave HW := (wt_pool (F := F) c) $$ [HC HatS HcV HatV]
  · isplitl [HC]; · iexact HC
    isplitl [HatS]; · iexact HatS
    isplitl [HcV]; · iexact HcV
    iexact HatV
  ihave HD : (bigSep (poolTo 1) (wt2 m ρ c)) $$ []
  · rw [poolTo_one, bigSep_empty]; iempintro
  ihave HO : (∃ W, owes (c : Thread nD τ) 0 W) $$ [HO]
  · iexact HO
  for_offsets 1 31 =>
    iapply (swait_step m ρ K c kk (by decide) (by decide) rfl rfl) $$ [HO HW]
    · isplitr; · iexact HR
      isplitl [HO]; · iexact HO
      iexact HW
    iintro ⟨HO, H1, HW⟩
    iapply (rwait_step m ρ K c kk (by decide) (by decide) rfl rfl) $$ [HO H1 HD]
    · isplitr; · iexact HR
      isplitl [HO]; · iexact HO
      isplitl [H1]; · iexact H1
      iexact HD
    iintro ⟨HO, HD⟩
  -- the shares and the rows back together, the cells closed
  ihave HD := (wt_done m ρ c) $$ HD
  icases HD with ⟨HaS1, HsP, HaV1, HrP⟩
  ihave Hrow0 := (shares_merge m ρ c) $$ [Hrest HsP]
  · isplitl [Hrest] <;> iassumption
  ihave Hscr := (rows_join m ρ c) $$ [Hrow0 HrP]
  · isplitl [Hrow0] <;> iassumption
  imod (close_all m ρ K c) $$ [HatS0 HatV0 HaS1 HaV1] with Hz
  · isplitr; · iexact HR
    isplitl [HatS0]; · iexact HatS0
    isplitl [HatV0]; · iexact HatV0
    isplitl [HaS1]; · iexact HaS1
    iexact HaV1
  -- the buffer read whole, its column maxima stored as the result
  iapply (wp_load 𝒱₀ (c : Thread nD τ) none Set.univ (m := scr) (Finset.subset_univ _)) $$ Hscr; iintro Hscr
  rw [read_scr]
  iapply (wp_load 𝒱₀ (c : Thread nD τ) none Set.univ (m := oM) (Finset.subset_univ _)) $$ Hout; iintro Hout
  iapply (wp_store 𝒱₀ (c : Thread nD τ) none Set.univ (m := oM)
    (r := Rect.unit (s := S1x256) ![0, 0] S1x256.size inb_S1x256_S1x256_0_0) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  icases HO with ⟨%W', HO⟩
  isplitl [Hscr Hz]
  · isplitl [Hscr]; · iexact Hscr
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
set_option maxHeartbeats 4000000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.KernelIdealProof

end
-- ==== Proof.Final.lean ====
import proofs.«900924_g7700000000000925_dist_max_ax0_shard0_i_m512_n256_v7x_i32_bf16_1_alg».proof.Proof.Launch
import proofs.«900924_g7700000000000925_dist_max_ax0_shard0_i_m512_n256_v7x_i32_bf16_1_alg».proof.Proof.Body

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The run, and what it leaves

  The launch theorem's run with every device's body obligation: every array ends at the proof data's final contents. Read
  at the two windows: the argument array ends as launched, and the result array ends holding the column maxima of the
  exchange buffer, each of whose rows is the column maxima of one device's block of the argument. -/

/-- Every weakly fair execution of @main terminates, nothing faulting, each device's arrays ending at the proof data's
    final contents. -/
theorem run_main : θ_run defs (onTc (τ := τ) (main (F := F))) (s₀ m ρ) (QC m ρ) :=
  run_main_of m ρ (body_obligation m ρ)

/-- The device's block of the argument, as its staging buffer holds it, is the device's argument array: the window is the
    whole array at block index 0. -/
theorem xstg_eq (c : Dev nD) : xstg m ρ c = m ((c : Thread nD τ).loc main_arg0) := by
  unfold xstg
  exact Memref.read_access_unit_zero (Elt F) main_arg0 (funext fun a => Nat.zero_mul _) _ _

/-- The kernel's result on a device, as a term of the devices' argument arrays. -/
theorem outAt_eq (c : Dev nD) :
    outAt m ρ c = k0_pay1 (Exch.commOf (fun d : Dev nD => k0_pay2 (m ((d.tc : Thread nD τ).loc main_arg0))) c) := by
  have h : locRow m ρ = fun d : Dev nD => k0_pay2 (m ((d.tc : Thread nD τ).loc main_arg0)) :=
    funext fun d => by unfold locRow; rw [xstg_eq]
  unfold outAt comm
  rw [h]

/-- The frame: the run ends with every device's argument array as launched. -/
theorem frame_run : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c (0 : Fin 2)).trans (finalA_x m ρ c)) (run_main m ρ)

/-- The value: the run ends with every device's result array holding the column maxima of the rows every device computed
    from its own argument array, and its argument array as launched. -/
theorem value_run : θ_run defs (onTc (τ := τ) (main (F := F))) ⟨m, fun _ => 0, ρ⟩ (fun r => ∀ c : Dev nD,
    r.2.mem ((c.tc : Thread nD τ).loc main_v1)
        = k0_pay1 (Exch.commOf (fun d : Dev nD => k0_pay2 (m ((d.tc : Thread nD τ).loc main_arg0))) c)
      ∧ r.2.mem ((c.tc : Thread nD τ).loc main_arg0) = m ((c.tc : Thread nD τ).loc main_arg0)) :=
  (θ_run defs _ _).mono (fun _ h c =>
      ⟨((h c (1 : Fin 2)).trans (finalA_out m ρ c)).trans (outAt_eq m ρ c), (h c (0 : Fin 2)).trans (finalA_x m ρ c)⟩)
    (run_main m ρ)

end Cert.KernelIdealProof

end
-- ==== Proof.Bits.Comm.lean ====
import proofs.«900924_g7700000000000925_dist_max_ax0_shard0_i_m512_n256_v7x_i32_bf16_1_alg».proof.Kernel

noncomputable section

namespace Cert.Kernel.Exch

open Idealize.ShloMosaic Cert.Kernel

variable {F : FTy → Type}

/-- The column of a row vector: index `(0, j)` of a one-row array. -/
abbrev rowIx (j : Fin 256) : S1x256.Idx := fun a => match a with
  | ⟨0, _⟩ => (⟨0, Nat.one_pos⟩ : Fin 1)
  | ⟨1, _⟩ => j

/-- What the exchange buffer of device `c` holds once every row has landed: row `o` is the row
    `loc (c - o)` that the device `o` places before `c` on the ring computed from its own block
    (row `0` is the device's own). -/
def commOf (loc : Fin 32 → Vec F S1x256 .f32) (c : Fin 32) : Vec F S32x256 .f32 :=
  fun i => loc (c - (⟨(i 0).val, (i 0).isLt⟩ : Fin 32)) (rowIx ⟨(i 1).val, (i 1).isLt⟩)

end Cert.Kernel.Exch

end
-- ==== Proof.Bits.RingArith.lean ====
import proofs.«900924_g7700000000000925_dist_max_ax0_shard0_i_m512_n256_v7x_i32_bf16_1_alg».proof.Kernel

namespace Cert.KernelProof

open Cert.Kernel Idealize.ShloMosaic

/-! ## The ring: device `c` sends to `c + o` and receives from `c - o`, for every offset `o ≠ 0` -/

/-- The device `o` places after `c`. -/
def peer (c : Dev nD) (o : Fin 32) : Dev nD := c + o

theorem peer_zero (c : Dev nD) : peer c 0 = c := by revert c; decide
theorem peer_neg (c : Dev nD) (o : Fin 32) : peer (peer c o) (-o) = c := by revert c o; decide
theorem peer_neg' (c : Dev nD) (o : Fin 32) : peer (peer c (-o)) o = c := by revert c o; decide
theorem peer_sub (c : Dev nD) (o : Fin 32) : peer c o - o = c := by revert c o; decide
theorem sub_peer (c : Dev nD) (o : Fin 32) : peer (c - o) o = c := by revert c o; decide
theorem peer_inj_left (o : Fin 32) {c d : Dev nD} (h : peer c o = peer d o) : c = d := by revert c d o; decide
theorem peer_inj_right (c : Dev nD) {o o' : Fin 32} (h : peer c o = peer c o') : o = o' := by revert c o o'; decide
theorem peer_ne_self (c : Dev nD) {o : Fin 32} (h : o ≠ 0) : peer c o ≠ c := by revert c o; decide
theorem neg_ne_zero' {o : Fin 32} (h : o ≠ 0) : -o ≠ 0 := by revert o; decide
theorem neg_neg' (o : Fin 32) : - -o = o := by revert o; decide

/-! ## Offsets still to come, offsets done -/

/-- The offsets from `k` on. -/
def poolFrom (k : ℕ) : Finset (Fin 32) := Finset.univ.filter fun o => k ≤ o.val
/-- The offsets `1 … k - 1`. -/
def poolTo (k : ℕ) : Finset (Fin 32) := Finset.univ.filter fun o => 1 ≤ o.val ∧ o.val < k

theorem mem_poolFrom {k : ℕ} {o : Fin 32} : o ∈ poolFrom k ↔ k ≤ o.val := by unfold poolFrom; simp
theorem mem_poolTo {k : ℕ} {o : Fin 32} : o ∈ poolTo k ↔ 1 ≤ o.val ∧ o.val < k := by unfold poolTo; simp

theorem poolFrom_succ (k : ℕ) (hk : k < 32) : poolFrom k = insert ⟨k, hk⟩ (poolFrom (k + 1)) := by
  ext o; rw [Finset.mem_insert, mem_poolFrom, mem_poolFrom, Fin.ext_iff]; show _ ↔ o.val = k ∨ _; omega
theorem not_mem_poolFrom_succ (k : ℕ) (hk : k < 32) : (⟨k, hk⟩ : Fin 32) ∉ poolFrom (k + 1) := by
  rw [mem_poolFrom]; show ¬ (k + 1 ≤ k); omega
theorem poolTo_succ (k : ℕ) (hk : k < 32) (h0 : 0 < k) : poolTo (k + 1) = insert ⟨k, hk⟩ (poolTo k) := by
  ext o; rw [Finset.mem_insert, mem_poolTo, mem_poolTo, Fin.ext_iff]; show _ ↔ o.val = k ∨ _; omega
theorem not_mem_poolTo (k : ℕ) (hk : k < 32) : (⟨k, hk⟩ : Fin 32) ∉ poolTo k := by
  rw [mem_poolTo]; show ¬ (1 ≤ k ∧ k < k); omega
theorem poolFrom_one : poolFrom 1 = Finset.univ.erase 0 := by decide
theorem poolTo_last : poolTo 32 = Finset.univ.erase 0 := by decide
theorem poolFrom_last : poolFrom 32 = ∅ := by decide
theorem poolTo_one : poolTo 1 = ∅ := by decide

/-- The offset reached when `j` offsets are still to come: `32 - j`. -/
def offOf (j : ℕ) : Fin 32 := ⟨(32 - j) % 32, Nat.mod_lt _ (by decide)⟩
theorem offOf_rem (k : ℕ) (hk : k < 32) (h0 : 0 < k) : offOf (32 - k) = ⟨k, hk⟩ := by
  unfold offOf; apply Fin.ext; show (32 - (32 - k)) % 32 = k; omega

end Cert.KernelProof
-- ==== Proof.Bits.Proto.lean ====
import proofs.«900924_g7700000000000925_dist_max_ax0_shard0_i_m512_n256_v7x_i32_bf16_1_alg».proof.Proof.Bits.Comm
import proofs.«900924_g7700000000000925_dist_max_ax0_shard0_i_m512_n256_v7x_i32_bf16_1_alg».proof.Proof.Bits.RingArith
import proofs.«900924_g7700000000000925_dist_max_ax0_shard0_i_m512_n256_v7x_i32_bf16_1_alg».proof.Proof.Gen.Kernel
import proofs.«900924_g7700000000000925_dist_max_ax0_shard0_i_m512_n256_v7x_i32_bf16_1_alg».proof.Proof.Gen.Kernel.Skeleton
import proofs.«900924_g7700000000000925_dist_max_ax0_shard0_i_m512_n256_v7x_i32_bf16_1_alg».proof.Proof.Gen.Kernel.Launch
import proofs.«900924_g7700000000000925_dist_max_ax0_shard0_i_m512_n256_v7x_i32_bf16_1_alg».proof.Proof.Gen.Kernel.Points
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties: a ring offset) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs and the cells -/

abbrev xM : Memref sig .tc .vmem S512x256 .f32 := Memref.whole cc0_stg0_0
abbrev oM : Memref sig .tc .vmem S1x256 .f32 := Memref.whole cc0_stg1_0
abbrev scr : Memref sig .tc .vmem S32x256 .f32 := Memref.whole cc0_scratch0

theorem slot_inb (o : Fin 32) : ∀ a, (![o.val, 0] : Fin 2 → Nat) a + S1x256.size a ≤ S32x256.size a := by
  intro a; fin_cases a
  · show o.val + 1 ≤ 32; omega
  · show 0 + 256 ≤ 256; omega

/-- Row `o` of the exchange buffer, as the 256-element memref the kernel's transfers name. -/
abbrev slotM (o : Fin 32) : Memref sig .tc .vmem S256 .f32 :=
  (scr.slice (Rect.unit (s := S32x256) ![o.val, 0] S1x256.size (slot_inb o)) (fun _ => rfl)).squeeze S256 squeezes_S1x256_S256

/-- The runtime's barrier semaphore of collective id 0 (unscoped); the send and the receive semaphore of offset `o`. -/
abbrev barS : Sem sig := (SemArray.scalar (sig.barrier 0 rfl) : Sems sig S_).sem
def sendS (o : Fin 32) : DmaSem sig := ⟨2 + o.val, by have := o.isLt; show 2 + o.val < 66; omega⟩
def recvS (o : Fin 32) : DmaSem sig := ⟨34 + o.val, by have := o.isLt; show 34 + o.val < 66; omega⟩

abbrev barCell (c : Dev nD) : GSem nD τ sig := ((c : Thread nD τ), .reg barS)
abbrev sendCell (c : Dev nD) (o : Fin 32) : GSem nD τ sig := ((c : Thread nD τ), .dma (sendS o))
abbrev recvCell (c : Dev nD) (o : Fin 32) : GSem nD τ sig := ((c : Thread nD τ), .dma (recvS o))

/-- The exchange's cells of one device: its barrier cell, a send and a receive cell per offset (offset 0's are never used). -/
abbrev CK : Type := Option (Bool × Fin 32)
abbrev csem : CK → SemLoc sig
  | none => .reg barS
  | some (false, o) => .dma (sendS o)
  | some (true, o) => .dma (recvS o)
abbrev kcell (ck : Dev nD × CK) : GSem nD τ sig := ((ck.1 : Thread nD τ), csem ck.2)
/-- The kernel's own (scoped) semaphores, as the launch indexes them. -/
abbrev osem : Bool × Fin 32 → SemLoc sig := fun k => csem (some k)

/-- One transfer's units: the 256 words of a row. -/
abbrev N : ℕ := (slotM 0).view.dmaCredit
theorem N_pos : 0 < N := View.dmaCredit_pos _ (by decide)
theorem slot_amount (o : Fin 32) (s : DmaSem sig) : (slotM o).view.amount (.dma s) = N := rfl

/-! ## Contents -/

/-- Device `c`'s block of the argument, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The row of column maxima device `c` computes from its own block. -/
def locRow (c : Dev nD) : Vec F S1x256 .f32 := k0_pay2 (xstg m ρ c)

/-- The exchange buffer of device `c` once every row has landed. -/
def comm (c : Dev nD) : Buf (Elt F) ((c : Thread nD τ).loc cc0_scratch0) := Exch.commOf (locRow m ρ) c

/-- The kernel's result on device `c`. -/
def outAt (c : Dev nD) : (cc0_stg1_0 : Ref sig .tc).ty.Contents (Elt F) := k0_pay1 (comm m ρ c)

/-! ## Shares of the row a device sends: one piece a transfer, the rest kept -/

def restSh : ℕ → PosShare TreeShare
  | 0 => fullShare
  | k + 1 => (restSh k).right
def pieceSh (k : ℕ) : PosShare TreeShare := (restSh (k - 1)).left

/-- Row `o` of device `c`'s exchange buffer held at share `q` with the contents `f` (of the whole buffer; only row `o` of `f` is said). -/
def rowPts (c : Dev nD) (o : Fin 32) (q : PosShare TreeShare) (f : Buf (Elt F) ((c : Thread nD τ).loc cc0_scratch0)) : sProp 𝕄 :=
  (slotM o).view.loc (c : Thread nD τ) ↦[(slotM o).view.set]{q} f

omit [FloatOps F] in
instance rowPts_storable (c : Dev nD) (o : Fin 32) (q) (f) : BI.Storable (upEmb : UEmb _ 𝕄) (rowPts (F := F) c o q f) := by unfold rowPts; infer_instance

/-! ## The schedule: one round -/

/-- What the signal of device `c + o` (duty `o` of `c`'s barrier cell) hands `c`: row `o` of that device's exchange buffer,
    and that the device has reached round 0 of the receive cell of that row — what `c`'s transfer at offset `o` needs. -/
def barPay (c : Dev nD) (o : Fin 32) : sProp 𝕄 :=
  iprop((∃ f, rowPts (peer c o) o fullShare f) ∗ reached ER (recvCell (peer c o) o) 0)
/-- A landing hands the receiver the row, holding the sender's maxima; -/
def recvPay (c : Dev nD) (o : Fin 32) : sProp 𝕄 := rowPts c o fullShare (comm m ρ c)
/-- the end of a departure hands the sender its share of its own row back. -/
def sendPay (c : Dev nD) (o : Fin 32) : sProp 𝕄 := rowPts c 0 (pieceSh o.val) (comm m ρ c)

/-- Which semaphore a cell is on: the barrier, a send semaphore of offset `o ≠ 0`, a receive semaphore of offset `o ≠ 0`, or another
    (a staging semaphore, or the unused semaphore 0 of either array). -/
inductive Kind where
  | bar | send (o : Fin 32) | recv (o : Fin 32) | other
  deriving DecidableEq

def kindOf : SemLoc sig → Kind
  | .reg _ => .bar
  | .dma q => if h : 3 ≤ q.val ∧ q.val < 34 then .send ⟨q.val - 2, by omega⟩
              else if h' : 35 ≤ q.val ∧ q.val < 66 then .recv ⟨q.val - 34, by omega⟩ else .other

def Rd : Rounds.Schedule (GSem nD τ sig) (Fin 32) 𝕄 where
  duties g r := if r = 0 ∧ g.1.2 = .tc then
      (match kindOf g.2 with | .bar => Finset.univ.erase 0 | .send _ => {0} | .recv _ => {0} | .other => ∅) else ∅
  unitless _ := False
  amount g _ _ := match kindOf g.2 with | .bar => 1 | _ => N
  payload g _ d := match kindOf g.2 with
    | .bar => barPay g.1.1 d
    | .send o => sendPay m ρ g.1.1 o
    | .recv o => recvPay m ρ g.1.1 o
    | .other => iprop(emp)
  amount_pos g _ _ _ := by
    cases kindOf g.2 <;> first | exact Nat.one_pos | exact N_pos

instance Rd_payload_storable (g : GSem nD τ sig) (r : ℕ) (d : Fin 32) :
    BI.Storable (upEmb : UEmb _ 𝕄) ((Rd (F := F) m ρ).payload g r d) := by
  show BI.Storable upEmb (match kindOf g.2 with
    | .bar => barPay g.1.1 d | .send o => sendPay m ρ g.1.1 o | .recv o => recvPay m ρ g.1.1 o | .other => iprop(emp))
  unfold barPay sendPay recvPay
  split <;> infer_instance

/-! ### The schedule's tables -/

section Tables
variable (c : Dev nD) (o : Fin 32)

theorem kind_bar : kindOf (.reg barS) = Kind.bar := rfl
theorem kind_send (h : o ≠ 0) : kindOf (.dma (sendS o)) = .send o := by
  have h1 : 1 ≤ o.val := Nat.pos_of_ne_zero (fun h' => h (Fin.ext h'))
  have h2 := o.isLt
  unfold kindOf sendS
  dsimp only
  split
  · congr 1; apply Fin.ext; show 2 + o.val - 2 = o.val; omega
  · rename_i hn; exact absurd ⟨by omega, by omega⟩ hn
theorem kind_recv (h : o ≠ 0) : kindOf (.dma (recvS o)) = .recv o := by
  have h1 : 1 ≤ o.val := Nat.pos_of_ne_zero (fun h' => h (Fin.ext h'))
  have h2 := o.isLt
  unfold kindOf recvS
  dsimp only
  rw [dif_neg (fun hn => by have := hn.2; omega)]
  split
  · congr 1; apply Fin.ext; show 34 + o.val - 34 = o.val; omega
  · rename_i hn; exact absurd ⟨by omega, by omega⟩ hn
theorem kind_send0 : kindOf (.dma (sendS 0)) = .other := by decide
theorem kind_recv0 : kindOf (.dma (recvS 0)) = .other := by decide

theorem duties_bar : (Rd (F := F) m ρ).duties (barCell c) 0 = Finset.univ.erase 0 := by
  dsimp only [Rd]; rw [if_pos ⟨rfl, rfl⟩]; rfl
theorem duties_send (h : o ≠ 0) : (Rd (F := F) m ρ).duties (sendCell c o) 0 = {0} := by
  dsimp only [Rd]; rw [if_pos ⟨rfl, rfl⟩, kind_send o h]
theorem duties_recv (h : o ≠ 0) : (Rd (F := F) m ρ).duties (recvCell c o) 0 = {0} := by
  dsimp only [Rd]; rw [if_pos ⟨rfl, rfl⟩, kind_recv o h]
theorem duties_send0 (r : ℕ) : (Rd (F := F) m ρ).duties (sendCell c 0) r = ∅ := by
  dsimp only [Rd]; rw [kind_send0]; split <;> rfl
theorem duties_recv0 (r : ℕ) : (Rd (F := F) m ρ).duties (recvCell c 0) r = ∅ := by
  dsimp only [Rd]; rw [kind_recv0]; split <;> rfl
theorem duties_later (g : GSem nD τ sig) : ∀ r, 1 ≤ r → (Rd (F := F) m ρ).duties g r = ∅ := by
  intro r hr; dsimp only [Rd]; rw [if_neg (fun h => by have := h.1; omega)]

theorem amount_bar (d : Fin 32) : (Rd (F := F) m ρ).amount (barCell c) 0 d = 1 := by
  dsimp only [Rd]; rfl
theorem amount_send (h : o ≠ 0) (d : Fin 32) : (Rd (F := F) m ρ).amount (sendCell c o) 0 d = N := by
  dsimp only [Rd]; rw [kind_send o h]
theorem amount_recv (h : o ≠ 0) (d : Fin 32) : (Rd (F := F) m ρ).amount (recvCell c o) 0 d = N := by
  dsimp only [Rd]; rw [kind_recv o h]

theorem expect_bar : (Rd (F := F) m ρ).expect (barCell c) 0 = 31 := by
  unfold Schedule.expect Schedule.amountOf
  rw [duties_bar, Finset.sum_congr rfl fun d _ => amount_bar m ρ c d, Finset.sum_const,
    Finset.card_erase_of_mem (Finset.mem_univ _), Finset.card_univ, Fintype.card_fin, smul_eq_mul]
theorem expect_send (h : o ≠ 0) : (Rd (F := F) m ρ).expect (sendCell c o) 0 = N := by
  unfold Schedule.expect Schedule.amountOf; rw [duties_send m ρ c o h, Finset.sum_singleton, amount_send m ρ c o h]
theorem expect_recv (h : o ≠ 0) : (Rd (F := F) m ρ).expect (recvCell c o) 0 = N := by
  unfold Schedule.expect Schedule.amountOf; rw [duties_recv m ρ c o h, Finset.sum_singleton, amount_recv m ρ c o h]

theorem payload_bar (d : Fin 32) : (Rd (F := F) m ρ).payload (barCell c) 0 d = barPay c d := by
  dsimp only [Rd]; rfl
theorem payload_send (h : o ≠ 0) (d : Fin 32) : (Rd (F := F) m ρ).payload (sendCell c o) 0 d = sendPay m ρ c o := by
  dsimp only [Rd]; rw [kind_send o h]
theorem payload_recv (h : o ≠ 0) (d : Fin 32) : (Rd (F := F) m ρ).payload (recvCell c o) 0 d = recvPay m ρ c o := by
  dsimp only [Rd]; rw [kind_recv o h]

/-- The rest of the barrier cell's round, no duty taken: every other device's row for `c`. -/
theorem rest_bar : bigSep ((Rd (F := F) m ρ).duties (barCell c) 0 \ ∅) (fun d => (Rd (F := F) m ρ).payload (barCell c) 0 d)
    = bigSep (poolFrom 1) (barPay (F := F) c) := by
  rw [Finset.sdiff_empty, duties_bar, poolFrom_one]
  exact congrArg (bigSep _) (funext fun d => payload_bar m ρ c d)
theorem rest_send (h : o ≠ 0) : bigSep ((Rd (F := F) m ρ).duties (sendCell c o) 0 \ ∅) (fun d => (Rd (F := F) m ρ).payload (sendCell c o) 0 d)
    = sendPay m ρ c o := by
  rw [Finset.sdiff_empty, duties_send m ρ c o h, bigSep_singleton, payload_send m ρ c o h]
theorem rest_recv (h : o ≠ 0) : bigSep ((Rd (F := F) m ρ).duties (recvCell c o) 0 \ ∅) (fun d => (Rd (F := F) m ρ).payload (recvCell c o) 0 d)
    = recvPay m ρ c o := by
  rw [Finset.sdiff_empty, duties_recv m ρ c o h, bigSep_singleton, payload_recv m ρ c o h]

end Tables

/-! ## What each device owes at launch; the levels -/

/-- The receive credits device `c` still owes when `j` transfers are to come (offsets `32 - j … 31`): summed so that the
    next transfer's is the last summand. -/
def recvOwe (c : Dev nD) : ℕ → CellTallies nD τ sig Unit
  | 0 => 0
  | j + 1 => recvOwe c j + tallyAt (recvCell (peer c (offOf (j + 1))) (offOf (j + 1))) () N
/-- The barrier units it still owes when `j` signals are to come. -/
def sigOwe (c : Dev nD) : ℕ → CellTallies nD τ sig Unit
  | 0 => 0
  | j + 1 => sigOwe c j + tallyAt (barCell (peer c (offOf (j + 1)))) () 1
def O₀ (c : Dev nD) : CellTallies nD τ sig Unit := recvOwe c 31 + sigOwe c 31

theorem recvOwe_step (c : Dev nD) (k : ℕ) (hk : k < 32) (h0 : 0 < k) :
    recvOwe c (32 - k) = recvOwe c (32 - (k + 1)) + tallyAt (recvCell (peer c ⟨k, hk⟩) ⟨k, hk⟩) () N := by
  obtain ⟨j, hj⟩ : ∃ j, 32 - k = j + 1 := ⟨31 - k, by omega⟩
  have hj' : 32 - (k + 1) = j := by omega
  have ho : offOf (j + 1) = ⟨k, hk⟩ := by rw [← hj]; exact offOf_rem k hk h0
  rw [hj, hj', recvOwe, ho]
theorem sigOwe_step (c : Dev nD) (k : ℕ) (hk : k < 32) (h0 : 0 < k) :
    sigOwe c (32 - k) = sigOwe c (32 - (k + 1)) + tallyAt (barCell (peer c ⟨k, hk⟩)) () 1 := by
  obtain ⟨j, hj⟩ : ∃ j, 32 - k = j + 1 := ⟨31 - k, by omega⟩
  have hj' : 32 - (k + 1) = j := by omega
  have ho : offOf (j + 1) = ⟨k, hk⟩ := by rw [← hj]; exact offOf_rem k hk h0
  rw [hj, hj', sigOwe, ho]

def L (g : GSem nD τ sig) : Finset Unit := if g.1.2 = .tc then {()} else ∅
/-- barrier cells at 1, receive cells at 2, everything else (staging, send) at 0. -/
def lv (g : GSem nD τ sig) (_ : Unit) : ℕ := match kindOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- While at most 31 offsets are to come, the next offset is not 0. -/
private theorem offOf_ne_zero {j : ℕ} (h1 : 1 ≤ j) (h2 : j ≤ 31) : offOf j ≠ 0 := fun h => by
  have h' : (32 - j) % 32 = 0 := congrArg Fin.val h
  omega

/-- What a device owes is owed to receive cells and barrier cells only. -/
theorem recvOwe_pos {c : Dev nD} {j : ℕ} {g : GSem nD τ sig} {u : Unit} (hj : j ≤ 31) (h : 0 < recvOwe c j g u) :
    ∃ d o, o ≠ 0 ∧ g = recvCell d o := by
  induction j with
  | zero => exact absurd h (Nat.lt_irrefl 0)
  | succ j ih =>
    rw [recvOwe] at h
    rcases Pipeline.add_pos_cases h with h1 | h1
    · exact ih (by omega) h1
    · exact ⟨_, _, offOf_ne_zero (by omega) hj, (Pipeline.tallyAt_pos h1).1⟩
theorem sigOwe_pos {c : Dev nD} {j : ℕ} {g : GSem nD τ sig} {u : Unit} (h : 0 < sigOwe c j g u) :
    ∃ d, g = barCell d := by
  induction j with
  | zero => exact absurd h (Nat.lt_irrefl 0)
  | succ j ih =>
    rw [sigOwe] at h
    rcases Pipeline.add_pos_cases h with h1 | h1
    · exact ih h1
    · exact ⟨_, (Pipeline.tallyAt_pos h1).1⟩

/-- The levels of the three kinds of cell a wait or a debt names. -/
private theorem kind_stage (q : DmaSem sig) (hq : q.val < 2) : kindOf (.dma q) = .other := by
  unfold kindOf; dsimp only
  rw [dif_neg (fun h => by have := h.1; omega), dif_neg (fun h => by have := h.1; omega)]
private theorem lv_stage (c : Dev nD) (q : DmaSem sig) (hq : q.val < 2) (u : Unit) : lv ((c : Thread nD τ), .dma q) u = 0 := by
  dsimp only [lv]; rw [kind_stage q hq]
private theorem lv_recv (d : Dev nD) (o : Fin 32) (h : o ≠ 0) (u : Unit) : lv (recvCell d o) u = 2 := by
  dsimp only [lv]; rw [kind_recv o h]
private theorem lv_bar (d : Dev nD) (u : Unit) : lv (barCell d) u = 1 := rfl

/-- A staging wait (level 0) is below everything a device may owe. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_stage c q hq]
    rcases Pipeline.add_pos_cases hg with h1 | h1
    · obtain ⟨d, o, ho, rfl⟩ := recvOwe_pos (le_refl 31) h1
      rw [L_tc, lv_recv d o ho]; exact ⟨Finset.mem_singleton_self _, by decide⟩
    · obtain ⟨d, rfl⟩ := sigOwe_pos h1
      rw [L_tc, lv_bar]; exact ⟨Finset.mem_singleton_self _, by decide⟩
  · rw [MayWait_zero]; iintro -; iempintro

/-- At its barrier wait a device owes receive credits only: above its barrier cell. -/
theorem mayWait_bar (c : Dev nD) :
    (levAts L lv : sProp 𝕄) ⊢ MayWait (c : Thread nD τ) (.reg barS) () (recvOwe c 31) := by
  refine Pipeline.mayWait_of_levAts (by rw [L_tc]; exact Finset.mem_singleton_self _) fun g u hg => ?_
  obtain ⟨d, o, ho, rfl⟩ := recvOwe_pos (le_refl 31) hg
  rw [L_tc, lv_recv d o ho, lv_bar]; exact ⟨Finset.mem_singleton_self _, by decide⟩

/-- What is still owed, as a sum over the offsets still to come. -/
private theorem recvOwe_eq_sum (c : Dev nD) (j : ℕ) (hj : j ≤ 31) :
    recvOwe c j = ∑ o ∈ poolFrom (32 - j), tallyAt (recvCell (peer c o) o) () N := by
  induction j with
  | zero => rw [recvOwe, Nat.sub_zero, poolFrom_last, Finset.sum_empty]
  | succ j ih =>
    have hk : 31 - j < 32 := by omega
    have ho : offOf (j + 1) = ⟨31 - j, hk⟩ := by
      have h := offOf_rem (31 - j) hk (by omega)
      rwa [show 32 - (31 - j) = j + 1 by omega] at h
    rw [recvOwe, ih (by omega), ho, show 32 - (j + 1) = 31 - j by omega, show 32 - j = 31 - j + 1 by omega,
      poolFrom_succ (31 - j) hk, Finset.sum_insert (not_mem_poolFrom_succ (31 - j) hk), add_comm]
private theorem sigOwe_eq_sum (c : Dev nD) (j : ℕ) (hj : j ≤ 31) :
    sigOwe c j = ∑ o ∈ poolFrom (32 - j), tallyAt (barCell (peer c o)) () 1 := by
  induction j with
  | zero => rw [sigOwe, Nat.sub_zero, poolFrom_last, Finset.sum_empty]
  | succ j ih =>
    have hk : 31 - j < 32 := by omega
    have ho : offOf (j + 1) = ⟨31 - j, hk⟩ := by
      have h := offOf_rem (31 - j) hk (by omega)
      rwa [show 32 - (31 - j) = j + 1 by omega] at h
    rw [sigOwe, ih (by omega), ho, show 32 - (j + 1) = 31 - j by omega, show 32 - j = 31 - j + 1 by omega,
      poolFrom_succ (31 - j) hk, Finset.sum_insert (not_mem_poolFrom_succ (31 - j) hk), add_comm]

/-- A sum of one-cell tallies over offsets, read at a cell that at most the offset `o₀` names. -/
private theorem sum_tallyAt_at (s : Finset (Fin 32)) (cell : Fin 32 → GSem nD τ sig) (k : ℕ) (g : GSem nD τ sig) (o₀ : Fin 32)
    (h : ∀ o ∈ s, cell o = g → o = o₀) :
    (∑ o ∈ s, (tallyAt (cell o) () k : CellTallies nD τ sig Unit)) g () = if o₀ ∈ s ∧ cell o₀ = g then k else 0 := by
  rw [Finset.sum_apply, Finsupp.finsetSum_apply]
  by_cases hc : o₀ ∈ s ∧ cell o₀ = g
  · have hz : ∀ o ∈ s, o ≠ o₀ → tallyAt (cell o) () k g () = 0 := fun o ho hne => by
      rw [tallyAt_apply, if_neg (fun hh => hne (h o ho hh.1.symm))]
    rw [if_pos hc, Finset.sum_eq_single o₀ hz (fun hn => absurd hc.1 hn), hc.2, tallyAt_self]
  · rw [if_neg hc]
    refine Finset.sum_eq_zero fun o ho => ?_
    rw [tallyAt_apply, if_neg (fun hh => hc ?_)]
    have he := h o ho hh.1.symm
    subst he
    exact ⟨ho, hh.1.symm⟩

private theorem peer_sub_self (d c : Dev nD) : peer d (c - d) = c := by revert d c; decide
private theorem peer_eq_iff (d c : Dev nD) (o : Fin 32) : peer d o = c ↔ o = c - d :=
  ⟨fun h => peer_inj_right d (h.trans (peer_sub_self d c).symm), fun h => h ▸ peer_sub_self d c⟩
private theorem one_le_sub_val (d c : Dev nD) : 1 ≤ (c - d).val ↔ d ≠ c := by revert d c; decide
private theorem recvS_inj {o o' : Fin 32} (h : recvS o = recvS o') : o = o' := by
  have h' : 34 + o.val = 34 + o'.val := congrArg Fin.val h
  exact Fin.ext (by omega)

/-- What device `d` owes device `c`'s barrier cell: one unit, unless `d = c`. -/
theorem owed_bar (d c : Dev nD) : O₀ d (barCell c) () = if d = c then 0 else 1 := by
  have h1 : recvOwe d 31 (barCell c) () = 0 := by
    by_contra hne
    obtain ⟨d', o, _, he⟩ := recvOwe_pos (le_refl 31) (Nat.pos_of_ne_zero hne)
    exact absurd (congrArg Prod.snd he) (fun h => by cases h)
  unfold O₀
  rw [Pi.add_apply, Finsupp.add_apply, h1, Nat.zero_add, sigOwe_eq_sum d 31 (le_refl 31), show 32 - 31 = 1 from rfl,
    sum_tallyAt_at (poolFrom 1) (fun o => barCell (peer d o)) 1 (barCell c) (c - d)
      (fun o _ he => (peer_eq_iff d c o).mp (congrArg (fun g : GSem nD τ sig => g.1.1) he))]
  by_cases hdc : d = c
  · rw [if_pos hdc, if_neg (fun hh => (one_le_sub_val d c).mp (mem_poolFrom.mp hh.1) hdc)]
  · rw [if_neg hdc, if_pos ⟨mem_poolFrom.mpr ((one_le_sub_val d c).mpr hdc), by rw [(peer_eq_iff d c (c - d)).mpr rfl]⟩]
/-- What device `d` owes the receive cell of offset `o` of device `c`: a row's units if `d + o = c`. -/
theorem owed_recv (d c : Dev nD) (o : Fin 32) (h : o ≠ 0) : O₀ d (recvCell c o) () = if peer d o = c then N else 0 := by
  have h1 : sigOwe d 31 (recvCell c o) () = 0 := by
    by_contra hne
    obtain ⟨d', he⟩ := sigOwe_pos (Nat.pos_of_ne_zero hne)
    exact absurd (congrArg Prod.snd he) (fun h => by cases h)
  have ho : 1 ≤ o.val := Nat.pos_of_ne_zero (fun h' => h (Fin.ext h'))
  unfold O₀
  rw [Pi.add_apply, Finsupp.add_apply, h1, Nat.add_zero, recvOwe_eq_sum d 31 (le_refl 31), show 32 - 31 = 1 from rfl,
    sum_tallyAt_at (poolFrom 1) (fun o' => recvCell (peer d o') o') N (recvCell c o) o
      (fun o' _ he => recvS_inj (SemLoc.dma.inj (congrArg Prod.snd he)))]
  by_cases hp : peer d o = c
  · rw [if_pos hp, if_pos ⟨mem_poolFrom.mpr ho, by rw [hp]⟩]
  · rw [if_neg hp, if_neg (fun hh => hp (congrArg (fun g : GSem nD τ sig => g.1.1) hh.2))]

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, under the names `K` the launch allocated them at, and that every cell has reached round 0. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

/-- The tokens of the duties device `c` pays: at each offset its signal's, its transfer's arrival and departure. -/
def payToks (c : Dev nD) : sProp 𝕄 :=
  iprop((bigSep (Finset.univ.erase 0) fun o : Fin 32 => dutyTok ER (barCell (peer c o)) 0 (-o))
    ∗ (bigSep (Finset.univ.erase 0) fun o : Fin 32 => dutyTok ER (recvCell (peer c o) o) 0 (0 : Fin 32))
    ∗ (bigSep (Finset.univ.erase 0) fun o : Fin 32 => dutyTok ER (sendCell c o) 0 (0 : Fin 32)))
/-- Its positions at round 0 of its own cells. -/
def positions (c : Dev nD) : sProp 𝕄 :=
  iprop(atPos ER (barCell c) 0 ∅ 0 ∗ (bigSep Finset.univ fun o : Fin 32 => atPos ER (sendCell c o) 0 ∅ 0)
    ∗ (bigSep Finset.univ fun o : Fin 32 => atPos ER (recvCell c o) 0 ∅ 0))

def ghost (K : Dev nD × CK → ℕ) (c : Dev nD) : sProp 𝕄 := iprop(records m ρ K ∗ positions c ∗ payToks c)

/-- What device `c`'s body starts from: that at some names, its credit (the barrier's 31 units, a row's units on each receive
    cell) and the level facts. -/
def start (c : Dev nD) : sProp 𝕄 :=
  iprop((∃ K, ghost m ρ K c) ∗ cred (tallyAt (barCell c) () 31)
    ∗ (bigSep (Finset.univ.erase 0) fun o : Fin 32 => cred (tallyAt (recvCell c o) () N)) ∗ levAts L lv)

def Φ₀ (c : Dev nD) : sProp 𝕄 := iprop(start m ρ c ∗ ∃ f, (((c : Thread nD τ).loc cc0_scratch0) ↦{fullShare} f))
/-- After the point: the exchange buffer holding every device's row, the own cells at zero, closed. -/
def Φ₁ (c : Dev nD) : sProp 𝕄 :=
  iprop((((c : Thread nD τ).loc cc0_scratch0) ↦{fullShare} comm m ρ c) ∗ bigSep Finset.univ fun k : Bool × Fin 32 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m ρ K c ∗ cred (tallyAt (barCell c) () 31)
      ∗ (bigSep (Finset.univ.erase 0) fun o : Fin 32 => cred (tallyAt (recvCell c o) () N)) ∗ levAts L lv
      ∗ ∃ f, (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

end Cert.KernelProof

end
-- ==== Proof.Bits.Launch.lean ====
import proofs.«900924_g7700000000000925_dist_max_ax0_shard0_i_m512_n256_v7x_i32_bf16_1_alg».proof.Proof.Bits.Proto
import proofs.«900924_g7700000000000925_dist_max_ax0_shard0_i_m512_n256_v7x_i32_bf16_1_alg».proof.Proof.Gen.Kernel.Frame

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-! ### The cells and the tokens -/

theorem share_eq (c : Dev nD) (w : Fin cfg0.W) : (dats m ρ 0 c).share w = fullShare := by unfold Dat.share; split <;> rfl

theorem sendS_inj {o o' : Fin 32} (h : sendS o = sendS o') : o = o' := by
  have h' : 2 + o.val = 2 + o'.val := congrArg Fin.val h
  exact Fin.ext (by omega)
theorem recvS_inj {o o' : Fin 32} (h : recvS o = recvS o') : o = o' := by
  have h' : 34 + o.val = 34 + o'.val := congrArg Fin.val h
  exact Fin.ext (by omega)
theorem send_ne_recv (o o' : Fin 32) : sendS o ≠ recvS o' := fun h => by
  have h' : 2 + o.val = 34 + o'.val := congrArg Fin.val h
  have := o.isLt; omega
theorem reg_ne_dma (s : Sem sig) (q : DmaSem sig) : (SemLoc.reg s : SemLoc sig) ≠ .dma q := fun h => by cases h

theorem csem_injective : Function.Injective csem := by
  rintro (_ | ⟨b, o⟩) (_ | ⟨b', o'⟩) h
  · rfl
  · cases b' <;> exact absurd h (reg_ne_dma _ _)
  · cases b <;> exact absurd h.symm (reg_ne_dma _ _)
  · cases b <;> cases b'
    · rw [sendS_inj (SemLoc.dma.inj h)]
    · exact absurd (SemLoc.dma.inj h) (send_ne_recv _ _)
    · exact absurd (SemLoc.dma.inj h).symm (send_ne_recv _ _)
    · rw [recvS_inj (SemLoc.dma.inj h)]

theorem ownSemFacts : Pipeline.OwnSemFacts cfg0.spec osem :=
  ⟨by decide, fun k k' h => Option.some.inj (csem_injective h), by decide⟩

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def ringCells : Finset (GSem nD τ sig) := Finset.univ.map ⟨kcell, kcell_injective⟩

/-- The offsets other than 0. -/
abbrev NZ : Type := {o : Fin 32 // o ≠ 0}

/-- The duty tokens minted at launch: (device, which cell, offset) — the barrier cell's duty `o`, the send cell's and the
    receive cell's duty 0 at offset `o`. -/
abbrev tokOf (x : Dev nD × Fin 3 × NZ) : GSem nD τ sig × ℕ × Fin 32 := match x.2.1 with
  | 0 => (barCell x.1, 0, x.2.2.1) | 1 => (sendCell x.1 x.2.2.1, 0, 0) | 2 => (recvCell x.1 x.2.2.1, 0, 0)
theorem tokOf_injective : Function.Injective (tokOf : Dev nD × Fin 3 × NZ → GSem nD τ sig × ℕ × Fin 32) := by
  rintro ⟨c, j, o⟩ ⟨c', j', o'⟩ h
  have h1 : c = c' := by
    have := congrArg (fun x : GSem nD τ sig × ℕ × Fin 32 => x.1.1.1) h
    fin_cases j <;> fin_cases j' <;> exact this
  subst h1
  have hs := congrArg (fun x : GSem nD τ sig × ℕ × Fin 32 => x.1.2) h
  have hd := congrArg (fun x : GSem nD τ sig × ℕ × Fin 32 => x.2.2) h
  fin_cases j <;> fin_cases j'
  · rw [show o = o' from Subtype.ext hd]
  · exact absurd hs (reg_ne_dma _ _)
  · exact absurd hs (reg_ne_dma _ _)
  · exact absurd hs.symm (reg_ne_dma _ _)
  · rw [show o = o' from Subtype.ext (sendS_inj (SemLoc.dma.inj hs))]
  · exact absurd (SemLoc.dma.inj hs) (send_ne_recv _ _)
  · exact absurd hs.symm (reg_ne_dma _ _)
  · exact absurd (SemLoc.dma.inj hs).symm (send_ne_recv _ _)
  · rw [show o = o' from Subtype.ext (recvS_inj (SemLoc.dma.inj hs))]
def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.univ.erase 0) fun o : Fin 32 => dutyTok ER (barCell c) 0 o)
    ∗ (bigSep (Finset.univ.erase 0) fun o : Fin 32 => dutyTok ER (sendCell c o) 0 (0 : Fin 32))
    ∗ (bigSep (Finset.univ.erase 0) fun o : Fin 32 => dutyTok ER (recvCell c o) 0 (0 : Fin 32)))

/-- What the launch element deals device `c` (the theorem's `G`). -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What the global step makes of it (`G'`). -/
def G' (c : Dev nD) : sProp 𝕄 := iprop(∃ K, ghost m ρ K c)

theorem bigSep_three (Φ : Fin 3 → sProp 𝕄) : bigSep Finset.univ Φ = iprop(Φ 0 ∗ Φ 1 ∗ Φ 2) := bigSep_univ_eq_bigSepL [0, 1, 2] (by decide) (by decide) Φ
theorem bigSep_two (Φ : Bool → sProp 𝕄) : bigSep Finset.univ Φ = iprop(Φ false ∗ Φ true) := bigSep_univ_eq_bigSepL [false, true] (by decide) (by decide) Φ

/-- A family over `Option α`: the member at `none`, then the members at `some a`. -/
theorem bigSep_option {α : Type} [Fintype α] [DecidableEq α] (Φ : Option α → sProp 𝕄) :
    bigSep Finset.univ Φ = iprop(Φ none ∗ bigSep Finset.univ fun a => Φ (some a)) := by
  rw [bigSep_univ_at Φ none,
    show (Finset.univ.erase (none : Option α)) = Finset.univ.map Function.Embedding.some from by
      ext x; cases x <;> simp, bigSep_map]
  rfl

/-- A family over a device's cells: the barrier cell's member, the send cells', the receive cells'. -/
theorem bigSep_CK (Φ : CK → sProp 𝕄) :
    bigSep Finset.univ Φ = iprop(Φ none ∗ (bigSep Finset.univ fun o : Fin 32 => Φ (some (false, o))) ∗ (bigSep Finset.univ fun o : Fin 32 => Φ (some (true, o)))) := by
  rw [bigSep_option, bigSep_univ_prod, bigSep_two]

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_prod, bigSep_three,
        ← bigSep_subtype_ne (0 : Fin 32) (fun o => (dutyTok ER (barCell c) 0 o : sProp 𝕄)),
        ← bigSep_subtype_ne (0 : Fin 32) (fun o => (dutyTok ER (sendCell c o) 0 (0 : Fin 32) : sProp 𝕄)),
        ← bigSep_subtype_ne (0 : Fin 32) (fun o => (dutyTok ER (recvCell c o) 0 (0 : Fin 32) : sProp 𝕄))]
      rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The counters at zero, and the cells' invariants allocated -/

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun k : Bool × Fin 32 => semVal ((c : Thread nD τ), osem k) 0 := rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_option]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt around the ring -/

theorem bigSep_erase0 (Φ : Fin 32 → sProp 𝕄) :
    bigSep (Finset.univ.erase 0) Φ = bigSep Finset.univ fun o : Fin 32 => if o ≠ 0 then Φ o else iprop(emp) := by
  rw [← Finset.filter_ne' Finset.univ (0 : Fin 32), bigSep_filter]; rfl

/-- A family over (device, offset ≠ 0) re-indexed along a bijection of the pairs that keeps the offsets ≠ 0. -/
theorem reindex (e : Dev nD × Fin 32 ≃ Dev nD × Fin 32) (he : ∀ p, (e p).2 = 0 ↔ p.2 = 0) (Ψ : Dev nD → Fin 32 → sProp 𝕄) :
    (bigSep Finset.univ fun c : Dev nD => bigSep (Finset.univ.erase 0) fun o : Fin 32 => Ψ c o)
      = bigSep Finset.univ fun c : Dev nD => bigSep (Finset.univ.erase 0) fun o : Fin 32 => Ψ (e (c, o)).1 (e (c, o)).2 := by
  simp only [bigSep_erase0]
  have h1 := bigSep_univ_prod (M := 𝕄) (fun p : Dev nD × Fin 32 => if p.2 ≠ 0 then Ψ p.1 p.2 else iprop(emp))
  have h2 := bigSep_univ_prod (M := 𝕄) (fun p : Dev nD × Fin 32 => if p.2 ≠ 0 then Ψ (e p).1 (e p).2 else iprop(emp))
  refine h1.symm.trans ((bigSep_univ_equiv e _).trans (Eq.trans (bigSep_congr fun p _ => ?_) h2))
  by_cases h : p.2 = 0
  · rw [if_neg (not_not.mpr ((he p).mpr h)), if_neg (not_not.mpr h)]
  · rw [if_pos (fun h' => h ((he p).mp h')), if_pos h]

/-- (device, offset) ↦ (the device that offset on, the offset back). -/
def eBack : Dev nD × Fin 32 ≃ Dev nD × Fin 32 where
  toFun p := (peer p.1 p.2, -p.2)
  invFun p := (peer p.1 p.2, -p.2)
  left_inv p := by show (peer (peer p.1 p.2) (-p.2), - -p.2) = p; rw [peer_neg, neg_neg']
  right_inv p := by show (peer (peer p.1 p.2) (-p.2), - -p.2) = p; rw [peer_neg, neg_neg']
/-- (device, offset) ↦ (the device that offset on, the same offset). -/
def eOn : Dev nD × Fin 32 ≃ Dev nD × Fin 32 where
  toFun p := (peer p.1 p.2, p.2)
  invFun p := (p.1 - p.2, p.2)
  left_inv p := by show (peer p.1 p.2 - p.2, p.2) = p; rw [peer_sub]
  right_inv p := by show (peer (p.1 - p.2) p.2, p.2) = p; rw [sub_peer]

/-- A barrier cell's duty `o` goes to the device `o` places on (whose signal at offset `-o` pays it), a receive cell's duty to the
    device that many places back (whose transfer lands there), a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    reindex eBack (fun p => ⟨fun h => by have := neg_ne_zero' (o := p.2); exact by_contra fun h' => this h' h, fun h => by show -p.2 = 0; rw [h]; rfl⟩)
      (fun c o => (dutyTok ER (barCell c) 0 o : sProp 𝕄)),
    reindex eOn (fun p => Iff.rfl) (fun c o => (dutyTok ER (recvCell c o) 0 (0 : Fin 32) : sProp 𝕄))]
  iintro ⟨H1, H2, H3⟩
  isplitl [H1]; · iexact H1
  isplitl [H3]; · iexact H3
  iexact H2

/-! ### The global step -/

theorem ghost_intro (K : Dev nD × CK → ℕ) (c : Dev nD) : iprop(records m ρ K ∗ positions c ∗ payToks c) ⊢ G' m ρ c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem positions_eq (c : Dev nD) : (bigSep Finset.univ fun k : CK => (atPos ER (kcell (c, k)) 0 ∅ 0 : sProp 𝕄)) = positions c := by
  rw [bigSep_CK]; rfl

theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(positions c ∗ payToks c) from Entails.of_eq (by rw [positions_eq])))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Every other device owes a device's barrier cell one unit: 31 in all. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- Exactly one device, the one `o` places back, owes the receive cell of offset `o`: a row's units. -/
theorem launch_recv (c : Dev nD) (o : Fin 32) (h : o ≠ 0) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same, Finset.sum_congr rfl fun d _ => owed_recv d c o h,
    Finset.sum_eq_single (c - o) (fun d _ hd => if_neg fun hp => hd (by rw [← hp, peer_sub])) (fun hn => absurd (Finset.mem_univ _) hn),
    if_pos (sub_peer c o)]

/-- The receive semaphores among a core's semaphores. -/
def recvEmb : Fin 32 ↪ SemLoc sig := ⟨fun o => .dma (recvS o), fun o o' h => recvS_inj (SemLoc.dma.inj h)⟩

theorem creds (c : Dev nD) :
    (Pipeline.launchCred O₀ c : sProp 𝕄)
      ⊢ iprop(cred (tallyAt (barCell c) () 31) ∗ bigSep (Finset.univ.erase 0) fun o : Fin 32 => cred (tallyAt (recvCell c o) () N)) := by
  unfold Pipeline.launchCred
  rw [bigSep_univ_at _ (SemLoc.reg barS), launch_bar]
  refine sep_mono_right ?_
  have hsub : (Finset.univ.erase (0 : Fin 32)).map recvEmb ⊆ Finset.univ.erase (SemLoc.reg barS : SemLoc sig) := fun sm hsm => by
    obtain ⟨o, -, rfl⟩ := Finset.mem_map.mp hsm
    exact Finset.mem_erase.mpr ⟨(reg_ne_dma _ _).symm, Finset.mem_univ _⟩
  have heq : (bigSep ((Finset.univ.erase (0 : Fin 32)).map recvEmb) fun sm : SemLoc sig =>
        (cred (tallyOn ((c : Thread nD τ), sm) (launchCredit (Pipeline.owing O₀) 0 ((c : Thread nD τ), sm))) : sProp 𝕄))
      = bigSep (Finset.univ.erase 0) fun o : Fin 32 => cred (tallyAt (recvCell c o) () N) := by
    rw [bigSep_map]
    exact bigSep_congr fun o ho => congrArg cred (launch_recv c o (Finset.mem_erase.mp ho).1)
  rw [← heq]
  exact bigSep_subset hsub

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, Hz⟩
  isplitr; · iempintro
  isplitl [Hz]; · iexact Hz
  iexists (comm m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Each array after the run, as the proof data has it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: given the body obligation of
    every device, every weakly fair execution of @main terminates, nothing faulting, and every final state has each device's
    arrays at the proof data's final contents. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the maxima of the exchange buffer's columns. -/
theorem finalA_out (c : Dev nD) : finalA m ρ c (1 : Fin 2) = outAt m ρ c := by
  unfold finalA
  -- the one point writes the result window back: the array is its block there, overwritten by what the body left
  have h : (dats m ρ 0 c).arrAt (1 : Fin 2) cfg0.N
      = ((cfg0.win 1).blk t₀).view.write (Elt F) ((dats m ρ 0 c).arrAt 1 ↑t₀) ((dats m ρ 0 c).flushed 1 t₀) Finset.univ := by
    have h := (dats (F := F) m ρ 0 c).arrAt_succ (1 : Fin 2) t₀
    rw [Gen.flush0_1 t₀, if_pos rfl] at h
    exact h
  -- the block is the whole array: reading it is reading the array
  have hr : ∀ X, ((cfg0.win 1).blk t₀).view.read (Elt F) X = X := fun X =>
    Memref.read_access_unit_zero (Elt F) main_v1 (by funext a; exact Nat.zero_mul _) _ X
  rw [← hr ((dats m ρ 0 c).arrAt (1 : Fin 2) cfg0.N), h, View.read_write_univ]
  rfl

/-- info: 'Cert.KernelProof.run_main_of' depends on axioms: [propext, Classical.choice, Quot.sound] -/
#guard_msgs in #print axioms run_main_of
/-- info: 'Cert.KernelProof.finalA_x' depends on axioms: [propext, Classical.choice, Quot.sound] -/
#guard_msgs in #print axioms finalA_x
/-- info: 'Cert.KernelProof.finalA_out' depends on axioms: [propext, Classical.choice, Quot.sound] -/
#guard_msgs in #print axioms finalA_out

end Cert.KernelProof

end
-- ==== Proof.Bits.Rows.lean ====
import proofs.«900924_g7700000000000925_dist_max_ax0_shard0_i_m512_n256_v7x_i32_bf16_1_alg».proof.Proof.Bits.Proto
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The rectangle of row 0 of the exchange buffer, as the kernel's store and its first load name it. -/
abbrev r00 : Rect S32x256 := Rect.unit (s := S32x256) ![0, 0] S1x256.size inb_S32x256_S1x256_0_0

omit [FloatOps F] in
/-- The elements of row o: the indices whose row coordinate is o. -/
theorem slot_set (o : Fin 32) :
    (slotM o).view.set = (Rect.unit (s := S32x256) ![o.val, 0] S1x256.size (slot_inb o)).set := by
  exact (View.set_reshape _ _).trans (View.set_slice_whole cc0_scratch0 _)

omit [FloatOps F] in
theorem mem_slot_set (o : Fin 32) (i : S32x256.Idx) : i ∈ (slotM o).view.set ↔ (i 0).val = o.val := by
  rw [slot_set, Rect.mem_set_unit]
  constructor
  · intro h; have := h 0; simp at this; omega
  · intro h a; fin_cases a
    · simp; omega
    · simp; exact (i 1).isLt

omit [FloatOps F] in
/-- The exchange buffer held whole is its 32 rows held one by one. -/
theorem rows_split (c : Dev nD) (q : PosShare TreeShare) (f : Buf (Elt F) ((c : Thread nD τ).loc cc0_scratch0)) :
    ((((c : Thread nD τ).loc cc0_scratch0) ↦{q} f : sProp 𝕄)) ⊣⊢ bigSep Finset.univ (fun o : Fin 32 => rowPts c o q f) := by
  have hu : (Finset.univ : Finset (Idx ((c : Thread nD τ).loc cc0_scratch0)))
      = Finset.univ.biUnion (fun o : Fin 32 => (slotM o).view.set) := by
    ext i
    simp only [Finset.mem_univ, Finset.mem_biUnion, true_and, true_iff]
    exact ⟨⟨(i 0).val, (i 0).isLt⟩, (mem_slot_set _ i).2 rfl⟩
  have hd : ∀ o ∈ (Finset.univ : Finset (Fin 32)), ∀ o' ∈ (Finset.univ : Finset (Fin 32)), o ≠ o' →
      Disjoint ((slotM o).view.set) ((slotM o').view.set) := fun o _ o' _ hne =>
    Finset.disjoint_left.2 fun i hi hi' =>
      hne (Fin.ext (((mem_slot_set o i).1 hi).symm.trans ((mem_slot_set o' i).1 hi')))
  have hb := pointsTo_biUnion (Ix := Unit) (Val := Elt F) (Name := ℕ) (U := UU) (Lvl := ℕ)
    (ℓ := (c : Thread nD τ).loc cc0_scratch0) (q := q) (f := f) Finset.univ (fun o : Fin 32 => (slotM o).view.set) hd
  rw [← hu] at hb
  exact BiEntails.of_eq hb

omit [FloatOps F] in
/-- A row is said by its own entries only. -/
theorem rowPts_congr (c : Dev nD) (o : Fin 32) (q : PosShare TreeShare) (f g : Buf (Elt F) ((c : Thread nD τ).loc cc0_scratch0))
    (h : ∀ j : Fin 256, f (fun a => match a with | ⟨0, _⟩ => (o : Fin 32) | ⟨1, _⟩ => j) = g (fun a => match a with | ⟨0, _⟩ => (o : Fin 32) | ⟨1, _⟩ => j)) :
    rowPts (F := F) c o q f = rowPts c o q g := by
  unfold rowPts
  refine pointsTo_congr (fun i hi => ?_)
  have ho := (mem_slot_set o i).1 hi
  refine (congrArg f ?_).trans ((h (i 1)).trans (congrArg g ?_))
  · funext a
    match a with
    | ⟨0, _⟩ => exact Fin.ext ho
    | ⟨1, _⟩ => rfl
  · funext a
    match a with
    | ⟨0, _⟩ => exact Fin.ext ho.symm
    | ⟨1, _⟩ => rfl

omit [FloatOps F] in
/-- The row coordinate of row o's entries is o; -/
theorem slot_emb_row (o : Fin 32) (y : S256.Idx) : ((slotM o).view.emb y 0).val = o.val :=
  (mem_slot_set o _).1 ((slotM o).view.emb_mem_set y)

omit [FloatOps F] in
/-- their column coordinate does not depend on the row. -/
theorem slot_emb_col (o : Fin 32) (y : S256.Idx) : ((slotM o).view.emb y 1).val = ((slotM 0).view.emb y 1).val := rfl

/-- The exchange's final contents at two entries agree when the devices the rows came from and the columns do. -/
theorem comm_eq_of (c c' : Dev nD) (i i' : S32x256.Idx)
    (h0 : c - (⟨(i 0).val, (i 0).isLt⟩ : Fin 32) = c' - (⟨(i' 0).val, (i' 0).isLt⟩ : Fin 32)) (h1 : (i 1).val = (i' 1).val) :
    comm m ρ c i = comm m ρ c' i' := by
  have e : (⟨(i 1).val, (i 1).isLt⟩ : Fin 256) = ⟨(i' 1).val, (i' 1).isLt⟩ := Fin.ext h1
  show locRow m ρ (c - (⟨(i 0).val, (i 0).isLt⟩ : Fin 32)) (Exch.rowIx ⟨(i 1).val, (i 1).isLt⟩)
    = locRow m ρ (c' - (⟨(i' 0).val, (i' 0).isLt⟩ : Fin 32)) (Exch.rowIx ⟨(i' 1).val, (i' 1).isLt⟩)
  rw [h0, e]

theorem sub_zero' (c : Dev nD) : c - (0 : Fin 32) = c := by revert c; decide

/-- A landing: row 0 of device `c` written over row `o` of device `c + o` leaves that row as the exchange's final contents have it. -/
theorem landed_eq (c : Dev nD) (o : Fin 32) (fd : Buf (Elt F) ((peer c o : Thread nD τ).loc cc0_scratch0)) :
    rowPts (peer c o) o fullShare ((slotM o).view.write (Elt F) fd ((slotM 0).view.read (Elt F) (comm m ρ c)) Finset.univ)
      = rowPts (peer c o) o fullShare (comm m ρ (peer c o)) := by
  unfold rowPts
  refine pointsTo_congr (fun i hi => ?_)
  obtain ⟨y, rfl⟩ := View.exists_emb_of_mem_set _ hi
  rw [View.write_emb_of_mem _ _ (Finset.mem_univ y), View.read_apply, cast_cast, cast_eq]
  refine comm_eq_of m ρ c (peer c o) _ _ ?_ (slot_emb_col o y).symm
  have e0 : (⟨((slotM 0).view.emb y 0).val, ((slotM 0).view.emb y 0).isLt⟩ : Fin 32) = 0 := Fin.ext (slot_emb_row 0 y)
  have eo : (⟨((slotM o).view.emb y 0).val, ((slotM o).view.emb y 0).isLt⟩ : Fin 32) = o := Fin.ext (slot_emb_row o y)
  rw [e0, eo, peer_sub, sub_zero']

omit [FloatOps F] in
/-- The store into row 0 goes through exactly row 0's entries. -/
theorem store_set : ((scr : Memref sig .tc .vmem S32x256 .f32).access r00 : View sig .tc _ _ _).set = (slotM 0).view.set :=
  (View.set_slice_whole cc0_scratch0 _).trans (slot_set 0).symm

/-- The exchange's final contents at an entry: the row of the device the entry's row came from, at the entry's column. -/
theorem comm_apply (c : Dev nD) (i : S32x256.Idx) :
    comm m ρ c i = locRow m ρ (c - (⟨(i 0).val, (i 0).isLt⟩ : Fin 32)) (Exch.rowIx ⟨(i 1).val, (i 1).isLt⟩) := rfl

/-- At an entry of row 0 the exchange's final contents are the device's own maxima. -/
theorem comm_row0 (c : Dev nD) (i : S32x256.Idx) (y : S1x256.Idx) (h0 : (i 0).val = 0) (h1 : (i 1).val = (y 1).val) :
    comm m ρ c i = k0_pay2 (xstg m ρ c) y := by
  rw [comm_apply]
  have e0 : (⟨(i 0).val, (i 0).isLt⟩ : Fin 32) = 0 := Fin.ext h0
  have e1 : Exch.rowIx ⟨(i 1).val, (i 1).isLt⟩ = y := by
    funext a
    match a with
    | ⟨0, _⟩ =>
      apply Fin.ext
      have hy : (y 0).val < 1 := (y 0).isLt
      show 0 = (y 0).val
      omega
    | ⟨1, _⟩ => exact Fin.ext h1
  rw [e0, e1, sub_zero']
  rfl

omit [FloatOps F] in
/-- Where the store into row 0 puts the entry (0, j) of its payload: at (0, j). -/
theorem store_emb_row (y : S1x256.Idx) : (((scr : Memref sig .tc .vmem S32x256 .f32).access r00 : View sig .tc _ _ _).emb y 0).val = 0 := by
  have h : (y 0).val < 1 := (y 0).isLt
  show 0 + 1 * (y 0).val = 0
  omega
omit [FloatOps F] in
theorem store_emb_col (y : S1x256.Idx) : (((scr : Memref sig .tc .vmem S32x256 .f32).access r00 : View sig .tc _ _ _).emb y 1).val = (y 1).val := by
  show 0 + 1 * (y 1).val = (y 1).val
  omega

/-- The store of a device's own maxima into row 0 leaves that row as the exchange's final contents have it. -/
theorem stored_eq (c : Dev nD) (f0 : Buf (Elt F) ((c : Thread nD τ).loc cc0_scratch0)) :
    rowPts c 0 fullShare (((scr : Memref sig .tc .vmem S32x256 .f32).access r00 : View sig .tc _ _ _).write (Elt F) f0 (k0_pay2 (xstg m ρ c)) Finset.univ)
      = rowPts c 0 fullShare (comm m ρ c) := by
  unfold rowPts
  refine pointsTo_congr (fun i hi => ?_)
  rw [← store_set] at hi
  obtain ⟨y, rfl⟩ := View.exists_emb_of_mem_set _ hi
  rw [View.write_emb_of_mem _ _ (Finset.mem_univ y), cast_eq]
  exact (comm_row0 m ρ c _ y (store_emb_row y) (store_emb_col y)).symm

omit [FloatOps F] in
/-- What the store into row 0 and the load of row 0 touch is row 0. -/
theorem store_sub : ((scr : Memref sig .tc .vmem S32x256 .f32).access r00 : View sig .tc _ _ _).setOn Finset.univ ⊆ (slotM 0).view.set := by
  rw [View.setOn_univ, store_set]
omit [FloatOps F] in
theorem load_sub : (scr : Memref sig .tc .vmem S32x256 .f32).view.setOn r00.toLoadRect.set ⊆ (slotM 0).view.set := by
  intro i hi
  rw [slot_set]
  obtain ⟨x, hx, rfl⟩ := Finset.mem_map.mp hi
  exact hx

omit [FloatOps F] in
theorem row_shares_from (c : Dev nD) (o : Fin 32) (f : Buf (Elt F) ((c : Thread nD τ).loc cc0_scratch0)) :
    ∀ (d j : ℕ), j + d = 31 →
      (rowPts c o (restSh j) f : sProp 𝕄)
        = iprop(rowPts c o (restSh 31) f ∗ bigSep (poolFrom (j + 1)) (fun k : Fin 32 => rowPts c o (pieceSh k.val) f)) := by
  intro d
  induction d with
  | zero =>
    intro j hj
    obtain rfl : j = 31 := by omega
    rw [poolFrom_last, bigSep_empty]
    exact (BI.equiv_iff.mp ⟨sep_emp.1, sep_emp.2⟩).symm
  | succ d ih =>
    intro j hj
    have hk : j + 1 < 32 := by omega
    have hs : (rowPts c o (restSh j) f : sProp 𝕄) = iprop(rowPts c o (pieceSh (j + 1)) f ∗ rowPts c o (restSh (j + 1)) f) := by
      have h := pointsTo_share (Ix := Unit) (Val := Elt F) (Name := ℕ) (U := UU) (Lvl := ℕ)
        (ℓ := (slotM o).view.loc (c : Thread nD τ)) (I := (slotM o).view.set) (f := f) (PosShare.mem_left_op_right (restSh j))
      exact BI.equiv_iff.mp ⟨h.1, h.2⟩
    rw [hs, ih (j + 1) (by omega), poolFrom_succ (j + 1) hk, bigSep_insert (not_mem_poolFrom_succ _ hk)]
    have h := sep_left_comm (PROP := sProp 𝕄) (P := rowPts c o (pieceSh (j + 1)) f) (Q := rowPts c o (restSh 31) f)
      (R := bigSep (poolFrom (j + 1 + 1)) (fun k : Fin 32 => rowPts c o (pieceSh k.val) f))
    exact BI.equiv_iff.mp ⟨h.1, h.2⟩

omit [FloatOps F] in
/-- The full share of a row is the pieces the 31 transfers borrow and the rest. -/
theorem row_shares (c : Dev nD) (o : Fin 32) (f : Buf (Elt F) ((c : Thread nD τ).loc cc0_scratch0)) :
    (rowPts c o fullShare f : sProp 𝕄) ⊣⊢ iprop(rowPts c o (restSh 31) f ∗ bigSep (poolFrom 1) (fun k : Fin 32 => rowPts c o (pieceSh k.val) f)) :=
  BiEntails.of_eq (row_shares_from c o f 31 0 rfl)

end Cert.KernelProof

end
-- ==== Proof.Bits.Steps.lean ====
import proofs.«900924_g7700000000000925_dist_max_ax0_shard0_i_m512_n256_v7x_i32_bf16_1_alg».proof.Proof.Bits.Proto
import proofs.«900924_g7700000000000925_dist_max_ax0_shard0_i_m512_n256_v7x_i32_bf16_1_alg».proof.Proof.Bits.Rows

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One step of the body per ring offset

Every step is stated over the offsets still to come (`poolFrom k`) and the offsets done (`poolTo k`): the step at offset `k`
takes its own resources out of the first and leaves what it makes in the second. -/

variable (K : Dev nD × CK → ℕ) (c : Dev nD)

theorem inv_at (ck : Dev nD × CK) : records m ρ K ⊢ cellInv ER (Rd m ρ) (K ck) (kcell ck) := by
  unfold records
  iintro ⟨HI, -⟩
  iapply (show (bigSep Finset.univ fun ck : Dev nD × CK => (cellInv ER (Rd m ρ) (K ck) (kcell ck) : sProp 𝕄)) ⊢ cellInv ER (Rd m ρ) (K ck) (kcell ck) from
    bigSep_elim (Finset.mem_univ ck))
  iexact HI

theorem reached_at (ck : Dev nD × CK) : records m ρ K ⊢ reached ER (kcell ck) 0 := by
  unfold records
  iintro ⟨-, HR⟩
  iapply (show (bigSep Finset.univ fun ck : Dev nD × CK => (reached ER (kcell ck) 0 : sProp 𝕄)) ⊢ reached ER (kcell ck) 0 from
    bigSep_elim (Finset.mem_univ ck))
  iexact HR

/-- What the signal at offset `o` pays with: the token of duty `-o` of the barrier cell of `c + o`, and row `-o` of the device's own
    exchange buffer (the row that device will write). -/
def sigB (o : Fin 32) : sProp 𝕄 :=
  iprop(dutyTok ER (barCell (peer c o)) 0 (-o) ∗ ∃ f, rowPts c (-o) fullShare f)

theorem ne_zero_of_pos (k : ℕ) (hk : k < 32) (h0 : 0 < k) : (⟨k, hk⟩ : Fin 32) ≠ 0 := by
  intro h; have := congrArg Fin.val h; simp at this; omega

/-- The signal at offset `k`: one unit to the barrier cell of `c + k`, handing it row `-k`. -/
theorem sig_step (k : ℕ) (hk : k < 32) (h0 : 0 < k) {α : Type} {Q : α → sProp 𝕄}
    {cont : PUnit → Prog (TpuEff nD τ sig (Elt F) Λ₀ .tc) α} {k' : ℕ} (hk' : k' = 1) :
    iprop(records m ρ K ∗ (∃ W, owes (c : Thread nD τ) (recvOwe c 31 + sigOwe c (32 - k)) W) ∗ bigSep (poolFrom k) (sigB (F := F) c))
      ⊢ iprop((((∃ W, owes (c : Thread nD τ) (recvOwe c 31 + sigOwe c (32 - (k + 1))) W) ∗ bigSep (poolFrom (k + 1)) (sigB (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal (peer c ⟨k, hk⟩ : Thread nD τ) barS k') cont) Q) := by
  subst hk'
  have hne := ne_zero_of_pos k hk h0
  iintro ⟨#HR, ⟨%W, HO⟩, HP⟩ Hk
  ihave HP' := (Entails.of_eq (show bigSep (poolFrom k) (sigB (F := F) c) = iprop(sigB c ⟨k, hk⟩ ∗ bigSep (poolFrom (k + 1)) (sigB (F := F) c)) from by
    rw [poolFrom_succ k hk, bigSep_insert (not_mem_poolFrom_succ k hk)]; rfl)) $$ HP
  unfold sigB
  icases HP' with ⟨⟨Htok, ⟨%f, Hrow⟩⟩, HP⟩
  ihave #HI := (inv_at m ρ K (peer c ⟨k, hk⟩, none)) $$ HR
  ihave #Hr1 := (reached_at m ρ K (peer c ⟨k, hk⟩, none)) $$ HR
  ihave #Hr2 := (reached_at m ρ K (c, some (true, -⟨k, hk⟩))) $$ HR
  iapply (Rounds.wp_signal 𝒱₀ ER (Rd m ρ) (c : Thread nD τ) none (dst := (peer c ⟨k, hk⟩ : Thread nD τ)) (κ := K (peer c ⟨k, hk⟩, none))
      (d := -⟨k, hk⟩) (by rw [duties_bar]; exact Finset.mem_erase.mpr ⟨neg_ne_zero' hne, Finset.mem_univ _⟩) (amount_bar m ρ _ _) ()
      (O₀ := recvOwe c 31 + sigOwe c (32 - k)) (recvOwe c 31 + sigOwe c (32 - (k + 1))) (by rw [sigOwe_step c k hk h0, add_assoc])) $$ [HO Htok Hrow]
  · isplitr; · iexact HI
    isplitl [HO]; · iexact HO
    isplitl [Htok]; · iexact Htok
    isplitl [Hrow]
    · rw [payload_bar]; unfold barPay; rw [peer_neg]
      isplitl [Hrow]; · iexists f; iexact Hrow
      iexact Hr2
    · iexact Hr1
  iintro HO
  iapply Hk
  isplitl [HO]; · iexists W; iexact HO
  iexact HP

/-- Taking the step's offset out of the offsets still to come; putting it among the offsets done. -/
theorem peelFrom (k : ℕ) (hk : k < 32) (Φ : Fin 32 → sProp 𝕄) :
    bigSep (poolFrom k) Φ = iprop(Φ ⟨k, hk⟩ ∗ bigSep (poolFrom (k + 1)) Φ) := by
  rw [poolFrom_succ k hk, bigSep_insert (not_mem_poolFrom_succ k hk)]; rfl
theorem pushTo (k : ℕ) (hk : k < 32) (h0 : 0 < k) (Φ : Fin 32 → sProp 𝕄) :
    bigSep (poolTo (k + 1)) Φ = iprop(Φ ⟨k, hk⟩ ∗ bigSep (poolTo k) Φ) := by
  rw [poolTo_succ k hk h0, bigSep_insert (not_mem_poolTo k hk)]; rfl

/-- The wait on the barrier cell for its 31 units, owing the receive credits only: every other device's row comes with it. -/
theorem bar_wait {α : Type} {Q : α → sProp 𝕄} {cont : PUnit → Prog (TpuEff nD τ sig (Elt F) Λ₀ .tc) α} {k' : ℕ} (hk' : k' = 31) :
    iprop(records m ρ K ∗ (∃ W, owes (c : Thread nD τ) (recvOwe c 31 + sigOwe c 0) W) ∗ cred (tallyAt (barCell c) () 31) ∗ levAts L lv
        ∗ atPos ER (barCell c) 0 ∅ 0)
      ⊢ iprop((((∃ W, owes (c : Thread nD τ) (recvOwe c 31) W) ∗ bigSep (poolFrom 1) (barPay (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS k') cont) Q) := by
  subst hk'
  iintro ⟨#HR, ⟨%W, HO⟩, Hc, #Hlev, Hat⟩ Hk
  ihave #HI := (inv_at m ρ K (c, none)) $$ HR
  ihave HO := (Entails.of_eq (congrArg (fun O => (owes (c : Thread nD τ) O W : sProp 𝕄)) (show recvOwe c 31 + sigOwe c 0 = recvOwe c 31 from add_zero _))) $$ HO
  iapply (Rounds.wp_wait_rest_token 𝒱₀ ER (Rd m ρ) (c : Thread nD τ) none (κ := K (c, none))
      (wpE_semWait_eq 𝒱₀ (c : Thread nD τ) none Set.univ) (Set.mem_univ _) () (O := recvOwe c 31) (W := W) (R := 0) (m := 0) (T := ∅)
      (by rw [expect_bar, Nat.zero_add])) $$ [Hc HO Hat]
  · isplitr; · iexact HI
    isplitl [Hc]; · iexact Hc
    isplitl [HO]; · iexact HO
    isplitr; · iapply (mayWait_bar c); iexact Hlev
    iexact Hat
  iintro ⟨HO, -, -, Hpay⟩
  ihave Hp := (Entails.of_eq (rest_bar m ρ c)) $$ Hpay
  iapply Hk
  isplitl [HO]; · iexists _; iexact HO
  iexact Hp

/-- What the transfer at offset `o` pays with: the tokens of its departure and of its arrival, and its share of the device's own row. -/
def sndB (o : Fin 32) : sProp 𝕄 :=
  iprop(dutyTok ER (sendCell c o) 0 (0 : Fin 32) ∗ dutyTok ER (recvCell (peer c o) o) 0 (0 : Fin 32) ∗ rowPts c 0 (pieceSh o.val) (comm m ρ c))
/-- What it leaves the device: the departure's credit. -/
def sndCred (o : Fin 32) : sProp 𝕄 := cred (tallyAt (sendCell c o) () N)

/-- The transfer at offset `k`: the device's own row into row `k` of device `c + k`. -/
theorem send_step (k : ℕ) (hk : k < 32) (h0 : 0 < k) {α : Type} {Q : α → sProp 𝕄}
    {cont : PUnit → Prog (TpuEff nD τ sig (Elt F) Λ₀ .tc) α}
    {n : Dev nD} (hn : n = peer c ⟨k, hk⟩)
    {src dst : Memref sig .tc .vmem S256 .f32} (hsrcM : src = slotM 0) (hdstM : dst = slotM ⟨k, hk⟩)
    {sS sR : DmaSem sig} (hsS : sS = sendS ⟨k, hk⟩) (hsR : sR = recvS ⟨k, hk⟩)
    {hsc : (dst : Memref sig (Dev.tc n : Thread nD τ).2.kind .vmem S256 .f32).view.ref.isScScratch = false}
    {hsrc : src.view.WordExact} {hdst : dst.view.WordExact}
    {hsem : DmaTarget.Typed .vmem (.dma sR) (.remote (Dev.tc n : Thread nD τ) dst (.dma sS) hsc)} :
    iprop(records m ρ K ∗ (∃ W, owes (c : Thread nD τ) (recvOwe c (32 - k)) W) ∗ bigSep (poolFrom k) (barPay (F := F) c)
        ∗ bigSep (poolFrom k) (sndB m ρ c) ∗ bigSep (poolTo k) (sndCred (F := F) c))
      ⊢ iprop((((∃ W, owes (c : Thread nD τ) (recvOwe c (32 - (k + 1))) W) ∗ bigSep (poolFrom (k + 1)) (barPay (F := F) c)
              ∗ bigSep (poolFrom (k + 1)) (sndB m ρ c) ∗ bigSep (poolTo (k + 1)) (sndCred (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) cont) Q) := by
  subst hn hsrcM hdstM hsS hsR
  have hne := ne_zero_of_pos k hk h0
  iintro ⟨#HR, ⟨%W, HO⟩, HB, HS, HC⟩ Hk
  ihave HB' := (Entails.of_eq (peelFrom k hk (barPay (F := F) c))) $$ HB
  ihave HS' := (Entails.of_eq (peelFrom k hk (sndB m ρ c))) $$ HS
  icases HB' with ⟨HB0, HB⟩
  icases HS' with ⟨HS0, HS⟩
  ihave HB0 := (Entails.of_eq (show barPay (F := F) c ⟨k, hk⟩ = iprop((∃ f, rowPts (peer c ⟨k, hk⟩) ⟨k, hk⟩ fullShare f) ∗ reached ER (recvCell (peer c ⟨k, hk⟩) ⟨k, hk⟩) 0) from rfl)) $$ HB0
  ihave HS0 := (Entails.of_eq (show sndB m ρ c ⟨k, hk⟩ = iprop(dutyTok ER (sendCell c ⟨k, hk⟩) 0 (0 : Fin 32) ∗ dutyTok ER (recvCell (peer c ⟨k, hk⟩) ⟨k, hk⟩) 0 (0 : Fin 32)
      ∗ rowPts c 0 (pieceSh k) (comm m ρ c)) from rfl)) $$ HS0
  icases HB0 with ⟨⟨%fd, Hdst⟩, #Hrv⟩
  icases HS0 with ⟨Hts, Htr, Hsrc⟩
  ihave #HIs := (inv_at m ρ K (c, some (false, ⟨k, hk⟩))) $$ HR
  ihave #HIr := (inv_at m ρ K (peer c ⟨k, hk⟩, some (true, ⟨k, hk⟩))) $$ HR
  ihave #Hrs := (reached_at m ρ K (c, some (false, ⟨k, hk⟩))) $$ HR
  unfold rowPts
  iapply (Rounds.wp_send_pointsTo 𝒱₀ ER (Rd m ρ) (c : Thread nD τ) none (c' := (peer c ⟨k, hk⟩ : Thread nD τ))
      (src := slotM 0) (dst := slotM ⟨k, hk⟩) (κ₁ := K (c, some (false, ⟨k, hk⟩))) (κ₂ := K (peer c ⟨k, hk⟩, some (true, ⟨k, hk⟩)))
      (r₁ := 0) (r₂ := 0) (d₁ := 0) (d₂ := 0) (fd := fd) (q := pieceSh k) (fs := comm m ρ c)
      (by rw [duties_send m ρ c ⟨k, hk⟩ hne]; exact Finset.mem_singleton_self _)
      (by rw [duties_recv m ρ (peer c ⟨k, hk⟩) ⟨k, hk⟩ hne]; exact Finset.mem_singleton_self _)
      () () N rfl (amount_send m ρ c ⟨k, hk⟩ hne 0) (amount_recv m ρ (peer c ⟨k, hk⟩) ⟨k, hk⟩ hne 0)
      (O₀ := recvOwe c (32 - k)) (recvOwe c (32 - (k + 1))) (recvOwe_step c k hk h0) (W := W)
      (by rw [payload_send m ρ c ⟨k, hk⟩ hne]; exact BI.Entails.refl _)
      (by rw [payload_recv m ρ (peer c ⟨k, hk⟩) ⟨k, hk⟩ hne]; exact Entails.of_eq (landed_eq m ρ c ⟨k, hk⟩ fd))) $$ [HO Hdst Hts Htr Hsrc]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrv
  iintro ⟨Hcr, HO⟩
  iapply Hk
  isplitl [HO]; · iexists W; iexact HO
  isplitl [HB]; · iexact HB
  isplitl [HS]; · iexact HS
  iapply (Entails.of_eq (pushTo k hk h0 (sndCred (F := F) c)).symm)
  isplitl [Hcr]; · unfold sndCred; iexact Hcr
  iexact HC

/-- A device's positions and credit at offset `o` before its two waits, between them, and after them. -/
def wt0 (o : Fin 32) : sProp 𝕄 :=
  iprop(sndCred (F := F) c o ∗ atPos ER (sendCell c o) 0 ∅ 0 ∗ cred (tallyAt (recvCell c o) () N) ∗ atPos ER (recvCell c o) 0 ∅ 0)
def wt1 (o : Fin 32) : sProp 𝕄 :=
  iprop(atPos ER (sendCell c o) 1 ∅ 0 ∗ sendPay m ρ c o ∗ cred (tallyAt (recvCell c o) () N) ∗ atPos ER (recvCell c o) 0 ∅ 0)
def wt2 (o : Fin 32) : sProp 𝕄 :=
  iprop(atPos ER (sendCell c o) 1 ∅ 0 ∗ sendPay m ρ c o ∗ atPos ER (recvCell c o) 1 ∅ 0 ∗ recvPay m ρ c o)

/-- The wait for the departure at offset `k`: the share of the device's own row comes back. -/
theorem swait_step (k : ℕ) (hk : k < 32) (h0 : 0 < k) {α : Type} {Q : α → sProp 𝕄}
    {cont : PUnit → Prog (TpuEff nD τ sig (Elt F) Λ₀ .tc) α}
    {sS : DmaSem sig} (hsS : sS = sendS ⟨k, hk⟩) {src dst : Memref sig .tc .vmem S256 .f32} (hdM : dst = slotM 0)
    {hsrc : src.view.WordExact} {hdst : dst.view.WordExact} :
    iprop(records m ρ K ∗ (∃ W, owes (c : Thread nD τ) 0 W) ∗ bigSep (poolFrom k) (wt0 (F := F) c))
      ⊢ iprop((((∃ W, owes (c : Thread nD τ) 0 W) ∗ wt1 m ρ c ⟨k, hk⟩ ∗ bigSep (poolFrom (k + 1)) (wt0 (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 sS src dst hsrc hdst) cont) Q) := by
  subst hsS hdM
  have hne := ne_zero_of_pos k hk h0
  iintro ⟨#HR, ⟨%W, HO⟩, HP⟩ Hk
  ihave HP' := (Entails.of_eq (peelFrom k hk (wt0 (F := F) c))) $$ HP
  icases HP' with ⟨H0, HP⟩
  ihave H0 := (Entails.of_eq (show wt0 (F := F) c ⟨k, hk⟩ = iprop(cred (tallyAt (sendCell c ⟨k, hk⟩) () N) ∗ atPos ER (sendCell c ⟨k, hk⟩) 0 ∅ 0
      ∗ cred (tallyAt (recvCell c ⟨k, hk⟩) () N) ∗ atPos ER (recvCell c ⟨k, hk⟩) 0 ∅ 0) from rfl)) $$ H0
  icases H0 with ⟨Hcs, Has, Hcr, Har⟩
  ihave #HIs := (inv_at m ρ K (c, some (false, ⟨k, hk⟩))) $$ HR
  iapply (Rounds.wp_wait_rest_token 𝒱₀ ER (Rd m ρ) (c : Thread nD τ) none (κ := K (c, some (false, ⟨k, hk⟩)))
      (wpE_waitDma2_eq 𝒱₀ (c : Thread nD τ) none Set.univ) (Set.mem_univ _) () (O := 0) (W := W) (R := 0) (m := 0) (T := ∅)
      (by rw [Nat.zero_add, expect_send m ρ c ⟨k, hk⟩ hne])) $$ [Hcs HO Has]
  · isplitr; · iexact HIs
    isplitl [Hcs]; · iexact Hcs
    isplitl [HO]; · iexact HO
    isplitr; · rw [MayWait_zero]; iempintro
    iexact Has
  iintro ⟨HO, Has, -, Hpay⟩
  ihave Hp := (Entails.of_eq (rest_send m ρ c ⟨k, hk⟩ hne)) $$ Hpay
  iapply Hk
  isplitl [HO]; · iexists _; iexact HO
  isplitr [HP]
  · unfold wt1
    isplitl [Has]; · iexact Has
    isplitl [Hp]; · iexact Hp
    isplitl [Hcr]; · iexact Hcr
    iexact Har
  iexact HP

/-- The wait for the arrival at offset `k`: row `k` comes, holding the maxima of the device `k` places before. -/
theorem rwait_step (k : ℕ) (hk : k < 32) (h0 : 0 < k) {α : Type} {Q : α → sProp 𝕄}
    {cont : PUnit → Prog (TpuEff nD τ sig (Elt F) Λ₀ .tc) α}
    {sR : DmaSem sig} (hsR : sR = recvS ⟨k, hk⟩) {src dst : Memref sig .tc .vmem S256 .f32} (hdM : dst = slotM ⟨k, hk⟩)
    {hsrc : src.view.WordExact} {hdst : dst.view.WordExact} :
    iprop(records m ρ K ∗ (∃ W, owes (c : Thread nD τ) 0 W) ∗ wt1 m ρ c ⟨k, hk⟩ ∗ bigSep (poolTo k) (wt2 m ρ c))
      ⊢ iprop((((∃ W, owes (c : Thread nD τ) 0 W) ∗ bigSep (poolTo (k + 1)) (wt2 m ρ c))
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 sR src dst hsrc hdst) cont) Q) := by
  subst hsR hdM
  have hne := ne_zero_of_pos k hk h0
  iintro ⟨#HR, ⟨%W, HO⟩, H1, HD⟩ Hk
  unfold wt1
  icases H1 with ⟨Has, Hsp, Hcr, Har⟩
  ihave Hcr := (Entails.of_eq (show (cred (tallyAt (recvCell c ⟨k, hk⟩) () N) : sProp 𝕄)
      = cred (tallyAt (recvCell c ⟨k, hk⟩) () (slotM ⟨k, hk⟩).view.dmaCredit) from rfl)) $$ Hcr
  ihave #HIr := (inv_at m ρ K (c, some (true, ⟨k, hk⟩))) $$ HR
  iapply (Rounds.wp_wait_rest_token 𝒱₀ ER (Rd m ρ) (c : Thread nD τ) none (κ := K (c, some (true, ⟨k, hk⟩)))
      (wpE_waitDma2_eq 𝒱₀ (c : Thread nD τ) none Set.univ) (Set.mem_univ _) () (O := 0) (W := W) (R := 0) (m := 0) (T := ∅)
      (by rw [Nat.zero_add, expect_recv m ρ c ⟨k, hk⟩ hne])) $$ [Hcr HO Har]
  · isplitr; · iexact HIr
    isplitl [Hcr]; · iexact Hcr
    isplitl [HO]; · iexact HO
    isplitr; · rw [MayWait_zero]; iempintro
    iexact Har
  iintro ⟨HO, Har, -, Hpay⟩
  ihave Hp := (Entails.of_eq (rest_recv m ρ c ⟨k, hk⟩ hne)) $$ Hpay
  iapply Hk
  isplitl [HO]; · iexists _; iexact HO
  iapply (Entails.of_eq (pushTo k hk h0 (wt2 m ρ c)).symm)
  isplitr [HD]
  · unfold wt2
    isplitl [Has]; · iexact Has
    isplitl [Hsp]; · iexact Hsp
    isplitl [Har]; · iexact Har
    iexact Hp
  iexact HD

/-- A cell with no duty left, its owner at the start of the first round that has none: the counter is the core's again, at zero. -/
theorem close_cell (ck : CK) (R : ℕ) (hR : ∀ r, R ≤ r → (Rd (F := F) m ρ).duties (kcell (c, ck)) r = ∅) :
    iprop(records m ρ K ∗ atPos ER (kcell (c, ck)) R ∅ 0) ⊢ |={Set.univ}=> (semVal (kcell (c, ck)) 0 : sProp 𝕄) := by
  iintro ⟨#HR, Hat⟩
  ihave #HI := (inv_at m ρ K (c, ck)) $$ HR
  iapply (Rounds.cell_close ER (Rd m ρ) (Set.mem_univ (K (c, ck))) (fun h => h) (R := R) hR)
  isplitr; · iexact HI
  iexact Hat

end Cert.KernelProof

end
-- ==== Proof.Bits.DevTable.lean ====
import proofs.«900924_g7700000000000925_dist_max_ax0_shard0_i_m512_n256_v7x_i32_bf16_1_alg».proof.Proof.Bits.RingArith
import proofs.«900924_g7700000000000925_dist_max_ax0_shard0_i_m512_n256_v7x_i32_bf16_1_alg».proof.Proof.Gen.Kernel

namespace Cert.KernelProof

open Cert.Kernel Cert.Kernel.Gen Idealize.ShloMosaic

/-! The device each signal (chains 1 to 31) and each transfer (chains 32 to 62) addresses: offset `k` from the device's own place. -/

theorem dev1_eq (c : Dev nD) : (⟨k0_dev1 c, k0_dev1_lt c⟩ : Dev nD) = peer c ⟨1, by decide⟩ := Fin.ext ((k0_dev1_eq c).trans rfl)
theorem dev2_eq (c : Dev nD) : (⟨k0_dev2 c, k0_dev2_lt c⟩ : Dev nD) = peer c ⟨2, by decide⟩ := Fin.ext ((k0_dev2_eq c).trans rfl)
theorem dev3_eq (c : Dev nD) : (⟨k0_dev3 c, k0_dev3_lt c⟩ : Dev nD) = peer c ⟨3, by decide⟩ := Fin.ext ((k0_dev3_eq c).trans rfl)
theorem dev4_eq (c : Dev nD) : (⟨k0_dev4 c, k0_dev4_lt c⟩ : Dev nD) = peer c ⟨4, by decide⟩ := Fin.ext ((k0_dev4_eq c).trans rfl)
theorem dev5_eq (c : Dev nD) : (⟨k0_dev5 c, k0_dev5_lt c⟩ : Dev nD) = peer c ⟨5, by decide⟩ := Fin.ext ((k0_dev5_eq c).trans rfl)
theorem dev6_eq (c : Dev nD) : (⟨k0_dev6 c, k0_dev6_lt c⟩ : Dev nD) = peer c ⟨6, by decide⟩ := Fin.ext ((k0_dev6_eq c).trans rfl)
theorem dev7_eq (c : Dev nD) : (⟨k0_dev7 c, k0_dev7_lt c⟩ : Dev nD) = peer c ⟨7, by decide⟩ := Fin.ext ((k0_dev7_eq c).trans rfl)
theorem dev8_eq (c : Dev nD) : (⟨k0_dev8 c, k0_dev8_lt c⟩ : Dev nD) = peer c ⟨8, by decide⟩ := Fin.ext ((k0_dev8_eq c).trans rfl)
theorem dev9_eq (c : Dev nD) : (⟨k0_dev9 c, k0_dev9_lt c⟩ : Dev nD) = peer c ⟨9, by decide⟩ := Fin.ext ((k0_dev9_eq c).trans rfl)
theorem dev10_eq (c : Dev nD) : (⟨k0_dev10 c, k0_dev10_lt c⟩ : Dev nD) = peer c ⟨10, by decide⟩ := Fin.ext ((k0_dev10_eq c).trans rfl)
theorem dev11_eq (c : Dev nD) : (⟨k0_dev11 c, k0_dev11_lt c⟩ : Dev nD) = peer c ⟨11, by decide⟩ := Fin.ext ((k0_dev11_eq c).trans rfl)
theorem dev12_eq (c : Dev nD) : (⟨k0_dev12 c, k0_dev12_lt c⟩ : Dev nD) = peer c ⟨12, by decide⟩ := Fin.ext ((k0_dev12_eq c).trans rfl)
theorem dev13_eq (c : Dev nD) : (⟨k0_dev13 c, k0_dev13_lt c⟩ : Dev nD) = peer c ⟨13, by decide⟩ := Fin.ext ((k0_dev13_eq c).trans rfl)
theorem dev14_eq (c : Dev nD) : (⟨k0_dev14 c, k0_dev14_lt c⟩ : Dev nD) = peer c ⟨14, by decide⟩ := Fin.ext ((k0_dev14_eq c).trans rfl)
theorem dev15_eq (c : Dev nD) : (⟨k0_dev15 c, k0_dev15_lt c⟩ : Dev nD) = peer c ⟨15, by decide⟩ := Fin.ext ((k0_dev15_eq c).trans rfl)
theorem dev16_eq (c : Dev nD) : (⟨k0_dev16 c, k0_dev16_lt c⟩ : Dev nD) = peer c ⟨16, by decide⟩ := Fin.ext ((k0_dev16_eq c).trans rfl)
theorem dev17_eq (c : Dev nD) : (⟨k0_dev17 c, k0_dev17_lt c⟩ : Dev nD) = peer c ⟨17, by decide⟩ := Fin.ext ((k0_dev17_eq c).trans rfl)
theorem dev18_eq (c : Dev nD) : (⟨k0_dev18 c, k0_dev18_lt c⟩ : Dev nD) = peer c ⟨18, by decide⟩ := Fin.ext ((k0_dev18_eq c).trans rfl)
theorem dev19_eq (c : Dev nD) : (⟨k0_dev19 c, k0_dev19_lt c⟩ : Dev nD) = peer c ⟨19, by decide⟩ := Fin.ext ((k0_dev19_eq c).trans rfl)
theorem dev20_eq (c : Dev nD) : (⟨k0_dev20 c, k0_dev20_lt c⟩ : Dev nD) = peer c ⟨20, by decide⟩ := Fin.ext ((k0_dev20_eq c).trans rfl)
theorem dev21_eq (c : Dev nD) : (⟨k0_dev21 c, k0_dev21_lt c⟩ : Dev nD) = peer c ⟨21, by decide⟩ := Fin.ext ((k0_dev21_eq c).trans rfl)
theorem dev22_eq (c : Dev nD) : (⟨k0_dev22 c, k0_dev22_lt c⟩ : Dev nD) = peer c ⟨22, by decide⟩ := Fin.ext ((k0_dev22_eq c).trans rfl)
theorem dev23_eq (c : Dev nD) : (⟨k0_dev23 c, k0_dev23_lt c⟩ : Dev nD) = peer c ⟨23, by decide⟩ := Fin.ext ((k0_dev23_eq c).trans rfl)
theorem dev24_eq (c : Dev nD) : (⟨k0_dev24 c, k0_dev24_lt c⟩ : Dev nD) = peer c ⟨24, by decide⟩ := Fin.ext ((k0_dev24_eq c).trans rfl)
theorem dev25_eq (c : Dev nD) : (⟨k0_dev25 c, k0_dev25_lt c⟩ : Dev nD) = peer c ⟨25, by decide⟩ := Fin.ext ((k0_dev25_eq c).trans rfl)
theorem dev26_eq (c : Dev nD) : (⟨k0_dev26 c, k0_dev26_lt c⟩ : Dev nD) = peer c ⟨26, by decide⟩ := Fin.ext ((k0_dev26_eq c).trans rfl)
theorem dev27_eq (c : Dev nD) : (⟨k0_dev27 c, k0_dev27_lt c⟩ : Dev nD) = peer c ⟨27, by decide⟩ := Fin.ext ((k0_dev27_eq c).trans rfl)
theorem dev28_eq (c : Dev nD) : (⟨k0_dev28 c, k0_dev28_lt c⟩ : Dev nD) = peer c ⟨28, by decide⟩ := Fin.ext ((k0_dev28_eq c).trans rfl)
theorem dev29_eq (c : Dev nD) : (⟨k0_dev29 c, k0_dev29_lt c⟩ : Dev nD) = peer c ⟨29, by decide⟩ := Fin.ext ((k0_dev29_eq c).trans rfl)
theorem dev30_eq (c : Dev nD) : (⟨k0_dev30 c, k0_dev30_lt c⟩ : Dev nD) = peer c ⟨30, by decide⟩ := Fin.ext ((k0_dev30_eq c).trans rfl)
theorem dev31_eq (c : Dev nD) : (⟨k0_dev31 c, k0_dev31_lt c⟩ : Dev nD) = peer c ⟨31, by decide⟩ := Fin.ext ((k0_dev31_eq c).trans rfl)
theorem dev32_eq (c : Dev nD) : (⟨k0_dev32 c, k0_dev32_lt c⟩ : Dev nD) = peer c ⟨1, by decide⟩ := Fin.ext ((k0_dev32_eq c).trans rfl)
theorem dev33_eq (c : Dev nD) : (⟨k0_dev33 c, k0_dev33_lt c⟩ : Dev nD) = peer c ⟨2, by decide⟩ := Fin.ext ((k0_dev33_eq c).trans rfl)
theorem dev34_eq (c : Dev nD) : (⟨k0_dev34 c, k0_dev34_lt c⟩ : Dev nD) = peer c ⟨3, by decide⟩ := Fin.ext ((k0_dev34_eq c).trans rfl)
theorem dev35_eq (c : Dev nD) : (⟨k0_dev35 c, k0_dev35_lt c⟩ : Dev nD) = peer c ⟨4, by decide⟩ := Fin.ext ((k0_dev35_eq c).trans rfl)
theorem dev36_eq (c : Dev nD) : (⟨k0_dev36 c, k0_dev36_lt c⟩ : Dev nD) = peer c ⟨5, by decide⟩ := Fin.ext ((k0_dev36_eq c).trans rfl)
theorem dev37_eq (c : Dev nD) : (⟨k0_dev37 c, k0_dev37_lt c⟩ : Dev nD) = peer c ⟨6, by decide⟩ := Fin.ext ((k0_dev37_eq c).trans rfl)
theorem dev38_eq (c : Dev nD) : (⟨k0_dev38 c, k0_dev38_lt c⟩ : Dev nD) = peer c ⟨7, by decide⟩ := Fin.ext ((k0_dev38_eq c).trans rfl)
theorem dev39_eq (c : Dev nD) : (⟨k0_dev39 c, k0_dev39_lt c⟩ : Dev nD) = peer c ⟨8, by decide⟩ := Fin.ext ((k0_dev39_eq c).trans rfl)
theorem dev40_eq (c : Dev nD) : (⟨k0_dev40 c, k0_dev40_lt c⟩ : Dev nD) = peer c ⟨9, by decide⟩ := Fin.ext ((k0_dev40_eq c).trans rfl)
theorem dev41_eq (c : Dev nD) : (⟨k0_dev41 c, k0_dev41_lt c⟩ : Dev nD) = peer c ⟨10, by decide⟩ := Fin.ext ((k0_dev41_eq c).trans rfl)
theorem dev42_eq (c : Dev nD) : (⟨k0_dev42 c, k0_dev42_lt c⟩ : Dev nD) = peer c ⟨11, by decide⟩ := Fin.ext ((k0_dev42_eq c).trans rfl)
theorem dev43_eq (c : Dev nD) : (⟨k0_dev43 c, k0_dev43_lt c⟩ : Dev nD) = peer c ⟨12, by decide⟩ := Fin.ext ((k0_dev43_eq c).trans rfl)
theorem dev44_eq (c : Dev nD) : (⟨k0_dev44 c, k0_dev44_lt c⟩ : Dev nD) = peer c ⟨13, by decide⟩ := Fin.ext ((k0_dev44_eq c).trans rfl)
theorem dev45_eq (c : Dev nD) : (⟨k0_dev45 c, k0_dev45_lt c⟩ : Dev nD) = peer c ⟨14, by decide⟩ := Fin.ext ((k0_dev45_eq c).trans rfl)
theorem dev46_eq (c : Dev nD) : (⟨k0_dev46 c, k0_dev46_lt c⟩ : Dev nD) = peer c ⟨15, by decide⟩ := Fin.ext ((k0_dev46_eq c).trans rfl)
theorem dev47_eq (c : Dev nD) : (⟨k0_dev47 c, k0_dev47_lt c⟩ : Dev nD) = peer c ⟨16, by decide⟩ := Fin.ext ((k0_dev47_eq c).trans rfl)
theorem dev48_eq (c : Dev nD) : (⟨k0_dev48 c, k0_dev48_lt c⟩ : Dev nD) = peer c ⟨17, by decide⟩ := Fin.ext ((k0_dev48_eq c).trans rfl)
theorem dev49_eq (c : Dev nD) : (⟨k0_dev49 c, k0_dev49_lt c⟩ : Dev nD) = peer c ⟨18, by decide⟩ := Fin.ext ((k0_dev49_eq c).trans rfl)
theorem dev50_eq (c : Dev nD) : (⟨k0_dev50 c, k0_dev50_lt c⟩ : Dev nD) = peer c ⟨19, by decide⟩ := Fin.ext ((k0_dev50_eq c).trans rfl)
theorem dev51_eq (c : Dev nD) : (⟨k0_dev51 c, k0_dev51_lt c⟩ : Dev nD) = peer c ⟨20, by decide⟩ := Fin.ext ((k0_dev51_eq c).trans rfl)
theorem dev52_eq (c : Dev nD) : (⟨k0_dev52 c, k0_dev52_lt c⟩ : Dev nD) = peer c ⟨21, by decide⟩ := Fin.ext ((k0_dev52_eq c).trans rfl)
theorem dev53_eq (c : Dev nD) : (⟨k0_dev53 c, k0_dev53_lt c⟩ : Dev nD) = peer c ⟨22, by decide⟩ := Fin.ext ((k0_dev53_eq c).trans rfl)
theorem dev54_eq (c : Dev nD) : (⟨k0_dev54 c, k0_dev54_lt c⟩ : Dev nD) = peer c ⟨23, by decide⟩ := Fin.ext ((k0_dev54_eq c).trans rfl)
theorem dev55_eq (c : Dev nD) : (⟨k0_dev55 c, k0_dev55_lt c⟩ : Dev nD) = peer c ⟨24, by decide⟩ := Fin.ext ((k0_dev55_eq c).trans rfl)
theorem dev56_eq (c : Dev nD) : (⟨k0_dev56 c, k0_dev56_lt c⟩ : Dev nD) = peer c ⟨25, by decide⟩ := Fin.ext ((k0_dev56_eq c).trans rfl)
theorem dev57_eq (c : Dev nD) : (⟨k0_dev57 c, k0_dev57_lt c⟩ : Dev nD) = peer c ⟨26, by decide⟩ := Fin.ext ((k0_dev57_eq c).trans rfl)
theorem dev58_eq (c : Dev nD) : (⟨k0_dev58 c, k0_dev58_lt c⟩ : Dev nD) = peer c ⟨27, by decide⟩ := Fin.ext ((k0_dev58_eq c).trans rfl)
theorem dev59_eq (c : Dev nD) : (⟨k0_dev59 c, k0_dev59_lt c⟩ : Dev nD) = peer c ⟨28, by decide⟩ := Fin.ext ((k0_dev59_eq c).trans rfl)
theorem dev60_eq (c : Dev nD) : (⟨k0_dev60 c, k0_dev60_lt c⟩ : Dev nD) = peer c ⟨29, by decide⟩ := Fin.ext ((k0_dev60_eq c).trans rfl)
theorem dev61_eq (c : Dev nD) : (⟨k0_dev61 c, k0_dev61_lt c⟩ : Dev nD) = peer c ⟨30, by decide⟩ := Fin.ext ((k0_dev61_eq c).trans rfl)
theorem dev62_eq (c : Dev nD) : (⟨k0_dev62 c, k0_dev62_lt c⟩ : Dev nD) = peer c ⟨31, by decide⟩ := Fin.ext ((k0_dev62_eq c).trans rfl)

end Cert.KernelProof
-- ==== Proof.Bits.Glue.lean ====
import proofs.«900924_g7700000000000925_dist_max_ax0_shard0_i_m512_n256_v7x_i32_bf16_1_alg».proof.Proof.Bits.Steps
import proofs.«900924_g7700000000000925_dist_max_ax0_shard0_i_m512_n256_v7x_i32_bf16_1_alg».proof.Proof.Bits.DevTable
import proofs.«900924_g7700000000000925_dist_max_ax0_shard0_i_m512_n256_v7x_i32_bf16_1_alg».proof.Proof.Offsets

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Offsets

variable (K : Dev nD × CK → ℕ) (c : Dev nD)

/-! ## Gathering the per-offset resources -/

/-- Negation of offsets, as an embedding: the signal at offset `o` hands over row `-o`. -/
def negEmb : Fin 32 ↪ Fin 32 := ⟨fun o => -o, by intro a b; revert a b; decide⟩
theorem neg_map : (Finset.univ.erase (0 : Fin 32)).map negEmb = Finset.univ.erase 0 := by decide

theorem sigB_intro (o : Fin 32) (f : Buf (Elt F) ((c : Thread nD τ).loc cc0_scratch0)) :
    iprop((dutyTok ER (barCell (peer c o)) 0 (-o) : sProp 𝕄) ∗ rowPts (F := F) c (-o) fullShare f) ⊢ sigB (F := F) c o := by
  unfold sigB
  iintro ⟨H1, H2⟩
  isplitl [H1]; · iexact H1
  iexists f; iexact H2

/-- The tokens of the 31 signals and the 31 rows other devices will write, offset by offset. -/
theorem sig_pool (f : Buf (Elt F) ((c : Thread nD τ).loc cc0_scratch0)) :
    iprop((bigSep (Finset.univ.erase 0) fun o : Fin 32 => (dutyTok ER (barCell (peer c o)) 0 (-o) : sProp 𝕄))
        ∗ bigSep (Finset.univ.erase 0) (fun r : Fin 32 => rowPts (F := F) c r fullShare f))
      ⊢ bigSep (poolFrom 1) (sigB (F := F) c) := by
  rw [poolFrom_one]
  have hre : bigSep (Finset.univ.erase 0) (fun r : Fin 32 => rowPts (F := F) c r fullShare f)
      = bigSep (Finset.univ.erase 0) (fun o : Fin 32 => rowPts (F := F) c (-o) fullShare f) := by
    conv_lhs => rw [← neg_map]
    exact bigSep_map negEmb
  rw [hre, ← bigSep_sep']
  exact bigSep_mono fun o _ => sigB_intro c o f

/-- The tokens of the 31 transfers and the shares of the device's own row they borrow, offset by offset. -/
theorem snd_pool :
    iprop((bigSep (Finset.univ.erase 0) fun o : Fin 32 => (dutyTok ER (sendCell c o) 0 (0 : Fin 32) : sProp 𝕄))
        ∗ (bigSep (Finset.univ.erase 0) fun o : Fin 32 => (dutyTok ER (recvCell (peer c o) o) 0 (0 : Fin 32) : sProp 𝕄))
        ∗ bigSep (poolFrom 1) (fun k : Fin 32 => rowPts (F := F) c 0 (pieceSh k.val) (comm m ρ c)))
      ⊢ bigSep (poolFrom 1) (sndB m ρ c) := by
  rw [poolFrom_one]
  rw [show sndB m ρ c = fun o : Fin 32 => iprop((dutyTok ER (sendCell c o) 0 (0 : Fin 32) : sProp 𝕄)
      ∗ (dutyTok ER (recvCell (peer c o) o) 0 (0 : Fin 32) : sProp 𝕄) ∗ rowPts (F := F) c 0 (pieceSh o.val) (comm m ρ c)) from rfl]
  rw [bigSep_sep', bigSep_sep']

/-- Positions and credit before the waits, offset by offset. -/
theorem wt_pool :
    iprop(bigSep (poolTo 32) (sndCred (F := F) c)
        ∗ (bigSep (Finset.univ.erase 0) fun o : Fin 32 => (atPos ER (sendCell c o) 0 ∅ 0 : sProp 𝕄))
        ∗ (bigSep (Finset.univ.erase 0) fun o : Fin 32 => (cred (tallyAt (recvCell c o) () N) : sProp 𝕄))
        ∗ (bigSep (Finset.univ.erase 0) fun o : Fin 32 => (atPos ER (recvCell c o) 0 ∅ 0 : sProp 𝕄)))
      ⊢ bigSep (poolFrom 1) (wt0 (F := F) c) := by
  rw [poolFrom_one, poolTo_last]
  rw [show wt0 (F := F) c = fun o : Fin 32 => iprop(sndCred (F := F) c o ∗ (atPos ER (sendCell c o) 0 ∅ 0 : sProp 𝕄)
      ∗ (cred (tallyAt (recvCell c o) () N) : sProp 𝕄) ∗ (atPos ER (recvCell c o) 0 ∅ 0 : sProp 𝕄)) from rfl]
  rw [bigSep_sep', bigSep_sep', bigSep_sep']

/-- What the waits leave, family by family. -/
theorem wt_done :
    bigSep (poolTo 32) (wt2 m ρ c)
      ⊢ iprop((bigSep (Finset.univ.erase 0) fun o : Fin 32 => (atPos ER (sendCell c o) 1 ∅ 0 : sProp 𝕄))
        ∗ bigSep (Finset.univ.erase 0) (sendPay m ρ c)
        ∗ (bigSep (Finset.univ.erase 0) fun o : Fin 32 => (atPos ER (recvCell c o) 1 ∅ 0 : sProp 𝕄))
        ∗ bigSep (Finset.univ.erase 0) (recvPay m ρ c)) := by
  rw [poolTo_last]
  rw [show wt2 m ρ c = fun o : Fin 32 => iprop((atPos ER (sendCell c o) 1 ∅ 0 : sProp 𝕄) ∗ sendPay m ρ c o
      ∗ (atPos ER (recvCell c o) 1 ∅ 0 : sProp 𝕄) ∗ recvPay m ρ c o) from rfl]
  rw [bigSep_sep', bigSep_sep', bigSep_sep']

/-- The shares of the device's own row, back together. -/
theorem shares_merge :
    iprop(rowPts (F := F) c 0 (restSh 31) (comm m ρ c) ∗ bigSep (Finset.univ.erase 0) (sendPay m ρ c)) ⊢ rowPts (F := F) c 0 fullShare (comm m ρ c) := by
  rw [← poolFrom_one]
  exact (row_shares (F := F) c 0 (comm m ρ c)).2

/-- The 32 rows, back together as the whole buffer. -/
theorem rows_join :
    iprop(rowPts (F := F) c 0 fullShare (comm m ρ c) ∗ bigSep (Finset.univ.erase 0) (recvPay m ρ c))
      ⊢ ((((c : Thread nD τ).loc cc0_scratch0) ↦{fullShare} comm m ρ c : sProp 𝕄)) :=
  (Entails.of_eq (bigSep_univ_at (fun o : Fin 32 => rowPts (F := F) c o fullShare (comm m ρ c)) 0).symm).trans
    (rows_split (F := F) c fullShare (comm m ρ c)).2

/-! ## Closing the cells -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_pool (b : Bool) :
    iprop(records m ρ K ∗ bigSep (Finset.univ.erase 0) (fun o : Fin 32 => (atPos ER (kcell (c, some (b, o))) 1 ∅ 0 : sProp 𝕄)))
      ⊢ |={Set.univ}=> bigSep (Finset.univ.erase 0) (fun o : Fin 32 => (semVal (kcell (c, some (b, o))) 0 : sProp 𝕄)) :=
  (bigSep_with_persistent (fun o _ => close_cell m ρ K c (some (b, o)) 1 (duties_later m ρ _))).trans (bigSep_fupd _ _)

/-- Every own cell closed: the 64 counters are the core's again, at zero. -/
theorem close_all :
    iprop(records m ρ K ∗ atPos ER (sendCell c 0) 0 ∅ 0 ∗ atPos ER (recvCell c 0) 0 ∅ 0
        ∗ (bigSep (Finset.univ.erase 0) fun o : Fin 32 => (atPos ER (sendCell c o) 1 ∅ 0 : sProp 𝕄))
        ∗ (bigSep (Finset.univ.erase 0) fun o : Fin 32 => (atPos ER (recvCell c o) 1 ∅ 0 : sProp 𝕄)))
      ⊢ |={Set.univ}=> (bigSep Finset.univ fun k : Bool × Fin 32 => (semVal ((c : Thread nD τ), osem k) 0 : sProp 𝕄)) := by
  have htarget : (bigSep Finset.univ fun k : Bool × Fin 32 => (semVal ((c : Thread nD τ), osem k) 0 : sProp 𝕄))
      = iprop((semVal (sendCell c 0) 0 ∗ bigSep (Finset.univ.erase 0) fun o : Fin 32 => (semVal (sendCell c o) 0 : sProp 𝕄))
          ∗ (semVal (recvCell c 0) 0 ∗ bigSep (Finset.univ.erase 0) fun o : Fin 32 => (semVal (recvCell c o) 0 : sProp 𝕄))) := by
    rw [bigSep_univ_prod, bigSep_univ_eq_bigSepL [false, true] (by decide) (by decide), bigSepL_cons_cons, bigSepL_singleton,
      bigSep_univ_at (fun o : Fin 32 => (semVal ((c : Thread nD τ), osem (false, o)) 0 : sProp 𝕄)) 0,
      bigSep_univ_at (fun o : Fin 32 => (semVal ((c : Thread nD τ), osem (true, o)) 0 : sProp 𝕄)) 0]
    rfl
  rw [htarget]
  iintro ⟨#HR, Hs0, Hr0, Hs, Hr⟩
  imod (close_cell m ρ K c (some (false, 0)) 0 (fun r _ => duties_send0 m ρ c r)) $$ [Hs0] with Hzs0
  · isplitr; · iexact HR
    iexact Hs0
  imod (close_cell m ρ K c (some (true, 0)) 0 (fun r _ => duties_recv0 m ρ c r)) $$ [Hr0] with Hzr0
  · isplitr; · iexact HR
    iexact Hr0
  imod (close_pool m ρ K c false) $$ [Hs] with Hzs
  · isplitr; · iexact HR
    iexact Hs
  imod (close_pool m ρ K c true) $$ [Hr] with Hzr
  · isplitr; · iexact HR
    iexact Hr
  imodintro
  isplitl [Hzs0 Hzs]
  · isplitl [Hzs0]; · iexact Hzs0
    iexact Hzs
  · isplitl [Hzr0]; · iexact Hzr0
    iexact Hzr

/-! ## The local accesses to row 0 -/

omit [FloatOps F] in
theorem hz2 : (![0, 0] : Fin 2 → Nat) = fun _ => 0 := funext fun a => by fin_cases a <;> rfl

theorem row0_load {α : Type} {Q : α → sProp 𝕄} (f0 : Buf (Elt F) ((c : Thread nD τ).loc cc0_scratch0))
    {hl : (scr : Memref sig .tc .vmem S32x256 .f32).view.LoadsAt r00.toLoadRect}
    {cont : (r00.toLoadRect.shape.Idx → Elt F .f32) → Prog (TpuEff nD τ sig (Elt F) Λ₀ .tc) α} :
    rowPts (F := F) c 0 fullShare f0
      ⊢ iprop((rowPts (F := F) c 0 fullShare f0 -∗ wp frame (wpE (defs₀ (F := F)) 𝒱₀ (c : Thread nD τ) none) Set.univ
            (cont (View.readAt (Elt F) (scr : Memref sig .tc .vmem S32x256 .f32).view r00.toLoadRect f0)) Q)
          -∗ wp frame (wpE (defs₀ (F := F)) 𝒱₀ (c : Thread nD τ) none) Set.univ (.op (.load scr r00.toLoadRect hl) cont) Q) := by
  unfold rowPts
  exact wp_load 𝒱₀ (c : Thread nD τ) none Set.univ (m := scr) load_sub

theorem row0_store {α : Type} {Q : α → sProp 𝕄} (f0 : Buf (Elt F) ((c : Thread nD τ).loc cc0_scratch0))
    (w : r00.shape.Idx → Elt F .f32)
    {hx : ((scr : Memref sig .tc .vmem S32x256 .f32).access r00).Stores Finset.univ}
    {hm : (Finset.univ : Finset r00.shape.Idx) = Finset.univ ∨ ∀ a, r00.stride a = 1}
    {cont : PUnit → Prog (TpuEff nD τ sig (Elt F) Λ₀ .tc) α} :
    rowPts (F := F) c 0 fullShare f0
      ⊢ iprop((rowPts (F := F) c 0 fullShare (((scr : Memref sig .tc .vmem S32x256 .f32).access r00 : View sig .tc _ _ _).write (Elt F) f0 w Finset.univ)
            -∗ wp frame (wpE (defs₀ (F := F)) 𝒱₀ (c : Thread nD τ) none) Set.univ (cont ⟨⟩) Q)
          -∗ wp frame (wpE (defs₀ (F := F)) 𝒱₀ (c : Thread nD τ) none) Set.univ (.op (.store scr r00 w Finset.univ hx hm) cont) Q) := by
  unfold rowPts
  exact wp_store 𝒱₀ (c : Thread nD τ) none Set.univ (m := scr) (r := r00) (Mk := Finset.univ) store_sub

theorem fetch_0 (t : Fin cfg0.N) : (cfg0.win (0 : Fin 2)).fetch t = true := by rw [fin_N t]; rfl

end Cert.KernelProof

end
-- ==== Proof.Bits.Body.lean ====
import proofs.«900924_g7700000000000925_dist_max_ax0_shard0_i_m512_n256_v7x_i32_bf16_1_alg».proof.Proof.Bits.Glue

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Offsets

variable (K : Dev nD × CK → ℕ) (c : Dev nD)

omit [FloatOps F] in
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 hz2 _ f
omit [FloatOps F] in
theorem read_scr (f : (cc0_scratch0 : Ref sig .tc).ty.Contents (Elt F)) :
    (scr : Memref sig .tc .vmem S32x256 .f32).view.readAt (Elt F) (Rect.unit (s := S32x256) ![0, 0] S32x256.size inb_S32x256_S32x256_0_0).toLoadRect f = f :=
  Memref.readAt_unit_zero (Elt F) cc0_scratch0 hz2 _ f
omit [FloatOps F] in
theorem write_out (f w : (cc0_stg1_0 : Ref sig .tc).ty.Contents (Elt F)) :
    ((oM : Memref sig .tc .vmem S1x256 .f32).access (Rect.unit (s := S1x256) ![0, 0] S1x256.size inb_S1x256_S1x256_0_0) : View sig .tc _ _ _).write (Elt F) f w Finset.univ = w :=
  Memref.write_access_unit_zero_univ (Elt F) cc0_stg1_0 hz2 _ f w

set_option maxHeartbeats 8000000 in
set_option maxRecDepth 65536 in
/-- The body, step by step from `bodyPre`: the 31 signals, the device's own maxima into row 0, the wait on the barrier, the 31
    transfers, their 62 waits, the cells closed, the buffer read whole and its column maxima stored. -/
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part34_eq_skeleton]; unfold k0_part34_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c]
  unfold bodyPre ghost positions payToks
  iintro ⟨⟨⟨⟨#HR, ⟨HatB, HatS, HatV⟩, ⟨HtB, HtV, HtS⟩⟩, HcB, HcV, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = recvOwe c 31 + sigOwe c (32 - 1) from rfl]
  -- the exchange buffer row by row: row 0 stays, every other row goes with a signal
  ihave Hrows := (rows_split (F := F) c fullShare f0).1 $$ Hscr
  ihave Hrows := (Entails.of_eq (bigSep_univ_at (fun o : Fin 32 => rowPts (F := F) c o fullShare f0) 0)) $$ Hrows
  icases Hrows with ⟨Hrow0, Hrows⟩
  ihave HS := (sig_pool (F := F) c f0) $$ [HtB Hrows]
  · isplitl [HtB] <;> iassumption
  ihave HO : (∃ W, owes (c : Thread nD τ) (recvOwe c 31 + sigOwe c (32 - 1)) W) $$ [HO]
  · iexists W; iexact HO
  -- the 31 signals
  for_offsets 1 31 =>
    iapply (sig_step m ρ K c kk (by decide) (by decide) rfl) $$ [HO HS]
    · isplitr; · iexact HR
      isplitl [HO]; · iexact HO
      iexact HS
    iintro ⟨HO, HS⟩
  -- the device's own block read, its column maxima stored into row 0
  iapply (wp_load 𝒱₀ (c : Thread nD τ) none Set.univ (m := xM) (Finset.subset_univ _)) $$ Hx; iintro Hx
  rw [read_x]
  iapply (row0_load c f0) $$ Hrow0; iintro Hrow0
  iapply (row0_store c f0 (k0_pay2 (xstg m ρ c))) $$ Hrow0; iintro Hrow0
  ihave Hrow0 := (Entails.of_eq (stored_eq m ρ c f0)) $$ Hrow0
  -- the wait on the barrier: every other device is in the kernel and has handed over its row for this device
  iapply (bar_wait m ρ K c rfl) $$ [HO HcB HatB]
  · isplitr; · iexact HR
    isplitl [HO]; · iexact HO
    isplitl [HcB]; · iexact HcB
    isplitr; · iexact Hlev
    iexact HatB
  iintro ⟨HO, HB⟩
  -- the 31 transfers, each borrowing a share of row 0
  ihave Hsh := (row_shares (F := F) c 0 (comm m ρ c)).1 $$ Hrow0
  icases Hsh with ⟨Hrest, Hpieces⟩
  ihave HSB := (snd_pool m ρ c) $$ [HtS HtV Hpieces]
  · isplitl [HtS]; · iexact HtS
    isplitl [HtV]; · iexact HtV
    iexact Hpieces
  ihave HC : (bigSep (poolTo 1) (sndCred (F := F) c)) $$ []
  · rw [poolTo_one, bigSep_empty]; iempintro
  for_offsets 1 31 =>
    iapply (send_step m ρ K c kk (by decide) (by decide) (devKK31_eq c) rfl rfl rfl rfl) $$ [HO HB HSB HC]
    · isplitr; · iexact HR
      isplitl [HO]; · iexact HO
      isplitl [HB]; · iexact HB
      isplitl [HSB]; · iexact HSB
      iexact HC
    iintro ⟨HO, HB, HSB, HC⟩
  -- the 62 waits
  ihave HatS := (Entails.of_eq (bigSep_univ_at (fun o : Fin 32 => (atPos ER (sendCell c o) 0 ∅ 0 : sProp 𝕄)) 0)) $$ HatS
  ihave HatV := (Entails.of_eq (bigSep_univ_at (fun o : Fin 32 => (atPos ER (recvCell c o) 0 ∅ 0 : sProp 𝕄)) 0)) $$ HatV
  icases HatS with ⟨HatS0, HatS⟩
  icases HatV with ⟨HatV0, HatV⟩
  ihave HW := (wt_pool (F := F) c) $$ [HC HatS HcV HatV]
  · isplitl [HC]; · iexact HC
    isplitl [HatS]; · iexact HatS
    isplitl [HcV]; · iexact HcV
    iexact HatV
  ihave HD : (bigSep (poolTo 1) (wt2 m ρ c)) $$ []
  · rw [poolTo_one, bigSep_empty]; iempintro
  ihave HO : (∃ W, owes (c : Thread nD τ) 0 W) $$ [HO]
  · iexact HO
  for_offsets 1 31 =>
    iapply (swait_step m ρ K c kk (by decide) (by decide) rfl rfl) $$ [HO HW]
    · isplitr; · iexact HR
      isplitl [HO]; · iexact HO
      iexact HW
    iintro ⟨HO, H1, HW⟩
    iapply (rwait_step m ρ K c kk (by decide) (by decide) rfl rfl) $$ [HO H1 HD]
    · isplitr; · iexact HR
      isplitl [HO]; · iexact HO
      isplitl [H1]; · iexact H1
      iexact HD
    iintro ⟨HO, HD⟩
  -- the shares and the rows back together, the cells closed
  ihave HD := (wt_done m ρ c) $$ HD
  icases HD with ⟨HaS1, HsP, HaV1, HrP⟩
  ihave Hrow0 := (shares_merge m ρ c) $$ [Hrest HsP]
  · isplitl [Hrest] <;> iassumption
  ihave Hscr := (rows_join m ρ c) $$ [Hrow0 HrP]
  · isplitl [Hrow0] <;> iassumption
  imod (close_all m ρ K c) $$ [HatS0 HatV0 HaS1 HaV1] with Hz
  · isplitr; · iexact HR
    isplitl [HatS0]; · iexact HatS0
    isplitl [HatV0]; · iexact HatV0
    isplitl [HaS1]; · iexact HaS1
    iexact HaV1
  -- the buffer read whole, its column maxima stored as the result
  iapply (wp_load 𝒱₀ (c : Thread nD τ) none Set.univ (m := scr) (Finset.subset_univ _)) $$ Hscr; iintro Hscr
  rw [read_scr]
  iapply (wp_load 𝒱₀ (c : Thread nD τ) none Set.univ (m := oM) (Finset.subset_univ _)) $$ Hout; iintro Hout
  iapply (wp_store 𝒱₀ (c : Thread nD τ) none Set.univ (m := oM)
    (r := Rect.unit (s := S1x256) ![0, 0] S1x256.size inb_S1x256_S1x256_0_0) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  icases HO with ⟨%W', HO⟩
  isplitl [Hscr Hz]
  · isplitl [Hscr]; · iexact Hscr
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
set_option maxHeartbeats 4000000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.KernelProof

end
-- ==== Proof.Bits.Final.lean ====
import proofs.«900924_g7700000000000925_dist_max_ax0_shard0_i_m512_n256_v7x_i32_bf16_1_alg».proof.Proof.Bits.Launch
import proofs.«900924_g7700000000000925_dist_max_ax0_shard0_i_m512_n256_v7x_i32_bf16_1_alg».proof.Proof.Bits.Body

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The run, and what it leaves

  The launch theorem's run with every device's body obligation: every array ends at the proof data's final contents. Read
  at the two windows: the argument array ends as launched, and the result array ends holding the column maxima of the
  exchange buffer, each of whose rows is the column maxima of one device's block of the argument. -/

/-- Every weakly fair execution of @main terminates, nothing faulting, each device's arrays ending at the proof data's
    final contents. -/
theorem run_main : θ_run defs (onTc (τ := τ) (main (F := F))) (s₀ m ρ) (QC m ρ) :=
  run_main_of m ρ (body_obligation m ρ)

/-- The device's block of the argument, as its staging buffer holds it, is the device's argument array: the window is the
    whole array at block index 0. -/
theorem xstg_eq (c : Dev nD) : xstg m ρ c = m ((c : Thread nD τ).loc main_arg0) := by
  unfold xstg
  exact Memref.read_access_unit_zero (Elt F) main_arg0 (funext fun a => Nat.zero_mul _) _ _

/-- The kernel's result on a device, as a term of the devices' argument arrays. -/
theorem outAt_eq (c : Dev nD) :
    outAt m ρ c = k0_pay1 (Exch.commOf (fun d : Dev nD => k0_pay2 (m ((d.tc : Thread nD τ).loc main_arg0))) c) := by
  have h : locRow m ρ = fun d : Dev nD => k0_pay2 (m ((d.tc : Thread nD τ).loc main_arg0)) :=
    funext fun d => by unfold locRow; rw [xstg_eq]
  unfold outAt comm
  rw [h]

/-- The frame: the run ends with every device's argument array as launched. -/
theorem frame_run : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c (0 : Fin 2)).trans (finalA_x m ρ c)) (run_main m ρ)

/-- The value: the run ends with every device's result array holding the column maxima of the rows every device computed
    from its own argument array, and its argument array as launched. -/
theorem value_run : θ_run defs (onTc (τ := τ) (main (F := F))) ⟨m, fun _ => 0, ρ⟩ (fun r => ∀ c : Dev nD,
    r.2.mem ((c.tc : Thread nD τ).loc main_v1)
        = k0_pay1 (Exch.commOf (fun d : Dev nD => k0_pay2 (m ((d.tc : Thread nD τ).loc main_arg0))) c)
      ∧ r.2.mem ((c.tc : Thread nD τ).loc main_arg0) = m ((c.tc : Thread nD τ).loc main_arg0)) :=
  (θ_run defs _ _).mono (fun _ h c =>
      ⟨((h c (1 : Fin 2)).trans (finalA_out m ρ c)).trans (outAt_eq m ρ c), (h c (0 : Fin 2)).trans (finalA_x m ρ c)⟩)
    (run_main m ρ)

end Cert.KernelProof

end
-- ==== Proof.MaxValue.lean ====
import proofs.«900924_g7700000000000925_dist_max_ax0_shard0_i_m512_n256_v7x_i32_bf16_1_alg».proof.Proof.Comm
import proofs.«900924_g7700000000000925_dist_max_ax0_shard0_i_m512_n256_v7x_i32_bf16_1_alg».proof.Proof.Gen.KernelIdeal.Skeleton
import proofs.«900924_g7700000000000925_dist_max_ax0_shard0_i_m512_n256_v7x_i32_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws
import Mathlib.Data.Finset.Fold
import Mathlib.Data.EReal.Basic

noncomputable section

namespace Cert.MaxValue

open Idealize.ShloMosaic Idealize.ShloMosaic.ValueIdx

/-- The accumulator word of the reductions is −∞, the least extended real. -/
theorem negInf_eq_bot : Ideal.ofBits .f32 0xFF800000#32 = (⊥ : EReal) := by
  simp [Ideal.ofBits, Ideal.ieee]

/-- A vector of 256 entries cast to one row, read at (0, j), is entry j. -/
theorem oneRow_apply (z : FVec Ideal ⟨1, ![256]⟩ .f32) (h : (⟨1, ![256]⟩ : Shape).ShapeCasts ⟨2, ![1, 256]⟩) (j : Fin 256) :
    shapeCast (⟨2, ![1, 256]⟩ : Shape) z h (ix2 (0 : Fin 1) j) = z (ix1 j) :=
  (shapeCast_addUnit_apply ![256] z h (ix2 (0 : Fin 1) j)).trans
    (congrArg z (funext fun a => by fin_cases a; rfl))

/-- The reduced index (j) of the column reduction with row k put back is (k, j). -/
theorem lift_ix2 {m : Nat} (h : (⟨2, ![m, 256]⟩ : Shape).Reduces [0] (⟨1, ![256]⟩ : Shape)) (j : Fin 256)
    (k : Fin ((⟨2, ![m, 256]⟩ : Shape).size 0)) : h.lift (ix1 j) k = ix2 (⟨k.val, k.isLt⟩ : Fin m) j := by
  funext c; apply Fin.ext
  fin_cases c <;> rfl

/-- The column maximum of an array of m rows, from −∞, cast to one row: at (0, j) the maximum over the rows r of
    the array at (r, j). -/
theorem colMax_apply {m : Nat} (x : FVec Ideal ⟨2, ![m, 256]⟩ .f32)
    (h : (⟨2, ![m, 256]⟩ : Shape).Reduces [0] (⟨1, ![256]⟩ : Shape))
    (hc : (⟨1, ![256]⟩ : Shape).ShapeCasts ⟨2, ![1, 256]⟩) (j : Fin 256) :
    shapeCast (⟨2, ![1, 256]⟩ : Shape)
        (multiReduction (F := Ideal) .maximumf [0] (⟨1, ![256]⟩ : Shape) x 0xFF800000#32 h (.inl rfl) rfl) hc (ix2 (0 : Fin 1) j)
      = (Finset.univ : Finset (Fin m)).fold max (⊥ : EReal) (fun r => x (ix2 r j)) := by
  rw [oneRow_apply]
  refine (Ideal.multiReduction_maximumf_single x 0xFF800000#32 h (.inl rfl) rfl (ix1 j)).trans ?_
  show (Finset.univ : Finset (Fin m)).fold max (Ideal.ofBits .f32 0xFF800000#32) (x ∘ h.lift (ix1 j)) = _
  rw [negInf_eq_bot]
  exact congrArg (fun f => Finset.fold max (⊥ : EReal) f (Finset.univ : Finset (Fin m)))
    (funext fun k => congrArg x (lift_ix2 h j k))

/-- A block's column maxima, as the device computes them into its own row. -/
theorem pay2_apply (xb : FVec Ideal ⟨2, ![512, 256]⟩ .f32) (j : Fin 256) :
    Cert.KernelIdeal.Gen.k0_pay2 (F := Ideal) xb (ix2 (0 : Fin 1) j)
      = (Finset.univ : Finset (Fin 512)).fold max (⊥ : EReal) (fun r => xb (ix2 r j)) := by
  unfold Cert.KernelIdeal.Gen.k0_pay2
  rw [shapeCast_self]
  exact colMax_apply xb _ _ j

/-- The column maxima of the exchange buffer, as the device stores them as its result. -/
theorem pay1_apply (cm : FVec Ideal ⟨2, ![32, 256]⟩ .f32) (j : Fin 256) :
    Cert.KernelIdeal.Gen.k0_pay1 (F := Ideal) cm (ix2 (0 : Fin 1) j)
      = (Finset.univ : Finset (Fin 32)).fold max (⊥ : EReal) (fun o => cm (ix2 o j)) := by
  unfold Cert.KernelIdeal.Gen.k0_pay1
  exact colMax_apply cm _ _ j

/-- The reference's reduced index at (0, j) is (j). -/
theorem idx_ref (j : Fin 256) : Cert.ReferenceIdeal.Read.idx_main_v1 (ix2 (0 : Fin 1) j) = ix1 j := by
  funext a; match a with | ⟨0, _⟩ => rfl

/-- The reference at (0, j): the maximum, from −∞, over all 16384 rows R of the array at (R, j). -/
theorem ref_apply (X : (⟨2, ![16384, 256]⟩ : Shape).Idx → EReal) (j : Fin 256) :
    Cert.ReferenceIdeal.Read.val_main_v1 (F := Ideal) X (ix2 (0 : Fin 1) j)
      = (Finset.univ : Finset (Fin 16384)).fold max (⊥ : EReal) (fun R => X (ix2 R j)) := by
  rw [Cert.ReferenceIdeal.Read.val_main_v1_apply, idx_ref]
  unfold Cert.ReferenceIdeal.Read.val_main_v0
  have h : (⟨2, ![16384, 256]⟩ : Shape).Reduces [0] (⟨1, ![256]⟩ : Shape) := by decide
  refine (Host.reduce_eq_fold_single (FloatOps.maximumf (F := Ideal) (φ := .f32)) X _ _ h _ (ix1 j)).trans ?_
  show (Finset.univ : Finset (Fin 16384)).fold max (Ideal.ofBits .f32 0xFF800000#32) (X ∘ h.lift (ix1 j)) = _
  rw [negInf_eq_bot]
  exact congrArg (fun f => Finset.fold max (⊥ : EReal) f (Finset.univ : Finset (Fin 16384)))
    (funext fun k => congrArg X (lift_ix2 h j k))

/-- Row R of the whole array is row R % 512 of block R / 512. -/
theorem row_split (R : Fin 16384) : R.val / 512 < 32 ∧ R.val % 512 < 512 ∧ 512 * (R.val / 512) + R.val % 512 = R.val := by
  have := R.isLt
  omega

/-- The maximum over the ring offsets o of the block maxima of the blocks c − o is the maximum over all rows: the
    offsets o ↦ c − o run through every block once, and every row lies in exactly one block. -/
theorem fold_blocks (g : Fin 16384 → EReal) (c : Fin 32) :
    (Finset.univ : Finset (Fin 32)).fold max (⊥ : EReal) (fun o =>
        (Finset.univ : Finset (Fin 512)).fold max (⊥ : EReal) (fun r =>
          g ⟨512 * (c - o).val + r.val, by have := (c - o).isLt; have := r.isLt; omega⟩))
      = (Finset.univ : Finset (Fin 16384)).fold max (⊥ : EReal) g := by
  apply le_antisymm
  · refine (Finset.fold_max_le _).2 ⟨bot_le, fun o _ => ?_⟩
    refine (Finset.fold_max_le _).2 ⟨bot_le, fun r _ => ?_⟩
    exact (Finset.le_fold_max _).2 (Or.inr ⟨_, Finset.mem_univ _, le_rfl⟩)
  · refine (Finset.fold_max_le _).2 ⟨bot_le, fun R _ => ?_⟩
    obtain ⟨hd, hr, hR⟩ := row_split R
    refine (Finset.le_fold_max _).2 (Or.inr ⟨c - (⟨R.val / 512, hd⟩ : Fin 32), Finset.mem_univ _, ?_⟩)
    refine (Finset.le_fold_max _).2 (Or.inr ⟨(⟨R.val % 512, hr⟩ : Fin 512), Finset.mem_univ _, ?_⟩)
    refine le_of_eq (congrArg g (Fin.ext ?_))
    show R.val = 512 * (c - (c - (⟨R.val / 512, hd⟩ : Fin 32))).val + R.val % 512
    rw [sub_sub_cancel]
    exact hR.symm

/-- Block d of the array, cut along the rows, at (r, j) is the array at (512 d + r, j). -/
theorem block_apply_ix2 (X : (⟨2, ![16384, 256]⟩ : Shape).Idx → EReal) (d : Fin 32) (r : Fin 512) (j : Fin 256) :
    (Layout.block ⟨2, ![512, 256]⟩ ⟨2, ![16384, 256]⟩ 0 32 d X) (ix2 r j)
      = X (ix2 (⟨512 * d.val + r.val, by have := d.isLt; have := r.isLt; omega⟩ : Fin 16384) j) := by
  rw [Layout.block_apply]
  refine congrArg X ?_
  funext a; apply Fin.ext
  match a with
  | ⟨0, _⟩ =>
    refine ((Layout.idx_rows_val _ d (ix2 r j)).1).trans ?_
    show d.val * 512 + r.val = 512 * d.val + r.val
    omega
  | ⟨1, _⟩ => exact (Layout.idx_rows_val _ d (ix2 r j)).2

/-- Row o of device c's exchange buffer is the row that device c − o computed. -/
theorem commOf_apply (loc : Fin 32 → FVec Ideal ⟨2, ![1, 256]⟩ .f32) (c o : Fin 32) (j : Fin 256) :
    Cert.KernelIdeal.Exch.commOf (F := Ideal) loc c (ix2 o j) = loc (c - o) (ix2 (0 : Fin 1) j) := by
  show loc (c - ⟨o.val, o.isLt⟩) (Cert.KernelIdeal.Exch.rowIx ⟨j.val, j.isLt⟩) = _
  refine congrArg (loc (c - o)) ?_
  funext a; match a with | ⟨0, _⟩ => rfl | ⟨1, _⟩ => rfl

/-- The column maxima of the whole array are the maxima, over the ring offsets, of the column
    maxima of the blocks: what every device's result row holds is the reference's row. -/
theorem result_eq (X : (⟨2, ![16384, 256]⟩ : Shape).Idx → EReal) (c : Fin 32) :
    Cert.KernelIdeal.Gen.k0_pay1 (F := Ideal)
        (Cert.KernelIdeal.Exch.commOf (F := Ideal)
          (fun d => Cert.KernelIdeal.Gen.k0_pay2 (F := Ideal) (Layout.block ⟨2, ![512, 256]⟩ ⟨2, ![16384, 256]⟩ 0 32 d X)) c)
      = Cert.ReferenceIdeal.Read.val_main_v1 (F := Ideal) X := by
  funext i
  obtain ⟨p, j, rfl⟩ : ∃ (p : Fin 1) (j : Fin 256), i = ix2 p j := ⟨i 0, i 1, eq_ix2 i⟩
  obtain rfl : p = 0 := Subsingleton.elim _ _
  rw [pay1_apply, ref_apply]
  simp only [commOf_apply, pay2_apply, block_apply_ix2]
  exact fold_blocks (fun R => X (ix2 R j)) c

end Cert.MaxValue

end
-- ==== Proof.RefSide.lean ====
import proofs.«900924_g7700000000000925_dist_max_ax0_shard0_i_m512_n256_v7x_i32_bf16_1_alg».proof.Defs
import proofs.«900924_g7700000000000925_dist_max_ax0_shard0_i_m512_n256_v7x_i32_bf16_1_alg».proof.Proof.Gen.ReferenceIdeal.Run
import proofs.«900924_g7700000000000925_dist_max_ax0_shard0_i_m512_n256_v7x_i32_bf16_1_alg».proof.Proof.Gen.ReferenceIdeal.Read

noncomputable section

namespace Cert.RefSide

end Cert.RefSide

end
-- ==== Proof.lean ====
/- The five conjuncts of `Cert.Claim`. The two frames of the kernel (word-level and idealized) are the run of its one
   region with the result dropped: every device's argument array ends as launched. The reference's frame is its run with the
   result dropped. The idealization rewrote no operation, so `preserves` is `True`. `algebraic`: at the ideal instance the
   kernel's run leaves on every device the column maxima, over the ring offsets, of the column maxima of the devices' blocks;
   the blocks cut the reference's array along its rows, so this is the column maxima of the whole array, which is what the
   reference's run leaves. -/
import proofs.«900924_g7700000000000925_dist_max_ax0_shard0_i_m512_n256_v7x_i32_bf16_1_alg».proof.Defs
import proofs.«900924_g7700000000000925_dist_max_ax0_shard0_i_m512_n256_v7x_i32_bf16_1_alg».proof.Proof.Gen.Kernel
import proofs.«900924_g7700000000000925_dist_max_ax0_shard0_i_m512_n256_v7x_i32_bf16_1_alg».proof.Proof.Gen.Kernel.Skeleton
import proofs.«900924_g7700000000000925_dist_max_ax0_shard0_i_m512_n256_v7x_i32_bf16_1_alg».proof.Proof.Gen.Kernel.Launch
import proofs.«900924_g7700000000000925_dist_max_ax0_shard0_i_m512_n256_v7x_i32_bf16_1_alg».proof.Proof.Gen.Kernel.Points
import proofs.«900924_g7700000000000925_dist_max_ax0_shard0_i_m512_n256_v7x_i32_bf16_1_alg».proof.Proof.Gen.Kernel.Frame
import proofs.«900924_g7700000000000925_dist_max_ax0_shard0_i_m512_n256_v7x_i32_bf16_1_alg».proof.Proof.Gen.KernelIdeal
import proofs.«900924_g7700000000000925_dist_max_ax0_shard0_i_m512_n256_v7x_i32_bf16_1_alg».proof.Proof.Gen.KernelIdeal.Skeleton
import proofs.«900924_g7700000000000925_dist_max_ax0_shard0_i_m512_n256_v7x_i32_bf16_1_alg».proof.Proof.Gen.KernelIdeal.Launch
import proofs.«900924_g7700000000000925_dist_max_ax0_shard0_i_m512_n256_v7x_i32_bf16_1_alg».proof.Proof.Gen.KernelIdeal.Points
import proofs.«900924_g7700000000000925_dist_max_ax0_shard0_i_m512_n256_v7x_i32_bf16_1_alg».proof.Proof.Gen.KernelIdeal.Frame
import proofs.«900924_g7700000000000925_dist_max_ax0_shard0_i_m512_n256_v7x_i32_bf16_1_alg».proof.Proof.Gen.ReferenceIdeal
import proofs.«900924_g7700000000000925_dist_max_ax0_shard0_i_m512_n256_v7x_i32_bf16_1_alg».proof.Proof.Gen.Pre_finite_inputs_Kernel
import proofs.«900924_g7700000000000925_dist_max_ax0_shard0_i_m512_n256_v7x_i32_bf16_1_alg».proof.Proof.Gen.Pre_finite_inputs_ReferenceIdeal
import Idealize.ShloMosaic.Adequacy
import Idealize.ShloMosaic.Init
import proofs.«900924_g7700000000000925_dist_max_ax0_shard0_i_m512_n256_v7x_i32_bf16_1_alg».proof.Proof.Final
import proofs.«900924_g7700000000000925_dist_max_ax0_shard0_i_m512_n256_v7x_i32_bf16_1_alg».proof.Proof.Bits.Final
import proofs.«900924_g7700000000000925_dist_max_ax0_shard0_i_m512_n256_v7x_i32_bf16_1_alg».proof.Proof.MaxValue
import proofs.«900924_g7700000000000925_dist_max_ax0_shard0_i_m512_n256_v7x_i32_bf16_1_alg».proof.Proof.RefSide

noncomputable section

namespace Cert.Proof

open Idealize.ShloMosaic Idealize.SL.Sem Cert.Kernel

/-- When every device's argument array is its block of the rows of `X`, what the kernel leaves on device `c` — the column
    maxima of the rows the devices computed from their blocks — is the reference's value of `X`. -/
theorem kernel_value (m : (ℓ : Loc Cert.KernelIdeal.nD Cert.KernelIdeal.τ Cert.KernelIdeal.sig) → Buf (Elt Ideal) ℓ)
    (X : (⟨2, ![16384, 256]⟩ : Shape).Idx → EReal)
    (hagree : ∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c X)
    (c : Dev Cert.KernelIdeal.nD) :
    Cert.KernelIdeal.Gen.k0_pay1 (F := Ideal)
        (Cert.KernelIdeal.Exch.commOf (F := Ideal)
          (fun d : Dev Cert.KernelIdeal.nD => Cert.KernelIdeal.Gen.k0_pay2 (F := Ideal) (m ((d.tc : Thread Cert.KernelIdeal.nD Cert.KernelIdeal.τ).loc Cert.KernelIdeal.main_arg0))) c)
      = Cert.ReferenceIdeal.Read.val_main_v1 (F := Ideal) X := by
  have h : (fun d : Dev Cert.KernelIdeal.nD => Cert.KernelIdeal.Gen.k0_pay2 (F := Ideal) (m ((d.tc : Thread Cert.KernelIdeal.nD Cert.KernelIdeal.τ).loc Cert.KernelIdeal.main_arg0)))
      = fun d => Cert.KernelIdeal.Gen.k0_pay2 (F := Ideal) (Layout.block ⟨2, ![512, 256]⟩ ⟨2, ![16384, 256]⟩ 0 32 d X) :=
    funext fun d => by rw [hagree d]
  rw [h]
  exact Cert.MaxValue.result_eq X c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m ρ _ => Cert.KernelProof.frame_run (F := Bits) m ρ,
  fun m ρ _ => Cert.KernelIdealProof.frame_run (F := Ideal) m ρ,
  fun m ρ _ => (θ_run Cert.ReferenceIdeal.defs _ _).mono (fun _ h c => (h c).2) (Cert.ReferenceIdeal.Value.run (F := Ideal) m ρ),
  trivial,
  fun m ρ m' ρ' _ hagree =>
    ⟨Cert.ReferenceIdeal.Read.val_main_v1 (F := Ideal)
        (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun _ h c => ⟨(h c).1.trans (kernel_value m _ hagree c), (h c).2⟩)
        (Cert.KernelIdealProof.value_run (F := Ideal) m ρ),
      (θ_run (Cert.ReferenceIdeal.defs (F := Ideal)) _ _).mono
        (fun _ h => ⟨(h 0).1.trans (Cert.ReferenceIdeal.Read.val_main_v1_eq _), (h 0).2⟩)
        (Cert.ReferenceIdeal.Value.run (F := Ideal) m' ρ')⟩⟩

end Cert.Proof

end
